-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x4096 : Shape := ⟨3, ![8, 512, 4096]⟩
abbrev S8x512 : Shape := ⟨2, ![8, 512]⟩
abbrev S32000x4096 : Shape := ⟨2, ![32000, 4096]⟩
abbrev S_ : Shape := ⟨0, ![]⟩

class Facts : Prop where
  bcast_S_S8x512x4096 : S_.BroadcastsInDim S8x512x4096 (![] : Fin 0 → Fin S8x512x4096.rank)
  reducesTo_S8x512x4096_S_d0_1_2 : S8x512x4096.ReducesTo [0, 1, 2] S_
  h_S_ : 0 < S_.numel
  bcast_S_S32000x4096 : S_.BroadcastsInDim S32000x4096 (![] : Fin 0 → Fin S32000x4096.rank)
  reducesTo_S32000x4096_S_d0_1 : S32000x4096.ReducesTo [0, 1] S_
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : FVec F S8x512x4096 .f32) (main_arg1 : IVec S8x512 32) (main_arg2 : FVec F S32000x4096 .f32) : IVec S_ 1 :=
  let main_v0 : FVec F S8x512x4096 .f32 := Host.absf main_arg0
  let main_cst : FVec F S_ .f32 := constant S_ .f32 0x7F800000#32
  let main_v1 : FVec F S8x512x4096 .f32 := broadcastInDim S8x512x4096 ![] bcast_S_S8x512x4096 main_cst
  let main_v2 : IVec S8x512x4096 1 := cmpf .olt main_v0 main_v1
  let main_c : IVec S_ 1 := constantI S_ 1 1#1
  let main_v3 : IVec S_ 1 := (fun x v => Host.reduce IntOp.andi x v reducesTo_S8x512x4096_S_d0_1_2 h_S_) main_v2 main_c
  let main_v4 : FVec F S32000x4096 .f32 := Host.absf main_arg2
  let main_cst_0 : FVec F S_ .f32 := constant S_ .f32 0x7F800000#32
  let main_v5 : FVec F S32000x4096 .f32 := broadcastInDim S32000x4096 ![] bcast_S_S32000x4096 main_cst_0
  let main_v6 : IVec S32000x4096 1 := cmpf .olt main_v4 main_v5
  let main_c_1 : IVec S_ 1 := constantI S_ 1 1#1
  let main_v7 : IVec S_ 1 := (fun x v => Host.reduce IntOp.andi x v reducesTo_S32000x4096_S_d0_1 h_S_) main_v6 main_c_1
  let main_v8 : IVec S_ 1 := andi main_v3 main_v7
  let main_c_2 : IVec S_ 32 := constantI S_ 32 4294935296#32
  let main_v9 : IVec S8x512 32 := broadcastInDim S8x512 ![] bcast_S_S8x512 main_c_2
  let main_v10 : IVec S8x512 1 := cmpi .sge main_arg1 main_v9
  let main_c_3 : IVec S_ 32 := constantI S_ 32 32000#32
  let main_v11 : IVec S8x512 32 := broadcastInDim S8x512 ![] bcast_S_S8x512 main_c_3
  let main_v12 : IVec S8x512 1 := cmpi .slt main_arg1 main_v11
  let main_v13 : IVec S8x512 1 := andi main_v10 main_v12
  let main_c_4 : IVec S_ 1 := constantI S_ 1 1#1
  let main_v14 : IVec S_ 1 := (fun x v => Host.reduce IntOp.andi x v reducesTo_S8x512_S_d0_1 h_S_) main_v13 main_c_4
  let main_v15 : IVec S_ 1 := andi main_v8 main_v14
  main_v15
-- ==== Kernel.lean ====
abbrev S8x512x4096 : Shape := ⟨3, ![8, 512, 4096]⟩
abbrev S8x512 : Shape := ⟨2, ![8, 512]⟩
abbrev S32000x4096 : Shape := ⟨2, ![32000, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1024x4096 : Shape := ⟨2, ![1024, 4096]⟩
abbrev S640x4096 : Shape := ⟨2, ![640, 4096]⟩
abbrev S1024x1 : Shape := ⟨2, ![1024, 1]⟩
abbrev S1024x640 : Shape := ⟨2, ![1024, 640]⟩
abbrev S1024 : Shape := ⟨1, ![1024]⟩
abbrev S8 : Shape := ⟨1, ![8]⟩
abbrev S4 : Shape := ⟨1, ![4]⟩
abbrev S4x512 : Shape := ⟨2, ![4, 512]⟩

abbrev nBuf : Space → Nat
  | .hbm => 102
  | .vmem => 8
  | .smem => 0
  | _ => 0

abbrev bufTy : (tb : Table) → Fin (tcTables nBuf tb) → BufTy
  | .hbm, ⟨0, _⟩ => ⟨S8x512x4096, .f32⟩
  | .hbm, ⟨1, _⟩ => ⟨S8x512, .i32⟩
  | .hbm, ⟨2, _⟩ => ⟨S32000x4096, .f32⟩
  | .hbm, ⟨3, _⟩ => ⟨S4096x4096, .f32⟩
  | .hbm, ⟨4, _⟩ => ⟨S4096x4096, .bf16⟩
  | .hbm, ⟨5, _⟩ => ⟨S32000x4096, .bf16⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S4096x1, .i32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096, .f32⟩
  | .hbm, ⟨28, _⟩ => ⟨S4096, .f32⟩
  | .hbm, ⟨29, _⟩ => ⟨S8x512, .f32⟩
  | .hbm, ⟨30, _⟩ => ⟨S4096, .f32⟩
  | .hbm, ⟨31, _⟩ => ⟨S8x512, .f32⟩
  | .hbm, ⟨32, _⟩ => ⟨S8x512, .f32⟩
  | .hbm, ⟨33, _⟩ => ⟨S_, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S4, .f32⟩
  | .hbm, ⟨39, _⟩ => ⟨S4, .f32⟩
  | .hbm, ⟨40, _⟩ => ⟨S4, .f32⟩
  | .hbm, ⟨41, _⟩ => ⟨S_, .f32⟩
  | .hbm, ⟨42, _⟩ => ⟨S4, .f32⟩
  | .hbm, ⟨43, _⟩ => ⟨S4, .f32⟩
  | .hbm, ⟨44, _⟩ => ⟨S4, .f32⟩
  | .hbm, ⟨45, _⟩ => ⟨S_, .f32⟩
  | .hbm, ⟨46, _⟩ => ⟨S4, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S4, .i1⟩
  | .hbm, ⟨51, _⟩ => ⟨S4, .f32⟩
  | .hbm, ⟨52, _⟩ => ⟨S4, .f32⟩
  | .hbm, ⟨53, _⟩ => ⟨S4, .f32⟩
  | .hbm, ⟨54, _⟩ => ⟨S4, .f32⟩
  | .hbm, ⟨55, _⟩ => ⟨S4, .f32⟩
  | .hbm, ⟨56, _⟩ => ⟨S4, .f32⟩
  | .hbm, ⟨57, _⟩ => ⟨S4, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S_, .f32⟩
  | .hbm, ⟨62, _⟩ => ⟨S4, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S_, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S4, .f32⟩
  | .hbm, ⟨71, _⟩ => ⟨S4, .i1⟩
  | .hbm, ⟨72, _⟩ => ⟨S4, .f32⟩
  | .hbm, ⟨73, _⟩ => ⟨S4, .f32⟩
  | .hbm, ⟨74, _⟩ => ⟨S4, .f32⟩
  | .hbm, ⟨75, _⟩ => ⟨S4, .f32⟩
  | .hbm, ⟨76, _⟩ => ⟨S4, .f32⟩
  | .hbm, ⟨77, _⟩ => ⟨S4, .f32⟩
  | .hbm, ⟨78, _⟩ => ⟨S4, .f32⟩
  | .hbm, ⟨79, _⟩ => ⟨S4, .f32⟩
  | .hbm, ⟨80, _⟩ => ⟨S4, .f32⟩
  | .hbm, ⟨81, _⟩ => ⟨S_, .f32⟩
  | .hbm, ⟨82, _⟩ => ⟨S4, .f32⟩
  | .hbm, ⟨83, _⟩ => ⟨S4, .f32⟩
  | .hbm, ⟨84, _⟩ => ⟨S4, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S4x512, .f32⟩
  | .hbm, ⟨90, _⟩ => ⟨S4x512, .f32⟩
  | .hbm, ⟨91, _⟩ => ⟨S4x512, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S4x512, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .local _ .vmem, ⟨0, _⟩ => ⟨S1024x4096, .bf16⟩
  | .local _ .vmem, ⟨1, _⟩ => ⟨S1024x4096, .bf16⟩
  | .local _ .vmem, ⟨2, _⟩ => ⟨S640x4096, .bf16⟩
  | .local _ .vmem, ⟨3, _⟩ => ⟨S640x4096, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_call1_v0 : Ref sig .tc := ⟨.hbm, 44, rfl⟩
abbrev main_call1_call0_cst : Ref sig .tc := ⟨.hbm, 45, rfl⟩
abbrev main_call1_call0_v0 : Ref sig .tc := ⟨.hbm, 46, rfl⟩
abbrev main_call1_call0_v1 : Ref sig .tc := ⟨.hbm, 47, rfl⟩
abbrev main_call1_call0_v2 : Ref sig .tc := ⟨.hbm, 48, rfl⟩
abbrev main_call1_call0_v3 : Ref sig .tc := ⟨.hbm, 49, rfl⟩
abbrev main_call1_call0_v4 : Ref sig .tc := ⟨.hbm, 50, rfl⟩
abbrev main_call1_call0_v5 : Ref sig .tc := ⟨.hbm, 51, rfl⟩
abbrev main_call1_call0_v6 : Ref sig .tc := ⟨.hbm, 52, rfl⟩
abbrev main_call1_call0_v7 : Ref sig .tc := ⟨.hbm, 53, rfl⟩
abbrev main_call1_call0_v8 : Ref sig .tc := ⟨.hbm, 54, rfl⟩
abbrev main_call1_call0_v9 : Ref sig .tc := ⟨.hbm, 55, rfl⟩
abbrev main_call1_call0_v10 : Ref sig .tc := ⟨.hbm, 56, rfl⟩
abbrev main_call1_call0_v11 : Ref sig .tc := ⟨.hbm, 57, rfl⟩
abbrev main_call1_v1 : Ref sig .tc := ⟨.hbm, 58, rfl⟩
abbrev main_v31 : Ref sig .tc := ⟨.hbm, 59, rfl⟩
abbrev main_v32 : Ref sig .tc := ⟨.hbm, 60, rfl⟩
abbrev main_cst_6 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_call2_v0 : Ref sig .tc := ⟨.hbm, 65, rfl⟩
abbrev main_call2_call0_cst : Ref sig .tc := ⟨.hbm, 66, rfl⟩
abbrev main_call2_call0_v0 : Ref sig .tc := ⟨.hbm, 67, rfl⟩
abbrev main_call2_call0_v1 : Ref sig .tc := ⟨.hbm, 68, rfl⟩
abbrev main_call2_call0_v2 : Ref sig .tc := ⟨.hbm, 69, rfl⟩
abbrev main_call2_call0_v3 : Ref sig .tc := ⟨.hbm, 70, rfl⟩
abbrev main_call2_call0_v4 : Ref sig .tc := ⟨.hbm, 71, rfl⟩
abbrev main_call2_call0_v5 : Ref sig .tc := ⟨.hbm, 72, rfl⟩
abbrev main_call2_call0_v6 : Ref sig .tc := ⟨.hbm, 73, rfl⟩
abbrev main_call2_call0_v7 : Ref sig .tc := ⟨.hbm, 74, rfl⟩
abbrev main_call2_call0_v8 : Ref sig .tc := ⟨.hbm, 75, rfl⟩
abbrev main_call2_call0_v9 : Ref sig .tc := ⟨.hbm, 76, rfl⟩
abbrev main_call2_call0_v10 : Ref sig .tc := ⟨.hbm, 77, rfl⟩
abbrev main_call2_call0_v11 : Ref sig .tc := ⟨.hbm, 78, rfl⟩
abbrev main_call2_v1 : Ref sig .tc := ⟨.hbm, 79, rfl⟩
abbrev main_v36 : Ref sig .tc := ⟨.hbm, 80, rfl⟩
abbrev main_cst_7 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_8 : Ref sig .tc := ⟨.hbm, 85, rfl⟩
abbrev main_v40 : Ref sig .tc := ⟨.hbm, 86, rfl⟩
abbrev main_cst_9 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_cst_10 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_cst_11 : Ref sig .tc := ⟨.hbm, 96, rfl⟩
abbrev main_v48 : Ref sig .tc := ⟨.hbm, 97, rfl⟩
abbrev main_v49 : Ref sig .tc := ⟨.hbm, 98, rfl⟩
abbrev main_cst_12 : Ref sig .tc := ⟨.hbm, 99, rfl⟩
abbrev main_v50 : Ref sig .tc := ⟨.hbm, 100, rfl⟩
abbrev main_v51 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 50], ![false, false]⟩

def k0_cond2 (i : grid0.Coords) : BitVec 1 :=
  let arg1 : BitVec 32 := BitVec.ofNat 32 (i 1).val
  let c49_i32 : BitVec 32 := 49#32
  let v28 : BitVec 1 := Scalar.cmpi .eq arg1 c49_i32
  let v29 : BitVec 32 := Scalar.extui v28
  let c0_i32_14 : BitVec 32 := 0#32
  let v30 : BitVec 1 := Scalar.cmpi .ne v29 c0_i32_14
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x512x4096_S4096x4096 : S8x512x4096.ShapeCasts S4096x4096
  bitsLt_bf16_f32 : FTy.bits .bf16 < FTy.bits .f32
  shapeCasts_S8x512_S4096 : S8x512.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  reducesTo_S4096x4096_S4096_d1 : S4096x4096.ReducesTo [1] S4096
  h_S_ : 0 < S_.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S640x4096_S640x4096_0_0 : ∀ a, (![0, 0] : Fin 2 → Nat) a + S640x4096.size a ≤ S640x4096.size a
  h_S640x4096 : 0 < S640x4096.numel
  shapeCasts_S640x4096_S640x4096 : S640x4096.ShapeCasts S640x4096
  reduces_S1024x640_S1024 : S1024x640.Reduces [1] S1024
  shapeCasts_S1024_S1024x1 : S1024.ShapeCasts S1024x1
  broadcasts_S1024x1_S1024x640 : S1024x1.Broadcasts S1024x640
  shapeCasts_S4096x1_S4096 : S4096x1.ShapeCasts S4096
  shapeCasts_S4096_S8x512 : S4096.ShapeCasts S8x512
  reducesTo_S8x512_S8_d1 : S8x512.ReducesTo [1] S8
  slices_S8_S4_0 : S8.Slices ![0] S4
  slices_S8_S4_4 : S8.Slices ![4] S4
  bcast_S_S4 : S_.BroadcastsInDim S4 (![] : Fin 0 → Fin S4.rank)
  reducesTo_S4_S_d0 : S4.ReducesTo [0] S_
  slices_S8x512_S4x512_0_0 : S8x512.Slices ![0, 0] S4x512
  reducesTo_S4x512_S_d0_1 : S4x512.ReducesTo [0, 1] S_
  gather_S32000x4096_S4096x1_S4096x4096_1_0_n_n_0_1_14096_wf : GatherDims.WF S32000x4096 S4096x1 S4096x4096 [1] [0] [] [0] [] 1 ![1, 4096]
  dot_S1024x4096_S640x4096_S1024x640_1_1_0_0_n_n_wf : DotDims.WF S1024x4096 S640x4096 S1024x640 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x4096.size a ≤ S32000x4096.size a
  hwx0_1 : ∀ i : grid0.Coords, EltTy.bits .bf16 = 32 ∨ (Rect.block (s := S32000x4096) S640x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)

variable [Facts₀]

def gather_S32000x4096_S4096x1_S4096x4096_1_0_n_n_0_1_14096 : GatherDims S32000x4096 S4096x1 S4096x4096 where
  offsetDims := [1]
  collapsedSliceDims := [0]
  operandBatchingDims := []
  startIndicesBatchingDims := []
  startIndexMap := [0]
  indexVectorDim := 1
  sliceSizes := ![1, 4096]
  wf := gather_S32000x4096_S4096x1_S4096x4096_1_0_n_n_0_1_14096_wf
def dot_S1024x4096_S640x4096_S1024x640_1_1_0_0_n_n : DotDims S1024x4096 S640x4096 S1024x640 where
  lhsContracting := [1]
  rhsContracting := [1]
  lhsNonContracting := [0]
  rhsNonContracting := [0]
  lhsBatch := []
  rhsBatch := []
  wf := dot_S1024x4096_S640x4096_S1024x640_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S640x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x512x4096 : Shape := ⟨3, ![8, 512, 4096]⟩
abbrev S8x512 : Shape := ⟨2, ![8, 512]⟩
abbrev S32000x4096 : Shape := ⟨2, ![32000, 4096]⟩
abbrev S8x512x32000 : Shape := ⟨3, ![8, 512, 32000]⟩
abbrev S_ : Shape := ⟨0, ![]⟩
abbrev S8x512x1 : Shape := ⟨3, ![8, 512, 1]⟩
abbrev S8x512x1x1 : Shape := ⟨4, ![8, 512, 1, 1]⟩
abbrev S1 : Shape := ⟨1, ![1]⟩
abbrev S1x1x1x1 : Shape := ⟨4, ![1, 1, 1, 1]⟩
abbrev S8 : Shape := ⟨1, ![8]⟩
abbrev S4 : Shape := ⟨1, ![4]⟩
abbrev S4x512 : Shape := ⟨2, ![4, 512]⟩

abbrev nBuf : Space → Nat
  | .hbm => 121
  | .vmem => 0
  | .smem => 0
  | _ => 0

abbrev bufTy : (tb : Table) → Fin (tcTables nBuf tb) → BufTy
  | .hbm, ⟨0, _⟩ => ⟨S8x512x4096, .f32⟩
  | .hbm, ⟨1, _⟩ => ⟨S8x512, .i32⟩
  | .hbm, ⟨2, _⟩ => ⟨S32000x4096, .f32⟩
  | .hbm, ⟨3, _⟩ => ⟨S8x512x32000, .f32⟩
  | .hbm, ⟨4, _⟩ => ⟨S_, .f32⟩
  | .hbm, ⟨5, _⟩ => ⟨S8x512, .f32⟩
  | .hbm, ⟨6, _⟩ => ⟨S_, .f32⟩
  | .hbm, ⟨7, _⟩ => ⟨S8x512, .f32⟩
  | .hbm, ⟨8, _⟩ => ⟨S8x512, .f32⟩
  | .hbm, ⟨9, _⟩ => ⟨S8x512x1, .f32⟩
  | .hbm, ⟨10, _⟩ => ⟨S8x512x32000, .f32⟩
  | .hbm, ⟨11, _⟩ => ⟨S8x512x32000, .f32⟩
  | .hbm, ⟨12, _⟩ => ⟨S8x512x32000, .f32⟩
  | .hbm, ⟨13, _⟩ => ⟨S_, .f32⟩
  | .hbm, ⟨14, _⟩ => ⟨S8x512, .f32⟩
  | .hbm, ⟨15, _⟩ => ⟨S8x512x1, .f32⟩
  | .hbm, ⟨16, _⟩ => ⟨S8x512x1, .f32⟩
  | .hbm, ⟨17, _⟩ => ⟨S8x512x32000, .f32⟩
  | .hbm, ⟨18, _⟩ => ⟨S8x512x32000, .f32⟩
  | .hbm, ⟨19, _⟩ => ⟨S_, .i32⟩
  | .hbm, ⟨20, _⟩ => ⟨S8x512, .i32⟩
  | .hbm, ⟨21, _⟩ => ⟨S8x512, .i1⟩
  | .hbm, ⟨22, _⟩ => ⟨S_, .i32⟩
  | .hbm, ⟨23, _⟩ => ⟨S_, .i32⟩
  | .hbm, ⟨24, _⟩ => ⟨S8x512, .i32⟩
  | .hbm, ⟨25, _⟩ => ⟨S8x512, .i32⟩
  | .hbm, ⟨26, _⟩ => ⟨S8x512x1, .i32⟩
  | .hbm, ⟨27, _⟩ => ⟨S_, .i32⟩
  | .hbm, ⟨28, _⟩ => ⟨S8x512x1, .i32⟩
  | .hbm, ⟨29, _⟩ => ⟨S8x512x1, .i1⟩
  | .hbm, ⟨30, _⟩ => ⟨S_, .i32⟩
  | .hbm, ⟨31, _⟩ => ⟨S8x512x1, .i32⟩
  | .hbm, ⟨32, _⟩ => ⟨S8x512x1, .i32⟩
  | .hbm, ⟨33, _⟩ => ⟨S8x512x1, .i32⟩
  | .hbm, ⟨34, _⟩ => ⟨S8x512x1x1, .i32⟩
  | .hbm, ⟨35, _⟩ => ⟨S1, .i32⟩
  | .hbm, ⟨36, _⟩ => ⟨S_, .i32⟩
  | .hbm, ⟨37, _⟩ => ⟨S8x512x1x1, .i32⟩
  | .hbm, ⟨38, _⟩ => ⟨S8x512x1x1, .i1⟩
  | .hbm, ⟨39, _⟩ => ⟨S1x1x1x1, .i32⟩
  | .hbm, ⟨40, _⟩ => ⟨S8x512x1x1, .i32⟩
  | .hbm, ⟨41, _⟩ => ⟨S8x512x1x1, .i1⟩
  | .hbm, ⟨42, _⟩ => ⟨S8x512x1x1, .i1⟩
  | .hbm, ⟨43, _⟩ => ⟨S_, .i1⟩
  | .hbm, ⟨44, _⟩ => ⟨S8x512x1, .i1⟩
  | .hbm, ⟨45, _⟩ => ⟨S8x512x1, .f32⟩
  | .hbm, ⟨46, _⟩ => ⟨S_, .f32⟩
  | .hbm, ⟨47, _⟩ => ⟨S8x512x1, .f32⟩
  | .hbm, ⟨48, _⟩ => ⟨S8x512x1, .f32⟩
  | .hbm, ⟨49, _⟩ => ⟨S8x512, .f32⟩
  | .hbm, ⟨50, _⟩ => ⟨S8x512, .f32⟩
  | .hbm, ⟨51, _⟩ => ⟨S8x512, .f32⟩
  | .hbm, ⟨52, _⟩ => ⟨S_, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S4, .f32⟩
  | .hbm, ⟨58, _⟩ => ⟨S4, .f32⟩
  | .hbm, ⟨59, _⟩ => ⟨S4, .f32⟩
  | .hbm, ⟨60, _⟩ => ⟨S_, .f32⟩
  | .hbm, ⟨61, _⟩ => ⟨S4, .f32⟩
  | .hbm, ⟨62, _⟩ => ⟨S4, .f32⟩
  | .hbm, ⟨63, _⟩ => ⟨S4, .f32⟩
  | .hbm, ⟨64, _⟩ => ⟨S_, .f32⟩
  | .hbm, ⟨65, _⟩ => ⟨S4, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S4, .i1⟩
  | .hbm, ⟨70, _⟩ => ⟨S4, .f32⟩
  | .hbm, ⟨71, _⟩ => ⟨S4, .f32⟩
  | .hbm, ⟨72, _⟩ => ⟨S4, .f32⟩
  | .hbm, ⟨73, _⟩ => ⟨S4, .f32⟩
  | .hbm, ⟨74, _⟩ => ⟨S4, .f32⟩
  | .hbm, ⟨75, _⟩ => ⟨S4, .f32⟩
  | .hbm, ⟨76, _⟩ => ⟨S4, .f32⟩
  | .hbm, ⟨77, _⟩ => ⟨S4, .f32⟩
  | .hbm, ⟨78, _⟩ => ⟨S4, .f32⟩
  | .hbm, ⟨79, _⟩ => ⟨S4, .f32⟩
  | .hbm, ⟨80, _⟩ => ⟨S_, .f32⟩
  | .hbm, ⟨81, _⟩ => ⟨S4, .f32⟩
  | .hbm, ⟨82, _⟩ => ⟨S4, .f32⟩
  | .hbm, ⟨83, _⟩ => ⟨S4, .f32⟩
  | .hbm, ⟨84, _⟩ => ⟨S4, .f32⟩
  | .hbm, ⟨85, _⟩ => ⟨S_, .f32⟩
  | .hbm, ⟨86, _⟩ => ⟨S4, .f32⟩
  | .hbm, ⟨87, _⟩ => ⟨S4, .f32⟩
  | .hbm, ⟨88, _⟩ => ⟨S4, .f32⟩
  | .hbm, ⟨89, _⟩ => ⟨S4, .f32⟩
  | .hbm, ⟨90, _⟩ => ⟨S4, .i1⟩
  | .hbm, ⟨91, _⟩ => ⟨S4, .f32⟩
  | .hbm, ⟨92, _⟩ => ⟨S4, .f32⟩
  | .hbm, ⟨93, _⟩ => ⟨S4, .f32⟩
  | .hbm, ⟨94, _⟩ => ⟨S4, .f32⟩
  | .hbm, ⟨95, _⟩ => ⟨S4, .f32⟩
  | .hbm, ⟨96, _⟩ => ⟨S4, .f32⟩
  | .hbm, ⟨97, _⟩ => ⟨S4, .f32⟩
  | .hbm, ⟨98, _⟩ => ⟨S4, .f32⟩
  | .hbm, ⟨99, _⟩ => ⟨S4, .f32⟩
  | .hbm, ⟨100, _⟩ => ⟨S_, .f32⟩
  | .hbm, ⟨101, _⟩ => ⟨S4, .f32⟩
  | .hbm, ⟨102, _⟩ => ⟨S4, .f32⟩
  | .hbm, ⟨103, _⟩ => ⟨S4, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S4x512, .f32⟩
  | .hbm, ⟨109, _⟩ => ⟨S4x512, .f32⟩
  | .hbm, ⟨110, _⟩ => ⟨S4x512, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S4x512, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S8x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_v4 : Ref sig .tc := ⟨.hbm, 25, rfl⟩
abbrev main_v5 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst : Ref sig .tc := ⟨.hbm, 52, rfl⟩
abbrev main_v10 : Ref sig .tc := ⟨.hbm, 53, rfl⟩
abbrev main_cst_1 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_call3_v0 : Ref sig .tc := ⟨.hbm, 63, rfl⟩
abbrev main_call3_call0_cst : Ref sig .tc := ⟨.hbm, 64, rfl⟩
abbrev main_call3_call0_v0 : Ref sig .tc := ⟨.hbm, 65, rfl⟩
abbrev main_call3_call0_v1 : Ref sig .tc := ⟨.hbm, 66, rfl⟩
abbrev main_call3_call0_v2 : Ref sig .tc := ⟨.hbm, 67, rfl⟩
abbrev main_call3_call0_v3 : Ref sig .tc := ⟨.hbm, 68, rfl⟩
abbrev main_call3_call0_v4 : Ref sig .tc := ⟨.hbm, 69, rfl⟩
abbrev main_call3_call0_v5 : Ref sig .tc := ⟨.hbm, 70, rfl⟩
abbrev main_call3_call0_v6 : Ref sig .tc := ⟨.hbm, 71, rfl⟩
abbrev main_call3_call0_v7 : Ref sig .tc := ⟨.hbm, 72, rfl⟩
abbrev main_call3_call0_v8 : Ref sig .tc := ⟨.hbm, 73, rfl⟩
abbrev main_call3_call0_v9 : Ref sig .tc := ⟨.hbm, 74, rfl⟩
abbrev main_call3_call0_v10 : Ref sig .tc := ⟨.hbm, 75, rfl⟩
abbrev main_call3_call0_v11 : Ref sig .tc := ⟨.hbm, 76, rfl⟩
abbrev main_call3_v1 : Ref sig .tc := ⟨.hbm, 77, rfl⟩
abbrev main_v18 : Ref sig .tc := ⟨.hbm, 78, rfl⟩
abbrev main_v19 : Ref sig .tc := ⟨.hbm, 79, rfl⟩
abbrev main_cst_3 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_call4_v0 : Ref sig .tc := ⟨.hbm, 84, rfl⟩
abbrev main_call4_call0_cst : Ref sig .tc := ⟨.hbm, 85, rfl⟩
abbrev main_call4_call0_v0 : Ref sig .tc := ⟨.hbm, 86, rfl⟩
abbrev main_call4_call0_v1 : Ref sig .tc := ⟨.hbm, 87, rfl⟩
abbrev main_call4_call0_v2 : Ref sig .tc := ⟨.hbm, 88, rfl⟩
abbrev main_call4_call0_v3 : Ref sig .tc := ⟨.hbm, 89, rfl⟩
abbrev main_call4_call0_v4 : Ref sig .tc := ⟨.hbm, 90, rfl⟩
abbrev main_call4_call0_v5 : Ref sig .tc := ⟨.hbm, 91, rfl⟩
abbrev main_call4_call0_v6 : Ref sig .tc := ⟨.hbm, 92, rfl⟩
abbrev main_call4_call0_v7 : Ref sig .tc := ⟨.hbm, 93, rfl⟩
abbrev main_call4_call0_v8 : Ref sig .tc := ⟨.hbm, 94, rfl⟩
abbrev main_call4_call0_v9 : Ref sig .tc := ⟨.hbm, 95, rfl⟩
abbrev main_call4_call0_v10 : Ref sig .tc := ⟨.hbm, 96, rfl⟩
abbrev main_call4_call0_v11 : Ref sig .tc := ⟨.hbm, 97, rfl⟩
abbrev main_call4_v1 : Ref sig .tc := ⟨.hbm, 98, rfl⟩
abbrev main_v23 : Ref sig .tc := ⟨.hbm, 99, rfl⟩
abbrev main_cst_4 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_cst_5 : Ref sig .tc := ⟨.hbm, 104, rfl⟩
abbrev main_v27 : Ref sig .tc := ⟨.hbm, 105, rfl⟩
abbrev main_cst_6 : Ref sig .tc := ⟨.hbm, 106, rfl⟩
abbrev main_v28 : Ref sig .tc := ⟨.hbm, 107, rfl⟩
abbrev main_v29 : Ref sig .tc := ⟨.hbm, 108, rfl⟩
abbrev main_v30 : Ref sig .tc := ⟨.hbm, 109, rfl⟩
abbrev main_v31 : Ref sig .tc := ⟨.hbm, 110, rfl⟩
abbrev main_cst_7 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_cst_8 : Ref sig .tc := ⟨.hbm, 115, rfl⟩
abbrev main_v35 : Ref sig .tc := ⟨.hbm, 116, rfl⟩
abbrev main_v36 : Ref sig .tc := ⟨.hbm, 117, rfl⟩
abbrev main_cst_9 : Ref sig .tc := ⟨.hbm, 118, rfl⟩
abbrev main_v37 : Ref sig .tc := ⟨.hbm, 119, rfl⟩
abbrev main_v38 : Ref sig .tc := ⟨.hbm, 120, rfl⟩

abbrev nD : Nat := 1
abbrev τ : Topo := Topo.v7x

variable {F : FTy → Type} [FloatOps F]

class Facts₀ : Prop where
  reducesTo_S8x512x32000_S8x512_d2 : S8x512x32000.ReducesTo [2] S8x512
  h_S_ : 0 < S_.numel
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x32000_0_1_2 : S8x512x1.BroadcastsInDim S8x512x32000 (![0, 1, 2] : Fin 3 → Fin S8x512x32000.rank)
  bcast_S_S8x512x1 : S_.BroadcastsInDim S8x512x1 (![] : Fin 0 → Fin S8x512x1.rank)
  shapeCasts_S8x512x1_S8x512x1x1 : S8x512x1.ShapeCasts S8x512x1x1
  bcast_S_S8x512x1x1 : S_.BroadcastsInDim S8x512x1x1 (![] : Fin 0 → Fin S8x512x1x1.rank)
  bcast_S1_S1x1x1x1_3 : S1.BroadcastsInDim S1x1x1x1 (![3] : Fin 1 → Fin S1x1x1x1.rank)
  bcast_S1x1x1x1_S8x512x1x1_0_1_2_3 : S1x1x1x1.BroadcastsInDim S8x512x1x1 (![0, 1, 2, 3] : Fin 4 → Fin S8x512x1x1.rank)
  reducesTo_S8x512x1x1_S8x512x1_d3 : S8x512x1x1.ReducesTo [3] S8x512x1
  shapeCasts_S8x512x1_S8x512 : S8x512x1.ShapeCasts S8x512
  reducesTo_S8x512_S8_d1 : S8x512.ReducesTo [1] S8
  slices_S8_S4_0 : S8.Slices ![0] S4
  slices_S8_S4_4 : S8.Slices ![4] S4
  bcast_S_S4 : S_.BroadcastsInDim S4 (![] : Fin 0 → Fin S4.rank)
  reducesTo_S4_S_d0 : S4.ReducesTo [0] S_
  slices_S8x512_S4x512_0_0 : S8x512.Slices ![0, 0] S4x512
  reducesTo_S4x512_S_d0_1 : S4x512.ReducesTo [0, 1] S_
  dot_S8x512x4096_S32000x4096_S8x512x32000_2_1_01_0_n_n_wf : DotDims.WF S8x512x4096 S32000x4096 S8x512x32000 [2] [1] [0, 1] [0] [] []
  gather_S8x512x32000_S8x512x1x1_S8x512x1_n_2_01_01_2_3_111_wf : GatherDims.WF S8x512x32000 S8x512x1x1 S8x512x1 [] [2] [0, 1] [2] [0, 1] 3 ![1, 1, 1]

variable [Facts₀]

def dot_S8x512x4096_S32000x4096_S8x512x32000_2_1_01_0_n_n : DotDims S8x512x4096 S32000x4096 S8x512x32000 where
  lhsContracting := [2]
  rhsContracting := [1]
  lhsNonContracting := [0, 1]
  rhsNonContracting := [0]
  lhsBatch := []
  rhsBatch := []
  wf := dot_S8x512x4096_S32000x4096_S8x512x32000_2_1_01_0_n_n_wf
def gather_S8x512x32000_S8x512x1x1_S8x512x1_n_2_01_01_2_3_111 : GatherDims S8x512x32000 S8x512x1x1 S8x512x1 where
  offsetDims := []
  collapsedSliceDims := [2]
  operandBatchingDims := [0, 1]
  startIndicesBatchingDims := [0, 1]
  startIndexMap := [2]
  indexVectorDim := 3
  sliceSizes := ![1, 1, 1]
  wf := gather_S8x512x32000_S8x512x1x1_S8x512x1_n_2_01_01_2_3_111_wf

class Facts : Prop extends Facts₀ where

variable [Facts]
-- ==== Proof.KitFrame.lean ====
/-
  The program around its one launch, and what the launch's body runs over.

  @main is three stretches of host operations (reshapes and format changes of the activations and the class weights,
  the label's class word, the gathered weight rows and their inner products with the activations), the launch, and
  five stretches after it (the subtraction of the kernel's result, the masked means and the preference loss). The
  stretches after the launch read the launch's result array and the buffers that bypass the launch; they write
  neither an array the launch's windows stage nor an argument.

  The launch walks a 4 x 50 grid: axis 0 over blocks of 1024 tokens, axis 1 over blocks of 640 classes. The body
  resets the two scratch columns (the running maximum and the running sum) at the first class block of a token
  block, updates them at every point, and stores maximum + log sum into the output block at the last class block.
-/
import proofs.«426376_j48859547959894_3_alg».proof.Proof.Gen.KernelIdeal.Launch
import proofs.«426376_j48859547959894_3_alg».proof.Proof.Gen.KernelIdeal.Skeleton
import proofs.«426376_j48859547959894_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Cpo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretches before and after the launch -/

/-- The three stretches before the launch. -/
abbrev preOps : List (List (HloOp τ sig (Elt F))) := [hostOps0, hostOps0_1, hostOps0_2]
/-- The five stretches after the launch. -/
abbrev tailOps : List (List (HloOp τ sig (Elt F))) := [hostOps1, hostOps1_1, hostOps1_2, hostOps1_3, hostOps1_4]

/-- What core c's buffers hold when the launch begins: the launch memory after the stretches before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-- No host operation allocates. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor

/-- @main is the stretches before the launch, the launch, and the stretches after it: it reduces to the launch
    continued by the later stretches, the buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps
    (by simp only [List.Forall]; exact ⟨hostOps0_sub, hostOps0_1_sub, hostOps0_2_sub⟩)
    (by simp only [List.Forall]; exact ⟨fresh0, fresh0_1, fresh0_2⟩) main_chain

/-- The later stretches touch the launch's arrays and the bypassing buffers only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop

/-- A buffer that no operation of a list writes: the list's operations each write one result buffer, another one. -/
macro "no_write" : tactic => `(tactic|
  (simp only [List.Forall, StableHlo.TRef.nullary, StableHlo.TRef.unary, StableHlo.TRef.binary, StableHlo.TRef.ternary, StableHlo.TRef.reshape,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-- No later stretch writes a reference b that is none of their result buffers. -/
theorem keeps1 (b : Ref sig .tc) (hb : b = main_v1 ∨ b = main_v2 ∨ b = main_v16 ∨ b = main_arg0 ∨ b = main_arg1 ∨ b = main_arg2) :
    (hostOps1 : List (HloOp τ sig (Elt F))).Forall fun op => Proc.devRef .tc b ∉ op.writes := by
  rcases hb with rfl | rfl | rfl | rfl | rfl | rfl <;> no_write
theorem keeps1_1 (b : Ref sig .tc) (hb : b = main_v1 ∨ b = main_v2 ∨ b = main_v16 ∨ b = main_arg0 ∨ b = main_arg1 ∨ b = main_arg2) :
    (hostOps1_1 : List (HloOp τ sig (Elt F))).Forall fun op => Proc.devRef .tc b ∉ op.writes := by
  rcases hb with rfl | rfl | rfl | rfl | rfl | rfl <;> no_write
theorem keeps1_2 (b : Ref sig .tc) (hb : b = main_v1 ∨ b = main_v2 ∨ b = main_v16 ∨ b = main_arg0 ∨ b = main_arg1 ∨ b = main_arg2) :
    (hostOps1_2 : List (HloOp τ sig (Elt F))).Forall fun op => Proc.devRef .tc b ∉ op.writes := by
  rcases hb with rfl | rfl | rfl | rfl | rfl | rfl <;> no_write
theorem keeps1_3 (b : Ref sig .tc) (hb : b = main_v1 ∨ b = main_v2 ∨ b = main_v16 ∨ b = main_arg0 ∨ b = main_arg1 ∨ b = main_arg2) :
    (hostOps1_3 : List (HloOp τ sig (Elt F))).Forall fun op => Proc.devRef .tc b ∉ op.writes := by
  rcases hb with rfl | rfl | rfl | rfl | rfl | rfl <;> no_write
theorem keeps1_4 (b : Ref sig .tc) (hb : b = main_v1 ∨ b = main_v2 ∨ b = main_v16 ∨ b = main_arg0 ∨ b = main_arg1 ∨ b = main_arg2) :
    (hostOps1_4 : List (HloOp τ sig (Elt F))).Forall fun op => Proc.devRef .tc b ∉ op.writes := by
  rcases hb with rfl | rfl | rfl | rfl | rfl | rfl <;> no_write

/-- The launch's arrays are the bf16 activations, the bf16 class weights and the result column. -/
theorem arrRef_cases (w : Fin 3) : Pipeline.arrRef spec0 w = main_v1 ∨ Pipeline.arrRef spec0 w = main_v2 ∨ Pipeline.arrRef spec0 w = main_v16
    ∨ Pipeline.arrRef spec0 w = main_arg0 ∨ Pipeline.arrRef spec0 w = main_arg1 ∨ Pipeline.arrRef spec0 w = main_arg2 := by
  fin_cases w
  · exact .inl rfl
  · exact .inr (.inl rfl)
  · exact .inr (.inr (.inl rfl))

/-- The later stretches write no array of the launch. -/
theorem tail_keeps : ∀ ops ∈ (tailOps : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl | rfl | rfl
  · exact (List.forall_iff_forall_mem.mp (keeps1 _ (arrRef_cases w))) op hop
  · exact (List.forall_iff_forall_mem.mp (keeps1_1 _ (arrRef_cases w))) op hop
  · exact (List.forall_iff_forall_mem.mp (keeps1_2 _ (arrRef_cases w))) op hop
  · exact (List.forall_iff_forall_mem.mp (keeps1_3 _ (arrRef_cases w))) op hop
  · exact (List.forall_iff_forall_mem.mp (keeps1_4 _ (arrRef_cases w))) op hop

/-- No stretch before the launch writes an argument: the launch finds the arguments as launched. -/
theorem pre_keeps (b : Ref sig .tc) (hb : b = main_arg0 ∨ b = main_arg1 ∨ b = main_arg2) :
    (List.flatten (preOps (F := F))).Forall fun op => Proc.devRef .tc b ∉ op.writes := by
  rcases hb with rfl | rfl | rfl <;>
  (simp only [hostOps0, hostOps0_1, hostOps0_2, List.flatten_cons, List.flatten_nil, List.append_nil, List.cons_append, List.nil_append]
   no_write)

theorem V_arg (c : Dev nD) (b : Ref sig .tc) (hb : b = main_arg0 ∨ b = main_arg1 ∨ b = main_arg2) :
    V m c b = m ((c : Thread nD τ).loc b) :=
  StableHlo.after_of_forall_not_mem (b := Proc.devRef .tc b) _ _ (List.forall_iff_forall_mem.mp (pre_keeps b hb))

/-- No argument is an array of the launch. -/
theorem arr_ne_arg (b : Ref sig .tc) (hb : b = main_arg0 ∨ b = main_arg1 ∨ b = main_arg2) : ∀ w, Pipeline.arrRef spec0 w ≠ b := by
  rcases hb with rfl | rfl | rfl
  · exact (by decide : ∀ w, Pipeline.arrRef spec0 w ≠ main_arg0)
  · exact (by decide : ∀ w, Pipeline.arrRef spec0 w ≠ main_arg1)
  · exact (by decide : ∀ w, Pipeline.arrRef spec0 w ≠ main_arg2)

/-- The arguments end as launched: no later stretch writes one, and none is an array of the launch. -/
theorem W_arg (dats : (p : Fin 1) → (c : Dev nD) → Dat τ (Elt F) Unit ℕ (UR sig nD τ) ℕ (cfgs p) c) (c : Dev nD)
    (b : Ref sig .tc) (hb : b = main_arg0 ∨ b = main_arg1 ∨ b = main_arg2) :
    Pipeline.afterTail₀ cfgs dats 0 (V0 m) tailOps c b = m ((c : Thread nD τ).loc b) := by
  have hb' : b = main_v1 ∨ b = main_v2 ∨ b = main_v16 ∨ b = main_arg0 ∨ b = main_arg1 ∨ b = main_arg2 := .inr (.inr (.inr hb))
  unfold Pipeline.afterTail₀
  rw [StableHlo.after_of_forall_not_mem (b := Proc.devRef .tc b) _ _ (fun op hop => by
      simp only [List.flatten_cons, List.flatten_nil, List.append_nil, List.mem_append] at hop
      rcases hop with hop | hop | hop | hop | hop
      · exact (List.forall_iff_forall_mem.mp (keeps1 b hb')) op hop
      · exact (List.forall_iff_forall_mem.mp (keeps1_1 b hb')) op hop
      · exact (List.forall_iff_forall_mem.mp (keeps1_2 b hb')) op hop
      · exact (List.forall_iff_forall_mem.mp (keeps1_3 b hb')) op hop
      · exact (List.forall_iff_forall_mem.mp (keeps1_4 b hb')) op hop),
    Pipeline.withArrays_of_ne _ c (V0 m c) _ b (arr_ne_arg b hb)]
  exact V_arg m c b hb

/-! ## The windows' blocks -/

/-- Window w's block at point t, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data, a run to the library's frame post, read at the three argument arrays (none is staged by a
    window, so each is a bypassing buffer no stretch writes), is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_arg m dats c main_arg0 (.inl rfl)),
     ((h c).2 main_arg1 (Pipeline.mem_restRefs_of main_arg1 (by decide) (by decide))).trans (W_arg m dats c main_arg1 (.inr (.inl rfl))),
     ((h c).2 main_arg2 (Pipeline.mem_restRefs_of main_arg2 (by decide) (by decide))).trans (W_arg m dats c main_arg2 (.inr (.inr rfl)))⟩) h

/-! ## The body's two conditions over the grid -/

/-- "First class block": the reset of the scratch columns. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 50 = 0 :=
  (by decide +kernel : ∀ t : Fin grid0.N, isFirst (grid0.coords t) ↔ t.val % 50 = 0)

/-- "Last class block": the store of the output block. -/
abbrev isLast (i : grid0.Coords) : Prop := k0_cond2 i = 1#1
theorem isLast_iff : ∀ t : Fin cfg0.N, isLast (grid0.coords t) ↔ t.val % 50 = 49 :=
  (by decide +kernel : ∀ t : Fin grid0.N, isLast (grid0.coords t) ↔ t.val % 50 = 49)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Where the body does not store the output block the window is idle and is not written back. -/
theorem idle2 : ∀ t : Fin cfg0.N, ¬isLast (grid0.coords t) → cfg0.idle 2 (grid0.coords t) = true := by decide +kernel
theorem noFlush2 : ∀ t : Fin cfg0.N, ¬isLast (grid0.coords t) → (cfg0.win 2).flush t = false := by decide +kernel
theorem live2 : ∀ t : Fin cfg0.N, isLast (grid0.coords t) → cfg0.idle 2 (grid0.coords t) = false := by decide +kernel

/-! ## The memrefs the body is called with -/

/-- One staging buffer of the output window, through which its contents are stated. -/
abbrev outView : View sig .tc .vmem S1024x1 .f32 := (Memref.whole cc0_stg2_0 : Memref sig .tc .vmem S1024x1 .f32).view
abbrev stX (t : Fin cfg0.N) : Memref sig .tc .vmem S1024x4096 .bf16 := win0_0.stage (cfg0.slots t 0)
abbrev hstX (t : Fin cfg0.N) : (stX t).IsWhole := hstage0_0 ((cfg0.slots t 0).cast nbuf0_0)
abbrev stW (t : Fin cfg0.N) : Memref sig .tc .vmem S640x4096 .bf16 := win0_1.stage (cfg0.slots t 1)
abbrev hstW (t : Fin cfg0.N) : (stW t).IsWhole := hstage0_1 ((cfg0.slots t 1).cast nbuf0_1)
abbrev stO (t : Fin cfg0.N) : Memref sig .tc .vmem S1024x1 .f32 := win0_2.stage (cfg0.slots t 2)
abbrev hstO (t : Fin cfg0.N) : (stO t).IsWhole := hstage0_2 ((cfg0.slots t 2).cast nbuf0_2)
/-- The two scratch columns: the running maximum and the running sum. -/
abbrev scrM : Memref sig .tc .vmem S1024x1 .f32 := Memref.whole cc0_scratch0
abbrev scrL : Memref sig .tc .vmem S1024x1 .f32 := Memref.whole cc0_scratch1
abbrev viewM : View sig .tc .vmem S1024x1 .f32 := scrM.view
abbrev viewL : View sig .tc .vmem S1024x1 .f32 := scrL.view

/-- What the launch hands the body besides the windows: the two scratch columns at some contents and the generator
    register at some state. -/
theorem PhiA_eq (c : Dev nD) :
    (Pipeline.ΦA spec0 c : sProp 𝕄)
      = iprop(iprop((∃ d, owns (c : Thread nD τ) scrM fullShare d) ∗ (∃ d, owns (c : Thread nD τ) scrL fullShare d)) ∗ (∃ r, prngReg c r)) := by
  unfold Pipeline.ΦA; rw [scopedRest0_eq]; simp only [scrM, scrL, owns_whole]; try rfl

end Cert.KernelIdeal.Cpo

end
-- ==== Proof.RunFirst.lean ====
/-
  The body at the first class block of a token block, but not the last: it resets the running maximum to -inf and
  the running sum to 0, then absorbs the block (the maximum column stored twice, the sum column stored twice); the
  output block is not touched. The body's run, with the pieces each scratch column ends with found by the run.
-/
import proofs.«426376_j48859547959894_3_alg».proof.Proof.KitFrame

set_option maxRecDepth 16384

noncomputable section

namespace Cert.KernelIdeal.Cpo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two input blocks at their contents, the output buffer at contents handed back untouched,
    the two scratch columns at anything — the body runs to its end holding the inputs and the output buffer as they
    were and each scratch column with its pieces written. -/
noncomputable def runFirst (c : Dev nD) (i : grid0.Coords) (arg2 : Memref sig .tc .vmem S1024x4096 .bf16) (harg2 : arg2.IsWhole) (arg3 : Memref sig .tc .vmem S640x4096 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : isFirst i) (hc1 : ¬isLast i)
    (x0 : Vec F S1024x4096 .bf16) (x1 : Vec F S640x4096 .bf16) :
    Σ' (LO : List (View.Piece (Elt F) S1024x1 .f32)) (LM : List (View.Piece (Elt F) S1024x1 .f32)), { LL : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LM)
                ∗ (∃ f, arg6.view.loc (c : Thread nD τ) ↦[arg6.view.set]{fullShare} arg6.view.writes (Elt F) f LL)) -∗ K ⟨⟩))
          ⊢ wp frame (wpE (defs₀ (F := F)) Variants.none c none) E (cc0__cpo_lse_kernel i arg2 harg2 arg3 harg3 arg4 harg4 arg5 harg5 arg6 harg6) K } := by
  refine ⟨[], ?_, ?_, fun xi2 E K => ?run⟩
  case run =>
    simp only [cc0__cpo_lse_kernel_eq_skeleton]; unfold cc0__cpo_lse_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Cpo

end
-- ==== Proof.RunMid.lean ====
/-
  The body at a class block that is neither the first nor the last of its token block: it absorbs the block into
  the running maximum and the running sum the point before left; the output block is not touched.
-/
import proofs.«426376_j48859547959894_3_alg».proof.Proof.KitFrame

set_option maxRecDepth 16384

noncomputable section

namespace Cert.KernelIdeal.Cpo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two input blocks at their contents, the output buffer at contents handed back untouched,
    the two scratch columns at what the point before left — the body runs to its end holding the inputs and the
    output buffer as they were and each scratch column with its pieces written. -/
noncomputable def runMid (c : Dev nD) (i : grid0.Coords) (arg2 : Memref sig .tc .vmem S1024x4096 .bf16) (harg2 : arg2.IsWhole) (arg3 : Memref sig .tc .vmem S640x4096 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : ¬isLast i)
    (x0 : Vec F S1024x4096 .bf16) (x1 : Vec F S640x4096 .bf16) (xm : Vec F S1024x1 .f32) (xl : Vec F S1024x1 .f32) :
    Σ' (LO : List (View.Piece (Elt F) S1024x1 .f32)) (LM : List (View.Piece (Elt F) S1024x1 .f32)), { LL : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xm ∗ owns (c : Thread nD τ) arg6 fullShare xl
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LM)
                ∗ (∃ f, arg6.view.loc (c : Thread nD τ) ↦[arg6.view.set]{fullShare} arg6.view.writes (Elt F) f LL)) -∗ K ⟨⟩))
          ⊢ wp frame (wpE (defs₀ (F := F)) Variants.none c none) E (cc0__cpo_lse_kernel i arg2 harg2 arg3 harg3 arg4 harg4 arg5 harg5 arg6 harg6) K } := by
  refine ⟨[], ?_, ?_, fun xi2 E K => ?run⟩
  case run =>
    simp only [cc0__cpo_lse_kernel_eq_skeleton]; unfold cc0__cpo_lse_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Cpo

end
-- ==== Proof.RunLast.lean ====
/-
  The body at the last class block of a token block (never the first: a token block has fifty class blocks): it
  absorbs the block into the running maximum and the running sum, then stores maximum + log sum into the output block.
-/
import proofs.«426376_j48859547959894_3_alg».proof.Proof.KitFrame

set_option maxRecDepth 16384

noncomputable section

namespace Cert.KernelIdeal.Cpo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two input blocks at their contents, the output buffer at anything, the two scratch columns
    at what the point before left — the body runs to its end holding the inputs as they were and the output buffer and
    each scratch column with its pieces written. -/
noncomputable def runLast (c : Dev nD) (i : grid0.Coords) (arg2 : Memref sig .tc .vmem S1024x4096 .bf16) (harg2 : arg2.IsWhole) (arg3 : Memref sig .tc .vmem S640x4096 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : isLast i)
    (x0 : Vec F S1024x4096 .bf16) (x1 : Vec F S640x4096 .bf16) (xm : Vec F S1024x1 .f32) (xl : Vec F S1024x1 .f32) :
    Σ' (LO : List (View.Piece (Elt F) S1024x1 .f32)) (LM : List (View.Piece (Elt F) S1024x1 .f32)), { LL : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xm ∗ owns (c : Thread nD τ) arg6 fullShare xl
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LM)
                ∗ (∃ f, arg6.view.loc (c : Thread nD τ) ↦[arg6.view.set]{fullShare} arg6.view.writes (Elt F) f LL)) -∗ K ⟨⟩))
          ⊢ wp frame (wpE (defs₀ (F := F)) Variants.none c none) E (cc0__cpo_lse_kernel i arg2 harg2 arg3 harg3 arg4 harg4 arg5 harg5 arg6 harg6) K } := by
  refine ⟨?_, ?_, ?_, fun E K => ?run⟩
  case run =>
    simp only [cc0__cpo_lse_kernel_eq_skeleton]; unfold cc0__cpo_lse_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Cpo

end
-- ==== Proof.FrameRun.lean ====
/-
  What the launch's buffers hold point by point, the launch's proof data, the body obligation and the frame run.

  The scratch columns are carried from point to point: after a point they hold what that point's case of the body
  stored, computed (except at a first class block, which resets them) from what the point before left. The output
  block's staging buffer is written at the last class block of a token block only; elsewhere the window is idle.
-/
import proofs.«426376_j48859547959894_3_alg».proof.Proof.RunFirst
import proofs.«426376_j48859547959894_3_alg».proof.Proof.RunMid
import proofs.«426376_j48859547959894_3_alg».proof.Proof.RunLast

set_option maxRecDepth 16384

noncomputable section

namespace Cert.KernelIdeal.Cpo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A column's contents after a list of pieces was stored into it, read through a view of it. -/
def colOf (v : View sig .tc .vmem S1024x1 .f32) (L : List (View.Piece (Elt F) S1024x1 .f32)) : Vec F S1024x1 .f32 :=
  v.read (Elt F) (v.writes (Elt F) v.junk L)

/-! ## The three cases at a point -/

theorem notLast_of_first (t : Fin cfg0.N) (h0 : t.val % 50 = 0) : ¬isLast (grid0.coords t) := fun h => by
  have := (isLast_iff t).mp h; omega
theorem notFirst_of (t : Fin cfg0.N) (h0 : ¬t.val % 50 = 0) : ¬isFirst (grid0.coords t) := fun h => h0 ((isFirst_iff t).mp h)
theorem notLast_of (t : Fin cfg0.N) (h1 : ¬t.val % 50 = 49) : ¬isLast (grid0.coords t) := fun h => h1 ((isLast_iff t).mp h)

/-- What the output buffer and the two scratch columns hold after the body at point t, from what the scratch columns
    held before it (pm, pl; not consulted at a first class block): the case the point is in, run on the point's
    memrefs and input blocks. -/
def stepAt (c : Dev nD) (t : Fin cfg0.N) (pm pl : Vec F S1024x1 .f32) :
    Vec F S1024x1 .f32 × Vec F S1024x1 .f32 × Vec F S1024x1 .f32 :=
  if h0 : t.val % 50 = 0 then
    (colOf outView (runFirst c (grid0.coords t) (stX t) (hstX t) (stW t) (hstW t) (stO t) (hstO t) scrM (Memref.isWhole_whole _) scrL (Memref.isWhole_whole _) ((isFirst_iff t).mpr h0) (notLast_of_first t h0) (iblk m c 0 t) (iblk m c 1 t)).1,
     colOf viewM (runFirst c (grid0.coords t) (stX t) (hstX t) (stW t) (hstW t) (stO t) (hstO t) scrM (Memref.isWhole_whole _) scrL (Memref.isWhole_whole _) ((isFirst_iff t).mpr h0) (notLast_of_first t h0) (iblk m c 0 t) (iblk m c 1 t)).2.1,
     colOf viewL (runFirst c (grid0.coords t) (stX t) (hstX t) (stW t) (hstW t) (stO t) (hstO t) scrM (Memref.isWhole_whole _) scrL (Memref.isWhole_whole _) ((isFirst_iff t).mpr h0) (notLast_of_first t h0) (iblk m c 0 t) (iblk m c 1 t)).2.2.1)
  else if h1 : t.val % 50 = 49 then
    (colOf outView (runLast c (grid0.coords t) (stX t) (hstX t) (stW t) (hstW t) (stO t) (hstO t) scrM (Memref.isWhole_whole _) scrL (Memref.isWhole_whole _) (notFirst_of t h0) ((isLast_iff t).mpr h1) (iblk m c 0 t) (iblk m c 1 t) pm pl).1,
     colOf viewM (runLast c (grid0.coords t) (stX t) (hstX t) (stW t) (hstW t) (stO t) (hstO t) scrM (Memref.isWhole_whole _) scrL (Memref.isWhole_whole _) (notFirst_of t h0) ((isLast_iff t).mpr h1) (iblk m c 0 t) (iblk m c 1 t) pm pl).2.1,
     colOf viewL (runLast c (grid0.coords t) (stX t) (hstX t) (stW t) (hstW t) (stO t) (hstO t) scrM (Memref.isWhole_whole _) scrL (Memref.isWhole_whole _) (notFirst_of t h0) ((isLast_iff t).mpr h1) (iblk m c 0 t) (iblk m c 1 t) pm pl).2.2.1)
  else
    (colOf outView (runMid c (grid0.coords t) (stX t) (hstX t) (stW t) (hstW t) (stO t) (hstO t) scrM (Memref.isWhole_whole _) scrL (Memref.isWhole_whole _) (notFirst_of t h0) (notLast_of t h1) (iblk m c 0 t) (iblk m c 1 t) pm pl).1,
     colOf viewM (runMid c (grid0.coords t) (stX t) (hstX t) (stW t) (hstW t) (stO t) (hstO t) scrM (Memref.isWhole_whole _) scrL (Memref.isWhole_whole _) (notFirst_of t h0) (notLast_of t h1) (iblk m c 0 t) (iblk m c 1 t) pm pl).2.1,
     colOf viewL (runMid c (grid0.coords t) (stX t) (hstX t) (stW t) (hstW t) (stO t) (hstO t) scrM (Memref.isWhole_whole _) scrL (Memref.isWhole_whole _) (notFirst_of t h0) (notLast_of t h1) (iblk m c 0 t) (iblk m c 1 t) pm pl).2.2.1)

/-- Each case's pieces for a scratch column (and, at a last class block, for the output buffer) tile the column: the
    stores are of the whole column. -/
theorem coverFirstM (c : Dev nD) (t : Fin cfg0.N) (h0 : isFirst (grid0.coords t)) (h1 : ¬isLast (grid0.coords t)) (x0 : Vec F S1024x4096 .bf16) (x1 : Vec F S640x4096 .bf16) (y : S1024x1.Idx) :
    ∃ pc ∈ (runFirst c (grid0.coords t) (stX t) (hstX t) (stW t) (hstW t) (stO t) (hstO t) scrM (Memref.isWhole_whole _) scrL (Memref.isWhole_whole _) h0 h1 x0 x1).2.1, y ∈ pc.1.set :=
  View.cover_of_tiledL (runFirst (F := F) c (grid0.coords t) (stX t) (hstX t) (stW t) (hstW t) (stO t) (hstO t) scrM (Memref.isWhole_whole _) scrL (Memref.isWhole_whole _) h0 h1 x0 x1).2.1 S1024x1.size (by sl_kernel_rfl) y
theorem coverFirstL (c : Dev nD) (t : Fin cfg0.N) (h0 : isFirst (grid0.coords t)) (h1 : ¬isLast (grid0.coords t)) (x0 : Vec F S1024x4096 .bf16) (x1 : Vec F S640x4096 .bf16) (y : S1024x1.Idx) :
    ∃ pc ∈ (runFirst c (grid0.coords t) (stX t) (hstX t) (stW t) (hstW t) (stO t) (hstO t) scrM (Memref.isWhole_whole _) scrL (Memref.isWhole_whole _) h0 h1 x0 x1).2.2.1, y ∈ pc.1.set :=
  View.cover_of_tiledL (runFirst (F := F) c (grid0.coords t) (stX t) (hstX t) (stW t) (hstW t) (stO t) (hstO t) scrM (Memref.isWhole_whole _) scrL (Memref.isWhole_whole _) h0 h1 x0 x1).2.2.1 S1024x1.size (by sl_kernel_rfl) y
theorem coverMidM (c : Dev nD) (t : Fin cfg0.N) (h0 : ¬isFirst (grid0.coords t)) (h1 : ¬isLast (grid0.coords t)) (x0 : Vec F S1024x4096 .bf16) (x1 : Vec F S640x4096 .bf16) (pm pl : Vec F S1024x1 .f32) (y : S1024x1.Idx) :
    ∃ pc ∈ (runMid c (grid0.coords t) (stX t) (hstX t) (stW t) (hstW t) (stO t) (hstO t) scrM (Memref.isWhole_whole _) scrL (Memref.isWhole_whole _) h0 h1 x0 x1 pm pl).2.1, y ∈ pc.1.set :=
  View.cover_of_tiledL (runMid (F := F) c (grid0.coords t) (stX t) (hstX t) (stW t) (hstW t) (stO t) (hstO t) scrM (Memref.isWhole_whole _) scrL (Memref.isWhole_whole _) h0 h1 x0 x1 pm pl).2.1 S1024x1.size (by sl_kernel_rfl) y
theorem coverMidL (c : Dev nD) (t : Fin cfg0.N) (h0 : ¬isFirst (grid0.coords t)) (h1 : ¬isLast (grid0.coords t)) (x0 : Vec F S1024x4096 .bf16) (x1 : Vec F S640x4096 .bf16) (pm pl : Vec F S1024x1 .f32) (y : S1024x1.Idx) :
    ∃ pc ∈ (runMid c (grid0.coords t) (stX t) (hstX t) (stW t) (hstW t) (stO t) (hstO t) scrM (Memref.isWhole_whole _) scrL (Memref.isWhole_whole _) h0 h1 x0 x1 pm pl).2.2.1, y ∈ pc.1.set :=
  View.cover_of_tiledL (runMid (F := F) c (grid0.coords t) (stX t) (hstX t) (stW t) (hstW t) (stO t) (hstO t) scrM (Memref.isWhole_whole _) scrL (Memref.isWhole_whole _) h0 h1 x0 x1 pm pl).2.2.1 S1024x1.size (by sl_kernel_rfl) y
theorem coverLastO (c : Dev nD) (t : Fin cfg0.N) (h0 : ¬isFirst (grid0.coords t)) (h1 : isLast (grid0.coords t)) (x0 : Vec F S1024x4096 .bf16) (x1 : Vec F S640x4096 .bf16) (pm pl : Vec F S1024x1 .f32) (y : S1024x1.Idx) :
    ∃ pc ∈ (runLast c (grid0.coords t) (stX t) (hstX t) (stW t) (hstW t) (stO t) (hstO t) scrM (Memref.isWhole_whole _) scrL (Memref.isWhole_whole _) h0 h1 x0 x1 pm pl).1, y ∈ pc.1.set :=
  View.cover_of_tiledL (runLast (F := F) c (grid0.coords t) (stX t) (hstX t) (stW t) (hstW t) (stO t) (hstO t) scrM (Memref.isWhole_whole _) scrL (Memref.isWhole_whole _) h0 h1 x0 x1 pm pl).1 S1024x1.size (by sl_kernel_rfl) y
theorem coverLastM (c : Dev nD) (t : Fin cfg0.N) (h0 : ¬isFirst (grid0.coords t)) (h1 : isLast (grid0.coords t)) (x0 : Vec F S1024x4096 .bf16) (x1 : Vec F S640x4096 .bf16) (pm pl : Vec F S1024x1 .f32) (y : S1024x1.Idx) :
    ∃ pc ∈ (runLast c (grid0.coords t) (stX t) (hstX t) (stW t) (hstW t) (stO t) (hstO t) scrM (Memref.isWhole_whole _) scrL (Memref.isWhole_whole _) h0 h1 x0 x1 pm pl).2.1, y ∈ pc.1.set :=
  View.cover_of_tiledL (runLast (F := F) c (grid0.coords t) (stX t) (hstX t) (stW t) (hstW t) (stO t) (hstO t) scrM (Memref.isWhole_whole _) scrL (Memref.isWhole_whole _) h0 h1 x0 x1 pm pl).2.1 S1024x1.size (by sl_kernel_rfl) y
theorem coverLastL (c : Dev nD) (t : Fin cfg0.N) (h0 : ¬isFirst (grid0.coords t)) (h1 : isLast (grid0.coords t)) (x0 : Vec F S1024x4096 .bf16) (x1 : Vec F S640x4096 .bf16) (pm pl : Vec F S1024x1 .f32) (y : S1024x1.Idx) :
    ∃ pc ∈ (runLast c (grid0.coords t) (stX t) (hstX t) (stW t) (hstW t) (stO t) (hstO t) scrM (Memref.isWhole_whole _) scrL (Memref.isWhole_whole _) h0 h1 x0 x1 pm pl).2.2.1, y ∈ pc.1.set :=
  View.cover_of_tiledL (runLast (F := F) c (grid0.coords t) (stX t) (hstX t) (stW t) (hstW t) (stO t) (hstO t) scrM (Memref.isWhole_whole _) scrL (Memref.isWhole_whole _) h0 h1 x0 x1 pm pl).2.2.1 S1024x1.size (by sl_kernel_rfl) y

/-! ## Point by point -/

/-- What the output buffer and the scratch columns hold after the body at position n: the point's case over what
    position n - 1 left in the scratch columns. -/
def outsAt (c : Dev nD) : (n : ℕ) → n < cfg0.N → Vec F S1024x1 .f32 × Vec F S1024x1 .f32 × Vec F S1024x1 .f32
  | 0, hn => stepAt m c ⟨0, hn⟩ (colOf viewM []) (colOf viewL [])
  | n + 1, hn => stepAt m c ⟨n + 1, hn⟩ (outsAt c n (Nat.lt_of_succ_lt hn)).2.1 (outsAt c n (Nat.lt_of_succ_lt hn)).2.2

theorem outsAt_zero (c : Dev nD) (hn : 0 < cfg0.N) : outsAt m c 0 hn = stepAt m c ⟨0, hn⟩ (colOf viewM []) (colOf viewL []) := rfl

/-- At a point that is not the launch's first: its case over what the point before left. -/
theorem outsAt_pos (c : Dev nD) (t : Fin cfg0.N) (hz : t.val ≠ 0) :
    outsAt m c t.val t.isLt = stepAt m c t (outsAt m c (t.val - 1) (Nat.lt_of_le_of_lt (Nat.sub_le _ _) t.isLt)).2.1
      (outsAt m c (t.val - 1) (Nat.lt_of_le_of_lt (Nat.sub_le _ _) t.isLt)).2.2 := by
  obtain ⟨n, hn⟩ := t
  cases n with
  | zero => exact absurd rfl hz
  | succ n => rfl

/-- The launch's invariant before position n: before the first point what the launch hands the body; afterwards the
    two scratch columns at what the point before left and the generator register at some state. -/
def PhiS (c : Dev nD) : (n : ℕ) → n ≤ cfg0.N → sProp 𝕄
  | 0, _ => Pipeline.ΦA spec0 c
  | n + 1, hn => iprop(iprop(owns (c : Thread nD τ) scrM fullShare ((outsAt m c n hn).2.1) ∗ owns (c : Thread nD τ) scrL fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scrM fullShare ((outsAt m c n hn).2.1) ∗ owns (c : Thread nD τ) scrL fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scrM fullShare ((outsAt m c (n - 1) (by omega)).2.1) ∗ owns (c : Thread nD τ) scrL fullShare ((outsAt m c (n - 1) (by omega)).2.2)) ∗ (∃ r, prngReg c r)) := by
  cases n with
  | zero => exact absurd rfl hz
  | succ n => rfl

/-! ## The launch's proof data -/

/-- The arrays as the launch finds them; after the body at point t each input's buffer at its block and the output's
    at `outsAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (stX t) fullShare ((dats m 0 c).before 0 t d))
    ∗ (∃ d, owns (c : Thread nD τ) (stW t) fullShare ((dats m 0 c).before 1 t d))
    ∗ (∃ d, owns (c : Thread nD τ) (stO t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the point's position among the fifty class blocks
    says which case it is in; the invariant hands the body the scratch columns (at anything before the launch's first
    point, else at what the point before left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (stX t) fullShare ((dats m 0 c).after 0 t) from by
    unfold Dat.leavesExact; rw [live0 t], after_0]
  rw [show (dats m 0 c).leavesExact 1 t = owns (c : Thread nD τ) (stW t) fullShare ((dats m 0 c).after 1 t) from by
    unfold Dat.leavesExact; rw [live1 t], after_1]
  have hN : t.val < 200 := lt_of_lt_of_eq t.isLt (show cfg0.N = 200 from N_0)
  by_cases h0 : t.val % 50 = 0
  · have hl : ¬isLast (grid0.coords t) := notLast_of_first t h0
    rw [Dat.leavesExact_idle (dats m 0 c) 2 t (idle2 t hl) (noFlush2 t hl)]
    by_cases hz : t.val = 0
    · rw [show outsAt m c t.val t.isLt = stepAt m c t (colOf viewM []) (colOf viewL []) from by
        obtain ⟨n, hn⟩ := t; cases hz; rfl]
      unfold stepAt; rw [dif_pos h0]; dsimp only; unfold colOf
      rw [PhiS_castSucc m c t, PhiS_zero m c _ _ hz, PhiA_eq]
      iintro ⟨⟨⟨HS0, HS1⟩, Hg⟩, Ho, ⟨%d0, H0⟩, ⟨%d1, H1⟩, ⟨%d2, H2⟩⟩
      iapply ((runFirst c (grid0.coords t) (stX t) (hstX t) (stW t) (hstW t) (stO t) (hstO t) scrM (Memref.isWhole_whole _) scrL (Memref.isWhole_whole _) ((isFirst_iff t).mpr h0) hl (iblk m c 0 t) (iblk m c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverFirstM c t _ _ _ _)
          · unfold owns; iexists _; isplitr
            swap; · iexact HS1
            ipureintro; exact View.read_writes_of_cover _ _ _ _ _ (coverFirstL c t _ _ _ _)
        iexact Hg
      isplitl [Ho]; · iexact Ho
      isplitl [H0]; · iexact H0
      isplitl [H1]; · iexact H1
      iexists _; iexact H2
    · rw [outsAt_pos m c t hz]
      unfold stepAt; rw [dif_pos h0]; dsimp only; unfold colOf
      rw [PhiS_castSucc m c t, PhiS_pos m c _ _ hz]
      iintro ⟨⟨⟨HS0, HS1⟩, Hg⟩, Ho, ⟨%d0, H0⟩, ⟨%d1, H1⟩, ⟨%d2, H2⟩⟩
      iapply ((runFirst c (grid0.coords t) (stX t) (hstX t) (stW t) (hstW t) (stO t) (hstO t) scrM (Memref.isWhole_whole _) scrL (Memref.isWhole_whole _) ((isFirst_iff t).mpr h0) hl (iblk m c 0 t) (iblk m c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverFirstM c t _ _ _ _)
          · unfold owns; iexists _; isplitr
            swap; · iexact HS1
            ipureintro; exact View.read_writes_of_cover _ _ _ _ _ (coverFirstL c t _ _ _ _)
        iexact Hg
      isplitl [Ho]; · iexact Ho
      isplitl [H0]; · iexact H0
      isplitl [H1]; · iexact H1
      iexists _; iexact H2
  · have hz : t.val ≠ 0 := fun e => h0 (by rw [e])
    have hf : ¬isFirst (grid0.coords t) := notFirst_of t h0
    by_cases h1 : t.val % 50 = 49
    · have hl : isLast (grid0.coords t) := (isLast_iff t).mpr h1
      rw [show (dats m 0 c).leavesExact 2 t = owns (c : Thread nD τ) (stO t) fullShare ((dats m 0 c).after 2 t) from by
        unfold Dat.leavesExact; rw [live2 t hl], after_2]
      rw [outsAt_pos m c t hz]
      unfold stepAt; rw [dif_neg h0, dif_pos h1]; dsimp only; unfold colOf
      rw [PhiS_castSucc m c t, PhiS_pos m c _ _ hz]
      iintro ⟨⟨⟨HS0, HS1⟩, Hg⟩, Ho, ⟨%d0, H0⟩, ⟨%d1, H1⟩, ⟨%d2, H2⟩⟩
      iapply ((runLast c (grid0.coords t) (stX t) (hstX t) (stW t) (hstW t) (stO t) (hstO t) scrM (Memref.isWhole_whole _) scrL (Memref.isWhole_whole _) hf hl (iblk m c 0 t) (iblk m c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverLastM c t _ _ _ _ _ _)
          · unfold owns; iexists _; isplitr
            swap; · iexact HS1
            ipureintro; exact View.read_writes_of_cover _ _ _ _ _ (coverLastL c t _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastO c t _ _ _ _ _ _)
    · have hl : ¬isLast (grid0.coords t) := notLast_of t h1
      rw [Dat.leavesExact_idle (dats m 0 c) 2 t (idle2 t hl) (noFlush2 t hl)]
      rw [outsAt_pos m c t hz]
      unfold stepAt; rw [dif_neg h0, dif_neg h1]; dsimp only; unfold colOf
      rw [PhiS_castSucc m c t, PhiS_pos m c _ _ hz]
      iintro ⟨⟨⟨HS0, HS1⟩, Hg⟩, Ho, ⟨%d0, H0⟩, ⟨%d1, H1⟩, ⟨%d2, H2⟩⟩
      iapply ((runMid c (grid0.coords t) (stX t) (hstX t) (stW t) (hstW t) (stO t) (hstO t) scrM (Memref.isWhole_whole _) scrL (Memref.isWhole_whole _) hf hl (iblk m c 0 t) (iblk m c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverMidM c t _ _ _ _ _ _)
          · unfold owns; iexists _; isplitr
            swap; · iexact HS1
            ipureintro; exact View.read_writes_of_cover _ _ _ _ _ (coverMidL c t _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives back what the launch handed out: the scratch columns' named contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitr [Hg]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 200 := N_0; omega)

/-! ## The run and the frame -/

set_option backward.isDefEq.respectTransparency.types false in
/-- Every weakly fair execution of @main terminates, and in every final state each array of the launch is at what the
    library computes from the proof data and every other unscoped buffer as the later stretches leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hin := hin m) (hout := hout m)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Cpo

end
-- ==== Proof.BitsKitFrame.lean ====
/-
  The program around its one launch, and what the launch's body runs over.

  @main is three stretches of host operations (reshapes and format changes of the activations and the class weights,
  the label's class word, the gathered weight rows and their inner products with the activations), the launch, and
  five stretches after it (the subtraction of the kernel's result, the masked means and the preference loss). The
  stretches after the launch read the launch's result array and the buffers that bypass the launch; they write
  neither an array the launch's windows stage nor an argument.

  The launch walks a 4 x 50 grid: axis 0 over blocks of 1024 tokens, axis 1 over blocks of 640 classes. The body
  resets the two scratch columns (the running maximum and the running sum) at the first class block of a token
  block, updates them at every point, and stores maximum + log sum into the output block at the last class block.
-/
import proofs.«426376_j48859547959894_3_alg».proof.Proof.Gen.Kernel.Launch
import proofs.«426376_j48859547959894_3_alg».proof.Proof.Gen.Kernel.Skeleton
import proofs.«426376_j48859547959894_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Cpo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretches before and after the launch -/

/-- The three stretches before the launch. -/
abbrev preOps : List (List (HloOp τ sig (Elt F))) := [hostOps0, hostOps0_1, hostOps0_2]
/-- The five stretches after the launch. -/
abbrev tailOps : List (List (HloOp τ sig (Elt F))) := [hostOps1, hostOps1_1, hostOps1_2, hostOps1_3, hostOps1_4]

/-- What core c's buffers hold when the launch begins: the launch memory after the stretches before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-- No host operation allocates. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor

/-- @main is the stretches before the launch, the launch, and the stretches after it: it reduces to the launch
    continued by the later stretches, the buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps
    (by simp only [List.Forall]; exact ⟨hostOps0_sub, hostOps0_1_sub, hostOps0_2_sub⟩)
    (by simp only [List.Forall]; exact ⟨fresh0, fresh0_1, fresh0_2⟩) main_chain

/-- The later stretches touch the launch's arrays and the bypassing buffers only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop

/-- A buffer that no operation of a list writes: the list's operations each write one result buffer, another one. -/
macro "no_write" : tactic => `(tactic|
  (simp only [List.Forall, StableHlo.TRef.nullary, StableHlo.TRef.unary, StableHlo.TRef.binary, StableHlo.TRef.ternary, StableHlo.TRef.reshape,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-- No later stretch writes a reference b that is none of their result buffers. -/
theorem keeps1 (b : Ref sig .tc) (hb : b = main_v1 ∨ b = main_v2 ∨ b = main_v16 ∨ b = main_arg0 ∨ b = main_arg1 ∨ b = main_arg2) :
    (hostOps1 : List (HloOp τ sig (Elt F))).Forall fun op => Proc.devRef .tc b ∉ op.writes := by
  rcases hb with rfl | rfl | rfl | rfl | rfl | rfl <;> no_write
theorem keeps1_1 (b : Ref sig .tc) (hb : b = main_v1 ∨ b = main_v2 ∨ b = main_v16 ∨ b = main_arg0 ∨ b = main_arg1 ∨ b = main_arg2) :
    (hostOps1_1 : List (HloOp τ sig (Elt F))).Forall fun op => Proc.devRef .tc b ∉ op.writes := by
  rcases hb with rfl | rfl | rfl | rfl | rfl | rfl <;> no_write
theorem keeps1_2 (b : Ref sig .tc) (hb : b = main_v1 ∨ b = main_v2 ∨ b = main_v16 ∨ b = main_arg0 ∨ b = main_arg1 ∨ b = main_arg2) :
    (hostOps1_2 : List (HloOp τ sig (Elt F))).Forall fun op => Proc.devRef .tc b ∉ op.writes := by
  rcases hb with rfl | rfl | rfl | rfl | rfl | rfl <;> no_write
theorem keeps1_3 (b : Ref sig .tc) (hb : b = main_v1 ∨ b = main_v2 ∨ b = main_v16 ∨ b = main_arg0 ∨ b = main_arg1 ∨ b = main_arg2) :
    (hostOps1_3 : List (HloOp τ sig (Elt F))).Forall fun op => Proc.devRef .tc b ∉ op.writes := by
  rcases hb with rfl | rfl | rfl | rfl | rfl | rfl <;> no_write
theorem keeps1_4 (b : Ref sig .tc) (hb : b = main_v1 ∨ b = main_v2 ∨ b = main_v16 ∨ b = main_arg0 ∨ b = main_arg1 ∨ b = main_arg2) :
    (hostOps1_4 : List (HloOp τ sig (Elt F))).Forall fun op => Proc.devRef .tc b ∉ op.writes := by
  rcases hb with rfl | rfl | rfl | rfl | rfl | rfl <;> no_write

/-- The launch's arrays are the bf16 activations, the bf16 class weights and the result column. -/
theorem arrRef_cases (w : Fin 3) : Pipeline.arrRef spec0 w = main_v1 ∨ Pipeline.arrRef spec0 w = main_v2 ∨ Pipeline.arrRef spec0 w = main_v16
    ∨ Pipeline.arrRef spec0 w = main_arg0 ∨ Pipeline.arrRef spec0 w = main_arg1 ∨ Pipeline.arrRef spec0 w = main_arg2 := by
  fin_cases w
  · exact .inl rfl
  · exact .inr (.inl rfl)
  · exact .inr (.inr (.inl rfl))

/-- The later stretches write no array of the launch. -/
theorem tail_keeps : ∀ ops ∈ (tailOps : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl | rfl | rfl
  · exact (List.forall_iff_forall_mem.mp (keeps1 _ (arrRef_cases w))) op hop
  · exact (List.forall_iff_forall_mem.mp (keeps1_1 _ (arrRef_cases w))) op hop
  · exact (List.forall_iff_forall_mem.mp (keeps1_2 _ (arrRef_cases w))) op hop
  · exact (List.forall_iff_forall_mem.mp (keeps1_3 _ (arrRef_cases w))) op hop
  · exact (List.forall_iff_forall_mem.mp (keeps1_4 _ (arrRef_cases w))) op hop

/-- No stretch before the launch writes an argument: the launch finds the arguments as launched. -/
theorem pre_keeps (b : Ref sig .tc) (hb : b = main_arg0 ∨ b = main_arg1 ∨ b = main_arg2) :
    (List.flatten (preOps (F := F))).Forall fun op => Proc.devRef .tc b ∉ op.writes := by
  rcases hb with rfl | rfl | rfl <;>
  (simp only [hostOps0, hostOps0_1, hostOps0_2, List.flatten_cons, List.flatten_nil, List.append_nil, List.cons_append, List.nil_append]
   no_write)

theorem V_arg (c : Dev nD) (b : Ref sig .tc) (hb : b = main_arg0 ∨ b = main_arg1 ∨ b = main_arg2) :
    V m c b = m ((c : Thread nD τ).loc b) :=
  StableHlo.after_of_forall_not_mem (b := Proc.devRef .tc b) _ _ (List.forall_iff_forall_mem.mp (pre_keeps b hb))

/-- No argument is an array of the launch. -/
theorem arr_ne_arg (b : Ref sig .tc) (hb : b = main_arg0 ∨ b = main_arg1 ∨ b = main_arg2) : ∀ w, Pipeline.arrRef spec0 w ≠ b := by
  rcases hb with rfl | rfl | rfl
  · exact (by decide : ∀ w, Pipeline.arrRef spec0 w ≠ main_arg0)
  · exact (by decide : ∀ w, Pipeline.arrRef spec0 w ≠ main_arg1)
  · exact (by decide : ∀ w, Pipeline.arrRef spec0 w ≠ main_arg2)

/-- The arguments end as launched: no later stretch writes one, and none is an array of the launch. -/
theorem W_arg (dats : (p : Fin 1) → (c : Dev nD) → Dat τ (Elt F) Unit ℕ (UR sig nD τ) ℕ (cfgs p) c) (c : Dev nD)
    (b : Ref sig .tc) (hb : b = main_arg0 ∨ b = main_arg1 ∨ b = main_arg2) :
    Pipeline.afterTail₀ cfgs dats 0 (V0 m) tailOps c b = m ((c : Thread nD τ).loc b) := by
  have hb' : b = main_v1 ∨ b = main_v2 ∨ b = main_v16 ∨ b = main_arg0 ∨ b = main_arg1 ∨ b = main_arg2 := .inr (.inr (.inr hb))
  unfold Pipeline.afterTail₀
  rw [StableHlo.after_of_forall_not_mem (b := Proc.devRef .tc b) _ _ (fun op hop => by
      simp only [List.flatten_cons, List.flatten_nil, List.append_nil, List.mem_append] at hop
      rcases hop with hop | hop | hop | hop | hop
      · exact (List.forall_iff_forall_mem.mp (keeps1 b hb')) op hop
      · exact (List.forall_iff_forall_mem.mp (keeps1_1 b hb')) op hop
      · exact (List.forall_iff_forall_mem.mp (keeps1_2 b hb')) op hop
      · exact (List.forall_iff_forall_mem.mp (keeps1_3 b hb')) op hop
      · exact (List.forall_iff_forall_mem.mp (keeps1_4 b hb')) op hop),
    Pipeline.withArrays_of_ne _ c (V0 m c) _ b (arr_ne_arg b hb)]
  exact V_arg m c b hb

/-! ## The windows' blocks -/

/-- Window w's block at point t, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data, a run to the library's frame post, read at the three argument arrays (none is staged by a
    window, so each is a bypassing buffer no stretch writes), is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_arg m dats c main_arg0 (.inl rfl)),
     ((h c).2 main_arg1 (Pipeline.mem_restRefs_of main_arg1 (by decide) (by decide))).trans (W_arg m dats c main_arg1 (.inr (.inl rfl))),
     ((h c).2 main_arg2 (Pipeline.mem_restRefs_of main_arg2 (by decide) (by decide))).trans (W_arg m dats c main_arg2 (.inr (.inr rfl)))⟩) h

/-! ## The body's two conditions over the grid -/

/-- "First class block": the reset of the scratch columns. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 50 = 0 :=
  (by decide +kernel : ∀ t : Fin grid0.N, isFirst (grid0.coords t) ↔ t.val % 50 = 0)

/-- "Last class block": the store of the output block. -/
abbrev isLast (i : grid0.Coords) : Prop := k0_cond2 i = 1#1
theorem isLast_iff : ∀ t : Fin cfg0.N, isLast (grid0.coords t) ↔ t.val % 50 = 49 :=
  (by decide +kernel : ∀ t : Fin grid0.N, isLast (grid0.coords t) ↔ t.val % 50 = 49)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Where the body does not store the output block the window is idle and is not written back. -/
theorem idle2 : ∀ t : Fin cfg0.N, ¬isLast (grid0.coords t) → cfg0.idle 2 (grid0.coords t) = true := by decide +kernel
theorem noFlush2 : ∀ t : Fin cfg0.N, ¬isLast (grid0.coords t) → (cfg0.win 2).flush t = false := by decide +kernel
theorem live2 : ∀ t : Fin cfg0.N, isLast (grid0.coords t) → cfg0.idle 2 (grid0.coords t) = false := by decide +kernel

/-! ## The memrefs the body is called with -/

/-- One staging buffer of the output window, through which its contents are stated. -/
abbrev outView : View sig .tc .vmem S1024x1 .f32 := (Memref.whole cc0_stg2_0 : Memref sig .tc .vmem S1024x1 .f32).view
abbrev stX (t : Fin cfg0.N) : Memref sig .tc .vmem S1024x4096 .bf16 := win0_0.stage (cfg0.slots t 0)
abbrev hstX (t : Fin cfg0.N) : (stX t).IsWhole := hstage0_0 ((cfg0.slots t 0).cast nbuf0_0)
abbrev stW (t : Fin cfg0.N) : Memref sig .tc .vmem S640x4096 .bf16 := win0_1.stage (cfg0.slots t 1)
abbrev hstW (t : Fin cfg0.N) : (stW t).IsWhole := hstage0_1 ((cfg0.slots t 1).cast nbuf0_1)
abbrev stO (t : Fin cfg0.N) : Memref sig .tc .vmem S1024x1 .f32 := win0_2.stage (cfg0.slots t 2)
abbrev hstO (t : Fin cfg0.N) : (stO t).IsWhole := hstage0_2 ((cfg0.slots t 2).cast nbuf0_2)
/-- The two scratch columns: the running maximum and the running sum. -/
abbrev scrM : Memref sig .tc .vmem S1024x1 .f32 := Memref.whole cc0_scratch0
abbrev scrL : Memref sig .tc .vmem S1024x1 .f32 := Memref.whole cc0_scratch1
abbrev viewM : View sig .tc .vmem S1024x1 .f32 := scrM.view
abbrev viewL : View sig .tc .vmem S1024x1 .f32 := scrL.view

/-- What the launch hands the body besides the windows: the two scratch columns at some contents and the generator
    register at some state. -/
theorem PhiA_eq (c : Dev nD) :
    (Pipeline.ΦA spec0 c : sProp 𝕄)
      = iprop(iprop((∃ d, owns (c : Thread nD τ) scrM fullShare d) ∗ (∃ d, owns (c : Thread nD τ) scrL fullShare d)) ∗ (∃ r, prngReg c r)) := by
  unfold Pipeline.ΦA; rw [scopedRest0_eq]; simp only [scrM, scrL, owns_whole]; try rfl

end Cert.Kernel.Cpo

end
-- ==== Proof.BitsRunFirst.lean ====
/-
  The body at the first class block of a token block, but not the last: it resets the running maximum to -inf and
  the running sum to 0, then absorbs the block (the maximum column stored twice, the sum column stored twice); the
  output block is not touched. The body's run, with the pieces each scratch column ends with found by the run.
-/
import proofs.«426376_j48859547959894_3_alg».proof.Proof.BitsKitFrame

set_option maxRecDepth 16384

noncomputable section

namespace Cert.Kernel.Cpo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two input blocks at their contents, the output buffer at contents handed back untouched,
    the two scratch columns at anything — the body runs to its end holding the inputs and the output buffer as they
    were and each scratch column with its pieces written. -/
noncomputable def runFirst (c : Dev nD) (i : grid0.Coords) (arg2 : Memref sig .tc .vmem S1024x4096 .bf16) (harg2 : arg2.IsWhole) (arg3 : Memref sig .tc .vmem S640x4096 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : isFirst i) (hc1 : ¬isLast i)
    (x0 : Vec F S1024x4096 .bf16) (x1 : Vec F S640x4096 .bf16) :
    Σ' (LO : List (View.Piece (Elt F) S1024x1 .f32)) (LM : List (View.Piece (Elt F) S1024x1 .f32)), { LL : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LM)
                ∗ (∃ f, arg6.view.loc (c : Thread nD τ) ↦[arg6.view.set]{fullShare} arg6.view.writes (Elt F) f LL)) -∗ K ⟨⟩))
          ⊢ wp frame (wpE (defs₀ (F := F)) Variants.none c none) E (cc0__cpo_lse_kernel i arg2 harg2 arg3 harg3 arg4 harg4 arg5 harg5 arg6 harg6) K } := by
  refine ⟨[], ?_, ?_, fun xi2 E K => ?run⟩
  case run =>
    simp only [cc0__cpo_lse_kernel_eq_skeleton]; unfold cc0__cpo_lse_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Cpo

end
-- ==== Proof.BitsRunMid.lean ====
/-
  The body at a class block that is neither the first nor the last of its token block: it absorbs the block into
  the running maximum and the running sum the point before left; the output block is not touched.
-/
import proofs.«426376_j48859547959894_3_alg».proof.Proof.BitsKitFrame

set_option maxRecDepth 16384

noncomputable section

namespace Cert.Kernel.Cpo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two input blocks at their contents, the output buffer at contents handed back untouched,
    the two scratch columns at what the point before left — the body runs to its end holding the inputs and the
    output buffer as they were and each scratch column with its pieces written. -/
noncomputable def runMid (c : Dev nD) (i : grid0.Coords) (arg2 : Memref sig .tc .vmem S1024x4096 .bf16) (harg2 : arg2.IsWhole) (arg3 : Memref sig .tc .vmem S640x4096 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : ¬isLast i)
    (x0 : Vec F S1024x4096 .bf16) (x1 : Vec F S640x4096 .bf16) (xm : Vec F S1024x1 .f32) (xl : Vec F S1024x1 .f32) :
    Σ' (LO : List (View.Piece (Elt F) S1024x1 .f32)) (LM : List (View.Piece (Elt F) S1024x1 .f32)), { LL : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xm ∗ owns (c : Thread nD τ) arg6 fullShare xl
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LM)
                ∗ (∃ f, arg6.view.loc (c : Thread nD τ) ↦[arg6.view.set]{fullShare} arg6.view.writes (Elt F) f LL)) -∗ K ⟨⟩))
          ⊢ wp frame (wpE (defs₀ (F := F)) Variants.none c none) E (cc0__cpo_lse_kernel i arg2 harg2 arg3 harg3 arg4 harg4 arg5 harg5 arg6 harg6) K } := by
  refine ⟨[], ?_, ?_, fun xi2 E K => ?run⟩
  case run =>
    simp only [cc0__cpo_lse_kernel_eq_skeleton]; unfold cc0__cpo_lse_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Cpo

end
-- ==== Proof.BitsRunLast.lean ====
/-
  The body at the last class block of a token block (never the first: a token block has fifty class blocks): it
  absorbs the block into the running maximum and the running sum, then stores maximum + log sum into the output block.
-/
import proofs.«426376_j48859547959894_3_alg».proof.Proof.BitsKitFrame

set_option maxRecDepth 16384

noncomputable section

namespace Cert.Kernel.Cpo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two input blocks at their contents, the output buffer at anything, the two scratch columns
    at what the point before left — the body runs to its end holding the inputs as they were and the output buffer and
    each scratch column with its pieces written. -/
noncomputable def runLast (c : Dev nD) (i : grid0.Coords) (arg2 : Memref sig .tc .vmem S1024x4096 .bf16) (harg2 : arg2.IsWhole) (arg3 : Memref sig .tc .vmem S640x4096 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬isFirst i) (hc1 : isLast i)
    (x0 : Vec F S1024x4096 .bf16) (x1 : Vec F S640x4096 .bf16) (xm : Vec F S1024x1 .f32) (xl : Vec F S1024x1 .f32) :
    Σ' (LO : List (View.Piece (Elt F) S1024x1 .f32)) (LM : List (View.Piece (Elt F) S1024x1 .f32)), { LL : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xm ∗ owns (c : Thread nD τ) arg6 fullShare xl
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LM)
                ∗ (∃ f, arg6.view.loc (c : Thread nD τ) ↦[arg6.view.set]{fullShare} arg6.view.writes (Elt F) f LL)) -∗ K ⟨⟩))
          ⊢ wp frame (wpE (defs₀ (F := F)) Variants.none c none) E (cc0__cpo_lse_kernel i arg2 harg2 arg3 harg3 arg4 harg4 arg5 harg5 arg6 harg6) K } := by
  refine ⟨?_, ?_, ?_, fun E K => ?run⟩
  case run =>
    simp only [cc0__cpo_lse_kernel_eq_skeleton]; unfold cc0__cpo_lse_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Cpo

end
-- ==== Proof.BitsFrameRun.lean ====
/-
  What the launch's buffers hold point by point, the launch's proof data, the body obligation and the frame run.

  The scratch columns are carried from point to point: after a point they hold what that point's case of the body
  stored, computed (except at a first class block, which resets them) from what the point before left. The output
  block's staging buffer is written at the last class block of a token block only; elsewhere the window is idle.
-/
import proofs.«426376_j48859547959894_3_alg».proof.Proof.BitsRunFirst
import proofs.«426376_j48859547959894_3_alg».proof.Proof.BitsRunMid
import proofs.«426376_j48859547959894_3_alg».proof.Proof.BitsRunLast

set_option maxRecDepth 16384

noncomputable section

namespace Cert.Kernel.Cpo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A column's contents after a list of pieces was stored into it, read through a view of it. -/
def colOf (v : View sig .tc .vmem S1024x1 .f32) (L : List (View.Piece (Elt F) S1024x1 .f32)) : Vec F S1024x1 .f32 :=
  v.read (Elt F) (v.writes (Elt F) v.junk L)

/-! ## The three cases at a point -/

theorem notLast_of_first (t : Fin cfg0.N) (h0 : t.val % 50 = 0) : ¬isLast (grid0.coords t) := fun h => by
  have := (isLast_iff t).mp h; omega
theorem notFirst_of (t : Fin cfg0.N) (h0 : ¬t.val % 50 = 0) : ¬isFirst (grid0.coords t) := fun h => h0 ((isFirst_iff t).mp h)
theorem notLast_of (t : Fin cfg0.N) (h1 : ¬t.val % 50 = 49) : ¬isLast (grid0.coords t) := fun h => h1 ((isLast_iff t).mp h)

/-- What the output buffer and the two scratch columns hold after the body at point t, from what the scratch columns
    held before it (pm, pl; not consulted at a first class block): the case the point is in, run on the point's
    memrefs and input blocks. -/
def stepAt (c : Dev nD) (t : Fin cfg0.N) (pm pl : Vec F S1024x1 .f32) :
    Vec F S1024x1 .f32 × Vec F S1024x1 .f32 × Vec F S1024x1 .f32 :=
  if h0 : t.val % 50 = 0 then
    (colOf outView (runFirst c (grid0.coords t) (stX t) (hstX t) (stW t) (hstW t) (stO t) (hstO t) scrM (Memref.isWhole_whole _) scrL (Memref.isWhole_whole _) ((isFirst_iff t).mpr h0) (notLast_of_first t h0) (iblk m c 0 t) (iblk m c 1 t)).1,
     colOf viewM (runFirst c (grid0.coords t) (stX t) (hstX t) (stW t) (hstW t) (stO t) (hstO t) scrM (Memref.isWhole_whole _) scrL (Memref.isWhole_whole _) ((isFirst_iff t).mpr h0) (notLast_of_first t h0) (iblk m c 0 t) (iblk m c 1 t)).2.1,
     colOf viewL (runFirst c (grid0.coords t) (stX t) (hstX t) (stW t) (hstW t) (stO t) (hstO t) scrM (Memref.isWhole_whole _) scrL (Memref.isWhole_whole _) ((isFirst_iff t).mpr h0) (notLast_of_first t h0) (iblk m c 0 t) (iblk m c 1 t)).2.2.1)
  else if h1 : t.val % 50 = 49 then
    (colOf outView (runLast c (grid0.coords t) (stX t) (hstX t) (stW t) (hstW t) (stO t) (hstO t) scrM (Memref.isWhole_whole _) scrL (Memref.isWhole_whole _) (notFirst_of t h0) ((isLast_iff t).mpr h1) (iblk m c 0 t) (iblk m c 1 t) pm pl).1,
     colOf viewM (runLast c (grid0.coords t) (stX t) (hstX t) (stW t) (hstW t) (stO t) (hstO t) scrM (Memref.isWhole_whole _) scrL (Memref.isWhole_whole _) (notFirst_of t h0) ((isLast_iff t).mpr h1) (iblk m c 0 t) (iblk m c 1 t) pm pl).2.1,
     colOf viewL (runLast c (grid0.coords t) (stX t) (hstX t) (stW t) (hstW t) (stO t) (hstO t) scrM (Memref.isWhole_whole _) scrL (Memref.isWhole_whole _) (notFirst_of t h0) ((isLast_iff t).mpr h1) (iblk m c 0 t) (iblk m c 1 t) pm pl).2.2.1)
  else
    (colOf outView (runMid c (grid0.coords t) (stX t) (hstX t) (stW t) (hstW t) (stO t) (hstO t) scrM (Memref.isWhole_whole _) scrL (Memref.isWhole_whole _) (notFirst_of t h0) (notLast_of t h1) (iblk m c 0 t) (iblk m c 1 t) pm pl).1,
     colOf viewM (runMid c (grid0.coords t) (stX t) (hstX t) (stW t) (hstW t) (stO t) (hstO t) scrM (Memref.isWhole_whole _) scrL (Memref.isWhole_whole _) (notFirst_of t h0) (notLast_of t h1) (iblk m c 0 t) (iblk m c 1 t) pm pl).2.1,
     colOf viewL (runMid c (grid0.coords t) (stX t) (hstX t) (stW t) (hstW t) (stO t) (hstO t) scrM (Memref.isWhole_whole _) scrL (Memref.isWhole_whole _) (notFirst_of t h0) (notLast_of t h1) (iblk m c 0 t) (iblk m c 1 t) pm pl).2.2.1)

/-- Each case's pieces for a scratch column (and, at a last class block, for the output buffer) tile the column: the
    stores are of the whole column. -/
theorem coverFirstM (c : Dev nD) (t : Fin cfg0.N) (h0 : isFirst (grid0.coords t)) (h1 : ¬isLast (grid0.coords t)) (x0 : Vec F S1024x4096 .bf16) (x1 : Vec F S640x4096 .bf16) (y : S1024x1.Idx) :
    ∃ pc ∈ (runFirst c (grid0.coords t) (stX t) (hstX t) (stW t) (hstW t) (stO t) (hstO t) scrM (Memref.isWhole_whole _) scrL (Memref.isWhole_whole _) h0 h1 x0 x1).2.1, y ∈ pc.1.set :=
  View.cover_of_tiledL (runFirst (F := F) c (grid0.coords t) (stX t) (hstX t) (stW t) (hstW t) (stO t) (hstO t) scrM (Memref.isWhole_whole _) scrL (Memref.isWhole_whole _) h0 h1 x0 x1).2.1 S1024x1.size (by sl_kernel_rfl) y
theorem coverFirstL (c : Dev nD) (t : Fin cfg0.N) (h0 : isFirst (grid0.coords t)) (h1 : ¬isLast (grid0.coords t)) (x0 : Vec F S1024x4096 .bf16) (x1 : Vec F S640x4096 .bf16) (y : S1024x1.Idx) :
    ∃ pc ∈ (runFirst c (grid0.coords t) (stX t) (hstX t) (stW t) (hstW t) (stO t) (hstO t) scrM (Memref.isWhole_whole _) scrL (Memref.isWhole_whole _) h0 h1 x0 x1).2.2.1, y ∈ pc.1.set :=
  View.cover_of_tiledL (runFirst (F := F) c (grid0.coords t) (stX t) (hstX t) (stW t) (hstW t) (stO t) (hstO t) scrM (Memref.isWhole_whole _) scrL (Memref.isWhole_whole _) h0 h1 x0 x1).2.2.1 S1024x1.size (by sl_kernel_rfl) y
theorem coverMidM (c : Dev nD) (t : Fin cfg0.N) (h0 : ¬isFirst (grid0.coords t)) (h1 : ¬isLast (grid0.coords t)) (x0 : Vec F S1024x4096 .bf16) (x1 : Vec F S640x4096 .bf16) (pm pl : Vec F S1024x1 .f32) (y : S1024x1.Idx) :
    ∃ pc ∈ (runMid c (grid0.coords t) (stX t) (hstX t) (stW t) (hstW t) (stO t) (hstO t) scrM (Memref.isWhole_whole _) scrL (Memref.isWhole_whole _) h0 h1 x0 x1 pm pl).2.1, y ∈ pc.1.set :=
  View.cover_of_tiledL (runMid (F := F) c (grid0.coords t) (stX t) (hstX t) (stW t) (hstW t) (stO t) (hstO t) scrM (Memref.isWhole_whole _) scrL (Memref.isWhole_whole _) h0 h1 x0 x1 pm pl).2.1 S1024x1.size (by sl_kernel_rfl) y
theorem coverMidL (c : Dev nD) (t : Fin cfg0.N) (h0 : ¬isFirst (grid0.coords t)) (h1 : ¬isLast (grid0.coords t)) (x0 : Vec F S1024x4096 .bf16) (x1 : Vec F S640x4096 .bf16) (pm pl : Vec F S1024x1 .f32) (y : S1024x1.Idx) :
    ∃ pc ∈ (runMid c (grid0.coords t) (stX t) (hstX t) (stW t) (hstW t) (stO t) (hstO t) scrM (Memref.isWhole_whole _) scrL (Memref.isWhole_whole _) h0 h1 x0 x1 pm pl).2.2.1, y ∈ pc.1.set :=
  View.cover_of_tiledL (runMid (F := F) c (grid0.coords t) (stX t) (hstX t) (stW t) (hstW t) (stO t) (hstO t) scrM (Memref.isWhole_whole _) scrL (Memref.isWhole_whole _) h0 h1 x0 x1 pm pl).2.2.1 S1024x1.size (by sl_kernel_rfl) y
theorem coverLastO (c : Dev nD) (t : Fin cfg0.N) (h0 : ¬isFirst (grid0.coords t)) (h1 : isLast (grid0.coords t)) (x0 : Vec F S1024x4096 .bf16) (x1 : Vec F S640x4096 .bf16) (pm pl : Vec F S1024x1 .f32) (y : S1024x1.Idx) :
    ∃ pc ∈ (runLast c (grid0.coords t) (stX t) (hstX t) (stW t) (hstW t) (stO t) (hstO t) scrM (Memref.isWhole_whole _) scrL (Memref.isWhole_whole _) h0 h1 x0 x1 pm pl).1, y ∈ pc.1.set :=
  View.cover_of_tiledL (runLast (F := F) c (grid0.coords t) (stX t) (hstX t) (stW t) (hstW t) (stO t) (hstO t) scrM (Memref.isWhole_whole _) scrL (Memref.isWhole_whole _) h0 h1 x0 x1 pm pl).1 S1024x1.size (by sl_kernel_rfl) y
theorem coverLastM (c : Dev nD) (t : Fin cfg0.N) (h0 : ¬isFirst (grid0.coords t)) (h1 : isLast (grid0.coords t)) (x0 : Vec F S1024x4096 .bf16) (x1 : Vec F S640x4096 .bf16) (pm pl : Vec F S1024x1 .f32) (y : S1024x1.Idx) :
    ∃ pc ∈ (runLast c (grid0.coords t) (stX t) (hstX t) (stW t) (hstW t) (stO t) (hstO t) scrM (Memref.isWhole_whole _) scrL (Memref.isWhole_whole _) h0 h1 x0 x1 pm pl).2.1, y ∈ pc.1.set :=
  View.cover_of_tiledL (runLast (F := F) c (grid0.coords t) (stX t) (hstX t) (stW t) (hstW t) (stO t) (hstO t) scrM (Memref.isWhole_whole _) scrL (Memref.isWhole_whole _) h0 h1 x0 x1 pm pl).2.1 S1024x1.size (by sl_kernel_rfl) y
theorem coverLastL (c : Dev nD) (t : Fin cfg0.N) (h0 : ¬isFirst (grid0.coords t)) (h1 : isLast (grid0.coords t)) (x0 : Vec F S1024x4096 .bf16) (x1 : Vec F S640x4096 .bf16) (pm pl : Vec F S1024x1 .f32) (y : S1024x1.Idx) :
    ∃ pc ∈ (runLast c (grid0.coords t) (stX t) (hstX t) (stW t) (hstW t) (stO t) (hstO t) scrM (Memref.isWhole_whole _) scrL (Memref.isWhole_whole _) h0 h1 x0 x1 pm pl).2.2.1, y ∈ pc.1.set :=
  View.cover_of_tiledL (runLast (F := F) c (grid0.coords t) (stX t) (hstX t) (stW t) (hstW t) (stO t) (hstO t) scrM (Memref.isWhole_whole _) scrL (Memref.isWhole_whole _) h0 h1 x0 x1 pm pl).2.2.1 S1024x1.size (by sl_kernel_rfl) y

/-! ## Point by point -/

/-- What the output buffer and the scratch columns hold after the body at position n: the point's case over what
    position n - 1 left in the scratch columns. -/
def outsAt (c : Dev nD) : (n : ℕ) → n < cfg0.N → Vec F S1024x1 .f32 × Vec F S1024x1 .f32 × Vec F S1024x1 .f32
  | 0, hn => stepAt m c ⟨0, hn⟩ (colOf viewM []) (colOf viewL [])
  | n + 1, hn => stepAt m c ⟨n + 1, hn⟩ (outsAt c n (Nat.lt_of_succ_lt hn)).2.1 (outsAt c n (Nat.lt_of_succ_lt hn)).2.2

theorem outsAt_zero (c : Dev nD) (hn : 0 < cfg0.N) : outsAt m c 0 hn = stepAt m c ⟨0, hn⟩ (colOf viewM []) (colOf viewL []) := rfl

/-- At a point that is not the launch's first: its case over what the point before left. -/
theorem outsAt_pos (c : Dev nD) (t : Fin cfg0.N) (hz : t.val ≠ 0) :
    outsAt m c t.val t.isLt = stepAt m c t (outsAt m c (t.val - 1) (Nat.lt_of_le_of_lt (Nat.sub_le _ _) t.isLt)).2.1
      (outsAt m c (t.val - 1) (Nat.lt_of_le_of_lt (Nat.sub_le _ _) t.isLt)).2.2 := by
  obtain ⟨n, hn⟩ := t
  cases n with
  | zero => exact absurd rfl hz
  | succ n => rfl

/-- The launch's invariant before position n: before the first point what the launch hands the body; afterwards the
    two scratch columns at what the point before left and the generator register at some state. -/
def PhiS (c : Dev nD) : (n : ℕ) → n ≤ cfg0.N → sProp 𝕄
  | 0, _ => Pipeline.ΦA spec0 c
  | n + 1, hn => iprop(iprop(owns (c : Thread nD τ) scrM fullShare ((outsAt m c n hn).2.1) ∗ owns (c : Thread nD τ) scrL fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scrM fullShare ((outsAt m c n hn).2.1) ∗ owns (c : Thread nD τ) scrL fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scrM fullShare ((outsAt m c (n - 1) (by omega)).2.1) ∗ owns (c : Thread nD τ) scrL fullShare ((outsAt m c (n - 1) (by omega)).2.2)) ∗ (∃ r, prngReg c r)) := by
  cases n with
  | zero => exact absurd rfl hz
  | succ n => rfl

/-! ## The launch's proof data -/

/-- The arrays as the launch finds them; after the body at point t each input's buffer at its block and the output's
    at `outsAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (stX t) fullShare ((dats m 0 c).before 0 t d))
    ∗ (∃ d, owns (c : Thread nD τ) (stW t) fullShare ((dats m 0 c).before 1 t d))
    ∗ (∃ d, owns (c : Thread nD τ) (stO t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the point's position among the fifty class blocks
    says which case it is in; the invariant hands the body the scratch columns (at anything before the launch's first
    point, else at what the point before left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (stX t) fullShare ((dats m 0 c).after 0 t) from by
    unfold Dat.leavesExact; rw [live0 t], after_0]
  rw [show (dats m 0 c).leavesExact 1 t = owns (c : Thread nD τ) (stW t) fullShare ((dats m 0 c).after 1 t) from by
    unfold Dat.leavesExact; rw [live1 t], after_1]
  have hN : t.val < 200 := lt_of_lt_of_eq t.isLt (show cfg0.N = 200 from N_0)
  by_cases h0 : t.val % 50 = 0
  · have hl : ¬isLast (grid0.coords t) := notLast_of_first t h0
    rw [Dat.leavesExact_idle (dats m 0 c) 2 t (idle2 t hl) (noFlush2 t hl)]
    by_cases hz : t.val = 0
    · rw [show outsAt m c t.val t.isLt = stepAt m c t (colOf viewM []) (colOf viewL []) from by
        obtain ⟨n, hn⟩ := t; cases hz; rfl]
      unfold stepAt; rw [dif_pos h0]; dsimp only; unfold colOf
      rw [PhiS_castSucc m c t, PhiS_zero m c _ _ hz, PhiA_eq]
      iintro ⟨⟨⟨HS0, HS1⟩, Hg⟩, Ho, ⟨%d0, H0⟩, ⟨%d1, H1⟩, ⟨%d2, H2⟩⟩
      iapply ((runFirst c (grid0.coords t) (stX t) (hstX t) (stW t) (hstW t) (stO t) (hstO t) scrM (Memref.isWhole_whole _) scrL (Memref.isWhole_whole _) ((isFirst_iff t).mpr h0) hl (iblk m c 0 t) (iblk m c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverFirstM c t _ _ _ _)
          · unfold owns; iexists _; isplitr
            swap; · iexact HS1
            ipureintro; exact View.read_writes_of_cover _ _ _ _ _ (coverFirstL c t _ _ _ _)
        iexact Hg
      isplitl [Ho]; · iexact Ho
      isplitl [H0]; · iexact H0
      isplitl [H1]; · iexact H1
      iexists _; iexact H2
    · rw [outsAt_pos m c t hz]
      unfold stepAt; rw [dif_pos h0]; dsimp only; unfold colOf
      rw [PhiS_castSucc m c t, PhiS_pos m c _ _ hz]
      iintro ⟨⟨⟨HS0, HS1⟩, Hg⟩, Ho, ⟨%d0, H0⟩, ⟨%d1, H1⟩, ⟨%d2, H2⟩⟩
      iapply ((runFirst c (grid0.coords t) (stX t) (hstX t) (stW t) (hstW t) (stO t) (hstO t) scrM (Memref.isWhole_whole _) scrL (Memref.isWhole_whole _) ((isFirst_iff t).mpr h0) hl (iblk m c 0 t) (iblk m c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverFirstM c t _ _ _ _)
          · unfold owns; iexists _; isplitr
            swap; · iexact HS1
            ipureintro; exact View.read_writes_of_cover _ _ _ _ _ (coverFirstL c t _ _ _ _)
        iexact Hg
      isplitl [Ho]; · iexact Ho
      isplitl [H0]; · iexact H0
      isplitl [H1]; · iexact H1
      iexists _; iexact H2
  · have hz : t.val ≠ 0 := fun e => h0 (by rw [e])
    have hf : ¬isFirst (grid0.coords t) := notFirst_of t h0
    by_cases h1 : t.val % 50 = 49
    · have hl : isLast (grid0.coords t) := (isLast_iff t).mpr h1
      rw [show (dats m 0 c).leavesExact 2 t = owns (c : Thread nD τ) (stO t) fullShare ((dats m 0 c).after 2 t) from by
        unfold Dat.leavesExact; rw [live2 t hl], after_2]
      rw [outsAt_pos m c t hz]
      unfold stepAt; rw [dif_neg h0, dif_pos h1]; dsimp only; unfold colOf
      rw [PhiS_castSucc m c t, PhiS_pos m c _ _ hz]
      iintro ⟨⟨⟨HS0, HS1⟩, Hg⟩, Ho, ⟨%d0, H0⟩, ⟨%d1, H1⟩, ⟨%d2, H2⟩⟩
      iapply ((runLast c (grid0.coords t) (stX t) (hstX t) (stW t) (hstW t) (stO t) (hstO t) scrM (Memref.isWhole_whole _) scrL (Memref.isWhole_whole _) hf hl (iblk m c 0 t) (iblk m c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverLastM c t _ _ _ _ _ _)
          · unfold owns; iexists _; isplitr
            swap; · iexact HS1
            ipureintro; exact View.read_writes_of_cover _ _ _ _ _ (coverLastL c t _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastO c t _ _ _ _ _ _)
    · have hl : ¬isLast (grid0.coords t) := notLast_of t h1
      rw [Dat.leavesExact_idle (dats m 0 c) 2 t (idle2 t hl) (noFlush2 t hl)]
      rw [outsAt_pos m c t hz]
      unfold stepAt; rw [dif_neg h0, dif_neg h1]; dsimp only; unfold colOf
      rw [PhiS_castSucc m c t, PhiS_pos m c _ _ hz]
      iintro ⟨⟨⟨HS0, HS1⟩, Hg⟩, Ho, ⟨%d0, H0⟩, ⟨%d1, H1⟩, ⟨%d2, H2⟩⟩
      iapply ((runMid c (grid0.coords t) (stX t) (hstX t) (stW t) (hstW t) (stO t) (hstO t) scrM (Memref.isWhole_whole _) scrL (Memref.isWhole_whole _) hf hl (iblk m c 0 t) (iblk m c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverMidM c t _ _ _ _ _ _)
          · unfold owns; iexists _; isplitr
            swap; · iexact HS1
            ipureintro; exact View.read_writes_of_cover _ _ _ _ _ (coverMidL c t _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives back what the launch handed out: the scratch columns' named contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitr [Hg]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 200 := N_0; omega)

/-! ## The run and the frame -/

set_option backward.isDefEq.respectTransparency.types false in
/-- Every weakly fair execution of @main terminates, and in every final state each array of the launch is at what the
    library computes from the proof data and every other unscoped buffer as the later stretches leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hin := hin m) (hout := hout m)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Cpo

end
-- ==== Proof.RefOps.lean ====
/-
  The reference program's @main as a straight line of host operations.

  The reference has no kernel: @main is fifty host statements, five of them calls of module-local functions
  (log-softmax along the class axis; the select that replaces the ignore label; the gather of the row entry the
  label selects; the log-sigmoid, twice, itself calling the softplus). A call executes the callee's body on
  the call's own buffers, so the program is one line of 118 operations: each callee's operations stand at the
  call site, over that call's buffer record. The line is cut into four consecutive pieces (the logits, their
  log-softmax and the label preparation; the gather and the mask; the per-sequence averages and the first
  log-sigmoid; the second log-sigmoid and the two losses), each with its own bookkeeping facts, and the pieces
  are joined by concatenation.

  The raw run: on every device, from any memory with zero counters, every weakly fair execution terminates, and
  every TensorCore buffer then holds the fold of the operations' results over the launch contents.
-/
import proofs.«426376_j48859547959894_3_alg».proof.ReferenceIdeal
import Idealize.ShloMosaic.Lib.StableHlo.Run
import Idealize.ShloMosaic.Lib.Pipeline.Frame

noncomputable section

namespace Cert.ReferenceIdeal.Hand

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-! ## The operations, in four pieces -/

/-- The logits (operation 1), their log-softmax along the class axis (the callee's fifteen operations over the
    first call's record), the comparison of the labels with the ignore label, and the labels with the ignore
    label replaced by class 0 (the select's callee over the second call's record), given a trailing unit axis:
    operations 1 to 24. -/
abbrev opsA : List (HloOp τ sig (Elt F)) :=
  [ binary main_arg0 main_arg2 main_v0 ((fun l r => Host.dotGeneral dot_S8x512x4096_S32000x4096_S8x512x32000_2_1_01_0_n_n none l r) : (⟨S8x512x4096, .f32⟩ : BufTy).Contents (Elt F) → (⟨S32000x4096, .f32⟩ : BufTy).Contents (Elt F) → (⟨S8x512x32000, .f32⟩ : BufTy).Contents (Elt F)),
    TRef.nullary main_call0.cst (constant S_ .f32 0xFF800000#32),
    TRef.binary (.of main_v0 : TRef sig ⟨S8x512x32000, .f32⟩) main_call0.cst main_call0.v0 (fun x v => Host.reduce FloatOps.maximumf x v reducesTo_S8x512x32000_S8x512_d2 h_S_),
    TRef.nullary main_call0.cst_0 (constant S_ .f32 0xFF800000#32),
    TRef.unary main_call0.cst_0 main_call0.v1 (broadcastInDim S8x512 ![] bcast_S_S8x512),
    TRef.binary main_call0.v1 main_call0.v0 main_call0.v2 maximumf,
    TRef.unary main_call0.v2 main_call0.v3 (broadcastInDim S8x512x1 ![0, 1] bcast_S8x512_S8x512x1_0_1),
    TRef.unary main_call0.v3 main_call0.v4 (broadcastInDim S8x512x32000 ![0, 1, 2] bcast_S8x512x1_S8x512x32000_0_1_2),
    TRef.binary (.of main_v0 : TRef sig ⟨S8x512x32000, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S8x512x32000_S8x512_d2 h_S_),
    TRef.unary main_call0.v7 main_call0.v8 (broadcastInDim S8x512x1 ![0, 1] bcast_S8x512_S8x512x1_0_1),
    TRef.unary main_call0.v8 main_call0.v9 Host.log,
    TRef.unary main_call0.v9 main_call0.v10 (broadcastInDim S8x512x32000 ![0, 1, 2] bcast_S8x512x1_S8x512x32000_0_1_2),
    TRef.binary main_call0.v5 main_call0.v10 main_call0.v11 subf,
    nullary main_c (constantI S_ 32 4294967196#32),
    unary main_c main_v2 (broadcastInDim S8x512 ![] bcast_S_S8x512 : (⟨S_, .i32⟩ : BufTy).Contents (Elt F) → (⟨S8x512, .i32⟩ : BufTy).Contents (Elt F)),
    binary main_arg1 main_v2 main_v3 (cmpi .ne : (⟨S8x512, .i32⟩ : BufTy).Contents (Elt F) → (⟨S8x512, .i32⟩ : BufTy).Contents (Elt F) → (⟨S8x512, .i1⟩ : BufTy).Contents (Elt F)),
    nullary main_c_0 (constantI S_ 32 0#32),
    TRef.unary (.of main_c_0 : TRef sig ⟨S_, .i32⟩) main_call1.v0 id,
    TRef.unary main_call1.v0 main_call1.v1 (broadcastInDim S8x512 ![] bcast_S_S8x512),
    TRef.ternary (.of main_v3 : TRef sig ⟨S8x512, .i1⟩) (.of main_arg1 : TRef sig ⟨S8x512, .i32⟩) main_call1.v1 main_call1.v2 select,
    unary main_v4 main_v5 (broadcastInDim S8x512x1 ![0, 1] bcast_S8x512_S8x512x1_0_1 : (⟨S8x512, .i32⟩ : BufTy).Contents (Elt F) → (⟨S8x512x1, .i32⟩ : BufTy).Contents (Elt F)) ]

/-- The entry of each log-softmax row that the row's label selects (the gather's callee, twenty-two operations
    over the third call's record: a negative label counted from the end, the in-range test, the gather, the fill
    where out of range), with the unit axis dropped, and the mask read as floats: operations 25 to 48. -/
abbrev opsB : List (HloOp τ sig (Elt F)) :=
  [ TRef.nullary main_call2.c (constantI S_ 32 0#32),
    TRef.unary main_call2.c main_call2.v0 (broadcastInDim S8x512x1 ![] bcast_S_S8x512x1),
    TRef.binary (.of main_v5 : TRef sig ⟨S8x512x1, .i32⟩) main_call2.v0 main_call2.v1 (cmpi .slt),
    TRef.nullary main_call2.c_0 (constantI S_ 32 32000#32),
    TRef.unary main_call2.c_0 main_call2.v2 (broadcastInDim S8x512x1 ![] bcast_S_S8x512x1),
    TRef.binary (.of main_v5 : TRef sig ⟨S8x512x1, .i32⟩) main_call2.v2 main_call2.v3 addi,
    TRef.ternary main_call2.v1 main_call2.v3 (.of main_v5 : TRef sig ⟨S8x512x1, .i32⟩) main_call2.v4 select,
    TRef.reshape main_call2.v4 main_call2.v5 rfl shapeCasts_S8x512x1_S8x512x1x1,
    TRef.nullary main_call2.c_1 (constantI S1 32 31999#32),
    TRef.nullary main_call2.c_2 (constantI S_ 32 0#32),
    TRef.unary main_call2.c_2 main_call2.v6 (broadcastInDim S8x512x1x1 ![] bcast_S_S8x512x1x1),
    TRef.binary main_call2.v5 main_call2.v6 main_call2.v7 (cmpi .sge),
    TRef.unary main_call2.c_1 main_call2.v8 (broadcastInDim S1x1x1x1 ![3] bcast_S1_S1x1x1x1_3),
    TRef.unary main_call2.v8 main_call2.v9 (broadcastInDim S8x512x1x1 ![0, 1, 2, 3] bcast_S1x1x1x1_S8x512x1x1_0_1_2_3),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S8x512x1x1_S8x512x1_d3 h_S_),
    TRef.binary (.of main_v1 : TRef sig ⟨S8x512x32000, .f32⟩) main_call2.v5 main_call2.v13 (fun x i => Host.gather gather_S8x512x32000_S8x512x1x1_S8x512x1_n_2_01_01_2_3_111 x i),
    TRef.nullary main_call2.cst (constant S_ .f32 0x7FC00000#32),
    TRef.unary main_call2.cst main_call2.v14 (broadcastInDim S8x512x1 ![] bcast_S_S8x512x1),
    TRef.ternary main_call2.v12 main_call2.v13 main_call2.v14 main_call2.v15 select,
    reshape main_v6 main_v7 rfl shapeCasts_S8x512x1_S8x512,
    unary main_v3 main_v8 (uitofp .f32 : (⟨S8x512, .i1⟩ : BufTy).Contents (Elt F) → (⟨S8x512, .f32⟩ : BufTy).Contents (Elt F)) ]

/-- The masked sum of the log-probabilities and the count of kept tokens per sequence, their quotient, the
    difference of the first four sequences' averages and the last four's scaled by a tenth, the log-sigmoid of
    it (the callee's sixteen operations over the fourth call's records, the softplus inside it), negated and
    weighted by one: operations 49 to 80. -/
abbrev opsC : List (HloOp τ sig (Elt F)) :=
  [ binary main_v7 main_v8 main_v9 (mulf : (⟨S8x512, .f32⟩ : BufTy).Contents (Elt F) → (⟨S8x512, .f32⟩ : BufTy).Contents (Elt F) → (⟨S8x512, .f32⟩ : BufTy).Contents (Elt F)),
    nullary main_cst (constant S_ .f32 0x00000000#32),
    binary main_v9 main_cst main_v10 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    nullary main_cst_1 (constant S_ .f32 0x00000000#32),
    binary main_v8 main_cst_1 main_v11 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    binary main_v10 main_v11 main_v12 (Host.divf : (⟨S8, .f32⟩ : BufTy).Contents (Elt F) → (⟨S8, .f32⟩ : BufTy).Contents (Elt F) → (⟨S8, .f32⟩ : BufTy).Contents (Elt F)),
    unary main_v12 main_v13 ((extractStridedSlice S4 ![0] · slices_S8_S4_0) : (⟨S8, .f32⟩ : BufTy).Contents (Elt F) → (⟨S4, .f32⟩ : BufTy).Contents (Elt F)),
    unary main_v12 main_v14 ((extractStridedSlice S4 ![4] · slices_S8_S4_4) : (⟨S8, .f32⟩ : BufTy).Contents (Elt F) → (⟨S4, .f32⟩ : BufTy).Contents (Elt F)),
    binary main_v13 main_v14 main_v15 (subf : (⟨S4, .f32⟩ : BufTy).Contents (Elt F) → (⟨S4, .f32⟩ : BufTy).Contents (Elt F) → (⟨S4, .f32⟩ : BufTy).Contents (Elt F)),
    nullary main_cst_2 (constant S_ .f32 0x3DCCCCCD#32),
    unary main_cst_2 main_v16 (broadcastInDim S4 ![] bcast_S_S4 : (⟨S_, .f32⟩ : BufTy).Contents (Elt F) → (⟨S4, .f32⟩ : BufTy).Contents (Elt F)),
    binary main_v16 main_v15 main_v17 (mulf : (⟨S4, .f32⟩ : BufTy).Contents (Elt F) → (⟨S4, .f32⟩ : BufTy).Contents (Elt F) → (⟨S4, .f32⟩ : BufTy).Contents (Elt F)),
    TRef.unary (.of main_v17 : TRef sig ⟨S4, .f32⟩) main_call3.v0 Host.negf,
    TRef.nullary main_call3.call0.cst (constant S_ .f32 0x00000000#32),
    TRef.unary main_call3.call0.cst main_call3.call0.v0 (broadcastInDim S4 ![] bcast_S_S4),
    TRef.binary main_call3.v0 main_call3.call0.v0 main_call3.call0.v1 maximumf,
    TRef.unary main_call3.call0.cst main_call3.call0.v2 (broadcastInDim S4 ![] bcast_S_S4),
    TRef.binary main_call3.v0 main_call3.call0.v2 main_call3.call0.v3 subf,
    TRef.binary main_call3.call0.v3 main_call3.call0.v3 main_call3.call0.v4 (cmpf .une),
    TRef.unary main_call3.call0.cst main_call3.call0.v5 (broadcastInDim S4 ![] bcast_S_S4),
    TRef.binary main_call3.v0 main_call3.call0.v5 main_call3.call0.v6 addf,
    TRef.unary main_call3.call0.v3 main_call3.call0.v7 Host.absf,
    TRef.unary main_call3.call0.v7 main_call3.call0.v8 Host.negf,
    TRef.unary main_call3.call0.v8 main_call3.call0.v9 Host.exp,
    TRef.unary main_call3.call0.v9 main_call3.call0.v10 Host.log1p,
    TRef.binary main_call3.call0.v1 main_call3.call0.v10 main_call3.call0.v11 addf,
    TRef.ternary main_call3.call0.v4 main_call3.call0.v6 main_call3.call0.v11 main_call3.call0.v12 select,
    TRef.unary main_call3.call0.v12 main_call3.v2 Host.negf,
    unary main_v18 main_v19 (Host.negf : (⟨S4, .f32⟩ : BufTy).Contents (Elt F) → (⟨S4, .f32⟩ : BufTy).Contents (Elt F)),
    nullary main_cst_3 (constant S_ .f32 0x3F800000#32),
    unary main_cst_3 main_v20 (broadcastInDim S4 ![] bcast_S_S4 : (⟨S_, .f32⟩ : BufTy).Contents (Elt F) → (⟨S4, .f32⟩ : BufTy).Contents (Elt F)),
    binary main_v19 main_v20 main_v21 (mulf : (⟨S4, .f32⟩ : BufTy).Contents (Elt F) → (⟨S4, .f32⟩ : BufTy).Contents (Elt F) → (⟨S4, .f32⟩ : BufTy).Contents (Elt F)) ]

/-- The log-sigmoid of the negated scaled difference (the callee's sixteen operations over the fifth call's
    records) weighted by zero, the two combined, averaged over the four pairs; the negative average
    log-probability of the first four sequences' kept tokens; their sum: operations 81 to 118. -/
abbrev opsD : List (HloOp τ sig (Elt F)) :=
  [ unary main_v17 main_v22 (Host.negf : (⟨S4, .f32⟩ : BufTy).Contents (Elt F) → (⟨S4, .f32⟩ : BufTy).Contents (Elt F)),
    TRef.unary (.of main_v22 : TRef sig ⟨S4, .f32⟩) main_call4.v0 Host.negf,
    TRef.nullary main_call4.call0.cst (constant S_ .f32 0x00000000#32),
    TRef.unary main_call4.call0.cst main_call4.call0.v0 (broadcastInDim S4 ![] bcast_S_S4),
    TRef.binary main_call4.v0 main_call4.call0.v0 main_call4.call0.v1 maximumf,
    TRef.unary main_call4.call0.cst main_call4.call0.v2 (broadcastInDim S4 ![] bcast_S_S4),
    TRef.binary main_call4.v0 main_call4.call0.v2 main_call4.call0.v3 subf,
    TRef.binary main_call4.call0.v3 main_call4.call0.v3 main_call4.call0.v4 (cmpf .une),
    TRef.unary main_call4.call0.cst main_call4.call0.v5 (broadcastInDim S4 ![] bcast_S_S4),
    TRef.binary main_call4.v0 main_call4.call0.v5 main_call4.call0.v6 addf,
    TRef.unary main_call4.call0.v3 main_call4.call0.v7 Host.absf,
    TRef.unary main_call4.call0.v7 main_call4.call0.v8 Host.negf,
    TRef.unary main_call4.call0.v8 main_call4.call0.v9 Host.exp,
    TRef.unary main_call4.call0.v9 main_call4.call0.v10 Host.log1p,
    TRef.binary main_call4.call0.v1 main_call4.call0.v10 main_call4.call0.v11 addf,
    TRef.ternary main_call4.call0.v4 main_call4.call0.v6 main_call4.call0.v11 main_call4.call0.v12 select,
    TRef.unary main_call4.call0.v12 main_call4.v2 Host.negf,
    nullary main_cst_4 (constant S_ .f32 0x00000000#32),
    unary main_cst_4 main_v24 (broadcastInDim S4 ![] bcast_S_S4 : (⟨S_, .f32⟩ : BufTy).Contents (Elt F) → (⟨S4, .f32⟩ : BufTy).Contents (Elt F)),
    binary main_v23 main_v24 main_v25 (mulf : (⟨S4, .f32⟩ : BufTy).Contents (Elt F) → (⟨S4, .f32⟩ : BufTy).Contents (Elt F) → (⟨S4, .f32⟩ : BufTy).Contents (Elt F)),
    binary main_v21 main_v25 main_v26 (subf : (⟨S4, .f32⟩ : BufTy).Contents (Elt F) → (⟨S4, .f32⟩ : BufTy).Contents (Elt F) → (⟨S4, .f32⟩ : BufTy).Contents (Elt F)),
    nullary main_cst_5 (constant S_ .f32 0x00000000#32),
    binary main_v26 main_cst_5 main_v27 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_6 (constant S_ .f32 0x40800000#32),
    binary main_v27 main_cst_6 main_v28 (Host.divf : (⟨S_, .f32⟩ : BufTy).Contents (Elt F) → (⟨S_, .f32⟩ : BufTy).Contents (Elt F) → (⟨S_, .f32⟩ : BufTy).Contents (Elt F)),
    unary main_v7 main_v29 ((extractStridedSlice S4x512 ![0, 0] · slices_S8x512_S4x512_0_0) : (⟨S8x512, .f32⟩ : BufTy).Contents (Elt F) → (⟨S4x512, .f32⟩ : BufTy).Contents (Elt F)),
    unary main_v8 main_v30 ((extractStridedSlice S4x512 ![0, 0] · slices_S8x512_S4x512_0_0) : (⟨S8x512, .f32⟩ : BufTy).Contents (Elt F) → (⟨S4x512, .f32⟩ : BufTy).Contents (Elt F)),
    binary main_v29 main_v30 main_v31 (mulf : (⟨S4x512, .f32⟩ : BufTy).Contents (Elt F) → (⟨S4x512, .f32⟩ : BufTy).Contents (Elt F) → (⟨S4x512, .f32⟩ : BufTy).Contents (Elt F)),
    nullary main_cst_7 (constant S_ .f32 0x00000000#32),
    binary main_v31 main_cst_7 main_v32 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    unary main_v32 main_v33 (Host.negf : (⟨S_, .f32⟩ : BufTy).Contents (Elt F) → (⟨S_, .f32⟩ : BufTy).Contents (Elt F)),
    unary main_v8 main_v34 ((extractStridedSlice S4x512 ![0, 0] · slices_S8x512_S4x512_0_0) : (⟨S8x512, .f32⟩ : BufTy).Contents (Elt F) → (⟨S4x512, .f32⟩ : BufTy).Contents (Elt F)),
    nullary main_cst_8 (constant S_ .f32 0x00000000#32),
    binary main_v34 main_cst_8 main_v35 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    binary main_v33 main_v35 main_v36 (Host.divf : (⟨S_, .f32⟩ : BufTy).Contents (Elt F) → (⟨S_, .f32⟩ : BufTy).Contents (Elt F) → (⟨S_, .f32⟩ : BufTy).Contents (Elt F)),
    nullary main_cst_9 (constant S_ .f32 0x3F800000#32),
    binary main_cst_9 main_v36 main_v37 (mulf : (⟨S_, .f32⟩ : BufTy).Contents (Elt F) → (⟨S_, .f32⟩ : BufTy).Contents (Elt F) → (⟨S_, .f32⟩ : BufTy).Contents (Elt F)),
    binary main_v37 main_v28 main_v38 (addf : (⟨S_, .f32⟩ : BufTy).Contents (Elt F) → (⟨S_, .f32⟩ : BufTy).Contents (Elt F) → (⟨S_, .f32⟩ : BufTy).Contents (Elt F)) ]

/-- @main's 118 operations, in order. -/
abbrev ops : List (HloOp τ sig (Elt F)) := opsA ++ opsB ++ opsC ++ opsD

/-! ## @main is that line -/

set_option maxRecDepth 8192 in
set_option maxHeartbeats 4000000 in
/-- @main is the straight line: the callees' definitions unfolded at their calls, both sides are one chain of
    host steps once sequencing is reassociated. -/
theorem main_eq (c : Dev nD) : main (F := F) c = seq ops := by
  simp only [ops, opsA, opsB, opsC, opsD, List.cons_append, List.nil_append, main, fn_log_softmax.body, fn_where.body,
    fn_take_along_axis.body, fn_log_sigmoid.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## The pieces' bookkeeping: which buffers an operation touches, and that it determines what it writes -/

/-- The first piece's operations touch TensorCore buffers only. -/
theorem opsA_sub : (opsA : List (HloOp τ sig (Elt F))).Forall fun op => op.bufs ⊆ tcRefs τ sig :=
  ⟨binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..⟩
/-- …and each determines what it writes. -/
theorem opsA_fresh : ∀ op ∈ (opsA : List (HloOp τ sig (Elt F))), op.fresh = ∅ := by
  intro _ h; (repeat (cases h with | head => rfl | tail _ h => ?_)); exact nomatch h

/-- The second piece's operations touch TensorCore buffers only. -/
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., reshape_bufs_sub .., unary_bufs_sub ..⟩
/-- …and each determines what it writes. -/
theorem opsB_fresh : ∀ op ∈ (opsB : List (HloOp τ sig (Elt F))), op.fresh = ∅ := by
  intro _ h; (repeat (cases h with | head => rfl | tail _ h => ?_)); exact nomatch h

/-- The third piece's operations touch TensorCore buffers only. -/
theorem opsC_sub : (opsC : List (HloOp τ sig (Elt F))).Forall fun op => op.bufs ⊆ tcRefs τ sig :=
  ⟨binary_bufs_sub .., nullary_bufs_sub .., binary_bufs_sub .., nullary_bufs_sub .., binary_bufs_sub .., binary_bufs_sub ..,
    unary_bufs_sub .., unary_bufs_sub .., binary_bufs_sub .., nullary_bufs_sub .., unary_bufs_sub .., binary_bufs_sub ..,
    unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub .., unary_bufs_sub .., nullary_bufs_sub ..,
    unary_bufs_sub .., binary_bufs_sub ..⟩
/-- …and each determines what it writes. -/
theorem opsC_fresh : ∀ op ∈ (opsC : List (HloOp τ sig (Elt F))), op.fresh = ∅ := by
  intro _ h; (repeat (cases h with | head => rfl | tail _ h => ?_)); exact nomatch h

/-- The fourth piece's operations touch TensorCore buffers only. -/
theorem opsD_sub : (opsD : List (HloOp τ sig (Elt F))).Forall fun op => op.bufs ⊆ tcRefs τ sig :=
  ⟨unary_bufs_sub .., unary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., unary_bufs_sub .., nullary_bufs_sub ..,
    unary_bufs_sub .., binary_bufs_sub .., binary_bufs_sub .., nullary_bufs_sub .., binary_bufs_sub .., nullary_bufs_sub ..,
    binary_bufs_sub .., unary_bufs_sub .., unary_bufs_sub .., binary_bufs_sub .., nullary_bufs_sub .., binary_bufs_sub ..,
    unary_bufs_sub .., unary_bufs_sub .., nullary_bufs_sub .., binary_bufs_sub .., binary_bufs_sub .., nullary_bufs_sub ..,
    binary_bufs_sub .., binary_bufs_sub ..⟩
/-- …and each determines what it writes. -/
theorem opsD_fresh : ∀ op ∈ (opsD : List (HloOp τ sig (Elt F))), op.fresh = ∅ := by
  intro _ h; (repeat (cases h with | head => rfl | tail _ h => ?_)); exact nomatch h

/-- Every operation of the line touches TensorCore buffers only: piece by piece. -/
theorem ops_sub : (ops : List (HloOp τ sig (Elt F))).Forall fun op => op.bufs ⊆ tcRefs τ sig :=
  List.forall_iff_forall_mem.mpr fun op h => by
    simp only [ops, List.mem_append] at h
    rcases h with ((h | h) | h) | h
    exacts [List.forall_iff_forall_mem.mp opsA_sub op h, List.forall_iff_forall_mem.mp opsB_sub op h,
      List.forall_iff_forall_mem.mp opsC_sub op h, List.forall_iff_forall_mem.mp opsD_sub op h]

/-- Every operation of the line determines what it writes: piece by piece. -/
theorem ops_fresh : ∀ op ∈ (ops : List (HloOp τ sig (Elt F))), op.fresh = ∅ := by
  intro op h
  simp only [ops, List.mem_append] at h
  rcases h with ((h | h) | h) | h
  exacts [opsA_fresh op h, opsB_fresh op h, opsC_fresh op h, opsD_fresh op h]

/-! ## The raw run -/

/-- On every device, for any float values, from any memory with zero counters: every weakly fair execution of
    @main terminates, and every final state has each TensorCore buffer at the operations' fold over the launch
    contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.RefDefs.lean ====
/-
  The reference program's result as a composition of the pure functions its operations apply, in the
  order the program applies them.

  The labels' mask is the comparison of each label word with the ignore label -100, read as a float (0 or 1).
  The per-token log-probability is: the logits (activations contracted with the class weights over the hidden
  axis), their log-softmax along the class axis (subtract the row maximum, subtract the logarithm of the row's
  sum of exponentials), and the entry of that row the label selects — the ignore label replaced by class 0, a
  negative label counted from the end, a label outside [0, 31999] answered by the NaN fill.
  The tail takes the masked per-sequence averages, compares the first four sequences with the last four through
  the log-sigmoid of a tenth of their difference, and adds the negative average log-probability of the first four.
-/
import proofs.«426376_j48859547959894_3_alg».proof.ReferenceIdeal

noncomputable section

namespace Cert.ReferenceIdeal.Cpo

open Idealize.ShloMosaic Idealize.SL.Sem
open Cert.ReferenceIdeal Cert.ReferenceIdeal.Facts₀

variable {F : FTy → Type} [FloatOps F] [Cert.ReferenceIdeal.Facts]

/-- The labels' mask as floats: 1 where the label is not the ignore label -100, else 0. -/
def refMask (Y : IVec S8x512 32) : FVec F S8x512 .f32 :=
  uitofp .f32 (cmpi .ne Y (broadcastInDim S8x512 ![] bcast_S_S8x512 (constantI S_ 32 4294967196#32)))

/-- The per-token log-probability of the class the token's label selects. -/
def refTokLp (X : FVec F S8x512x4096 .f32) (Y : IVec S8x512 32) (W : FVec F S32000x4096 .f32) : FVec F S8x512 .f32 :=
  -- the logits
  let main_v0 : FVec F S8x512x32000 .f32 := Host.dotGeneral dot_S8x512x4096_S32000x4096_S8x512x32000_2_1_01_0_n_n none X W
  -- their log-softmax along the class axis
  let ls_cst : FVec F S_ .f32 := constant S_ .f32 0xFF800000#32
  let ls_v0 : FVec F S8x512 .f32 := Host.reduce FloatOps.maximumf main_v0 ls_cst reducesTo_S8x512x32000_S8x512_d2 h_S_
  let ls_cst_0 : FVec F S_ .f32 := constant S_ .f32 0xFF800000#32
  let ls_v1 : FVec F S8x512 .f32 := broadcastInDim S8x512 ![] bcast_S_S8x512 ls_cst_0
  let ls_v2 : FVec F S8x512 .f32 := maximumf ls_v1 ls_v0
  let ls_v3 : FVec F S8x512x1 .f32 := broadcastInDim S8x512x1 ![0, 1] bcast_S8x512_S8x512x1_0_1 ls_v2
  let ls_v4 : FVec F S8x512x32000 .f32 := broadcastInDim S8x512x32000 ![0, 1, 2] bcast_S8x512x1_S8x512x32000_0_1_2 ls_v3
  let ls_v5 : FVec F S8x512x32000 .f32 := subf main_v0 ls_v4
  let ls_v6 : FVec F S8x512x32000 .f32 := Host.exp ls_v5
  let ls_cst_1 : FVec F S_ .f32 := constant S_ .f32 0x00000000#32
  let ls_v7 : FVec F S8x512 .f32 := Host.reduceAdd ls_v6 ls_cst_1 reducesTo_S8x512x32000_S8x512_d2 h_S_
  let ls_v8 : FVec F S8x512x1 .f32 := broadcastInDim S8x512x1 ![0, 1] bcast_S8x512_S8x512x1_0_1 ls_v7
  let ls_v9 : FVec F S8x512x1 .f32 := Host.log ls_v8
  let ls_v10 : FVec F S8x512x32000 .f32 := broadcastInDim S8x512x32000 ![0, 1, 2] bcast_S8x512x1_S8x512x32000_0_1_2 ls_v9
  let main_v1 : FVec F S8x512x32000 .f32 := subf ls_v5 ls_v10
  -- the labels with the ignore label replaced by class 0
  let main_c : IVec S_ 32 := constantI S_ 32 4294967196#32
  let main_v2 : IVec S8x512 32 := broadcastInDim S8x512 ![] bcast_S_S8x512 main_c
  let main_v3 : IVec S8x512 1 := cmpi .ne Y main_v2
  let main_c_0 : IVec S_ 32 := constantI S_ 32 0#32
  let wh_v0 : IVec S_ 32 := id main_c_0
  let wh_v1 : IVec S8x512 32 := broadcastInDim S8x512 ![] bcast_S_S8x512 wh_v0
  let main_v4 : IVec S8x512 32 := select main_v3 Y wh_v1
  let main_v5 : IVec S8x512x1 32 := broadcastInDim S8x512x1 ![0, 1] bcast_S8x512_S8x512x1_0_1 main_v4
  -- the entry of the log-softmax row the label selects
  let ta_c : IVec S_ 32 := constantI S_ 32 0#32
  let ta_v0 : IVec S8x512x1 32 := broadcastInDim S8x512x1 ![] bcast_S_S8x512x1 ta_c
  let ta_v1 : IVec S8x512x1 1 := cmpi .slt main_v5 ta_v0
  let ta_c_0 : IVec S_ 32 := constantI S_ 32 32000#32
  let ta_v2 : IVec S8x512x1 32 := broadcastInDim S8x512x1 ![] bcast_S_S8x512x1 ta_c_0
  let ta_v3 : IVec S8x512x1 32 := addi main_v5 ta_v2
  let ta_v4 : IVec S8x512x1 32 := select ta_v1 ta_v3 main_v5
  let ta_v5 : IVec S8x512x1x1 32 := shapeCast S8x512x1x1 ta_v4 shapeCasts_S8x512x1_S8x512x1x1
  let ta_c_1 : IVec S1 32 := constantI S1 32 31999#32
  let ta_c_2 : IVec S_ 32 := constantI S_ 32 0#32
  let ta_v6 : IVec S8x512x1x1 32 := broadcastInDim S8x512x1x1 ![] bcast_S_S8x512x1x1 ta_c_2
  let ta_v7 : IVec S8x512x1x1 1 := cmpi .sge ta_v5 ta_v6
  let ta_v8 : IVec S1x1x1x1 32 := broadcastInDim S1x1x1x1 ![3] bcast_S1_S1x1x1x1_3 ta_c_1
  let ta_v9 : IVec S8x512x1x1 32 := broadcastInDim S8x512x1x1 ![0, 1, 2, 3] bcast_S1x1x1x1_S8x512x1x1_0_1_2_3 ta_v8
  let ta_v10 : IVec S8x512x1x1 1 := cmpi .sle ta_v5 ta_v9
  let ta_v11 : IVec S8x512x1x1 1 := andi ta_v7 ta_v10
  let ta_c_3 : IVec S_ 1 := constantI S_ 1 1#1
  let ta_v12 : IVec S8x512x1 1 := Host.reduce IntOp.andi ta_v11 ta_c_3 reducesTo_S8x512x1x1_S8x512x1_d3 h_S_
  let ta_v13 : FVec F S8x512x1 .f32 := Host.gather gather_S8x512x32000_S8x512x1x1_S8x512x1_n_2_01_01_2_3_111 main_v1 ta_v5
  let ta_cst : FVec F S_ .f32 := constant S_ .f32 0x7FC00000#32
  let ta_v14 : FVec F S8x512x1 .f32 := broadcastInDim S8x512x1 ![] bcast_S_S8x512x1 ta_cst
  let main_v6 : FVec F S8x512x1 .f32 := select ta_v12 ta_v13 ta_v14
  shapeCast S8x512 main_v6 shapeCasts_S8x512x1_S8x512

/-- The softplus of a vector of four, as the program computes it: max(x, 0) + log1p(exp(-|x - 0|)), x + 0 where
    x - 0 is not a number. -/
def refSoftplus (x : FVec F S4 .f32) : FVec F S4 .f32 :=
  let sp_cst : FVec F S_ .f32 := constant S_ .f32 0x00000000#32
  let sp_v0 : FVec F S4 .f32 := broadcastInDim S4 ![] bcast_S_S4 sp_cst
  let sp_v1 : FVec F S4 .f32 := maximumf x sp_v0
  let sp_v2 : FVec F S4 .f32 := broadcastInDim S4 ![] bcast_S_S4 sp_cst
  let sp_v3 : FVec F S4 .f32 := subf x sp_v2
  let sp_v4 : IVec S4 1 := cmpf .une sp_v3 sp_v3
  let sp_v5 : FVec F S4 .f32 := broadcastInDim S4 ![] bcast_S_S4 sp_cst
  let sp_v6 : FVec F S4 .f32 := addf x sp_v5
  let sp_v7 : FVec F S4 .f32 := Host.absf sp_v3
  let sp_v8 : FVec F S4 .f32 := Host.negf sp_v7
  let sp_v9 : FVec F S4 .f32 := Host.exp sp_v8
  let sp_v10 : FVec F S4 .f32 := Host.log1p sp_v9
  let sp_v11 : FVec F S4 .f32 := addf sp_v1 sp_v10
  select sp_v4 sp_v6 sp_v11

/-- The log-sigmoid of a vector of four: minus the softplus of minus it. -/
def refLogSigmoid (x : FVec F S4 .f32) : FVec F S4 .f32 :=
  Host.negf (refSoftplus (Host.negf x))

/-- The loss from the per-token log-probabilities and the mask. -/
def refTail (lp mk : FVec F S8x512 .f32) : FVec F S_ .f32 :=
  let main_v9 : FVec F S8x512 .f32 := mulf lp mk
  let main_cst : FVec F S_ .f32 := constant S_ .f32 0x00000000#32
  let main_v10 : FVec F S8 .f32 := Host.reduceAdd main_v9 main_cst reducesTo_S8x512_S8_d1 h_S_
  let main_cst_1 : FVec F S_ .f32 := constant S_ .f32 0x00000000#32
  let main_v11 : FVec F S8 .f32 := Host.reduceAdd mk main_cst_1 reducesTo_S8x512_S8_d1 h_S_
  let main_v12 : FVec F S8 .f32 := Host.divf main_v10 main_v11
  let main_v13 : FVec F S4 .f32 := extractStridedSlice S4 ![0] main_v12 slices_S8_S4_0
  let main_v14 : FVec F S4 .f32 := extractStridedSlice S4 ![4] main_v12 slices_S8_S4_4
  let main_v15 : FVec F S4 .f32 := subf main_v13 main_v14
  let main_cst_2 : FVec F S_ .f32 := constant S_ .f32 0x3DCCCCCD#32
  let main_v16 : FVec F S4 .f32 := broadcastInDim S4 ![] bcast_S_S4 main_cst_2
  let main_v17 : FVec F S4 .f32 := mulf main_v16 main_v15
  let main_v18 : FVec F S4 .f32 := refLogSigmoid main_v17
  let main_v19 : FVec F S4 .f32 := Host.negf main_v18
  let main_cst_3 : FVec F S_ .f32 := constant S_ .f32 0x3F800000#32
  let main_v20 : FVec F S4 .f32 := broadcastInDim S4 ![] bcast_S_S4 main_cst_3
  let main_v21 : FVec F S4 .f32 := mulf main_v19 main_v20
  let main_v22 : FVec F S4 .f32 := Host.negf main_v17
  let main_v23 : FVec F S4 .f32 := refLogSigmoid main_v22
  let main_cst_4 : FVec F S_ .f32 := constant S_ .f32 0x00000000#32
  let main_v24 : FVec F S4 .f32 := broadcastInDim S4 ![] bcast_S_S4 main_cst_4
  let main_v25 : FVec F S4 .f32 := mulf main_v23 main_v24
  let main_v26 : FVec F S4 .f32 := subf main_v21 main_v25
  let main_cst_5 : FVec F S_ .f32 := constant S_ .f32 0x00000000#32
  let main_v27 : FVec F S_ .f32 := Host.reduceAdd main_v26 main_cst_5 reducesTo_S4_S_d0 h_S_
  let main_cst_6 : FVec F S_ .f32 := constant S_ .f32 0x40800000#32
  let main_v28 : FVec F S_ .f32 := Host.divf main_v27 main_cst_6
  let main_v29 : FVec F S4x512 .f32 := extractStridedSlice S4x512 ![0, 0] lp slices_S8x512_S4x512_0_0
  let main_v30 : FVec F S4x512 .f32 := extractStridedSlice S4x512 ![0, 0] mk slices_S8x512_S4x512_0_0
  let main_v31 : FVec F S4x512 .f32 := mulf main_v29 main_v30
  let main_cst_7 : FVec F S_ .f32 := constant S_ .f32 0x00000000#32
  let main_v32 : FVec F S_ .f32 := Host.reduceAdd main_v31 main_cst_7 reducesTo_S4x512_S_d0_1 h_S_
  let main_v33 : FVec F S_ .f32 := Host.negf main_v32
  let main_v34 : FVec F S4x512 .f32 := extractStridedSlice S4x512 ![0, 0] mk slices_S8x512_S4x512_0_0
  let main_cst_8 : FVec F S_ .f32 := constant S_ .f32 0x00000000#32
  let main_v35 : FVec F S_ .f32 := Host.reduceAdd main_v34 main_cst_8 reducesTo_S4x512_S_d0_1 h_S_
  let main_v36 : FVec F S_ .f32 := Host.divf main_v33 main_v35
  let main_cst_9 : FVec F S_ .f32 := constant S_ .f32 0x3F800000#32
  let main_v37 : FVec F S_ .f32 := mulf main_cst_9 main_v36
  addf main_v37 main_v28

/-- The reference's result as a function of its three arguments. -/
def refResult (X : FVec F S8x512x4096 .f32) (Y : IVec S8x512 32) (W : FVec F S32000x4096 .f32) : FVec F S_ .f32 :=
  refTail (refTokLp X Y W) (refMask Y)

end Cert.ReferenceIdeal.Cpo

end
-- ==== Proof.RefRun.lean ====
/-
  The reference program's run read back.

  The program is the straight line of 118 host operations of the operations module, in four pieces. What a
  buffer holds after the line is the fold of the operations' results over the launch contents; the fold is read
  in two stages. After the first two pieces (the logits, their log-softmax, the label preparation, the gather)
  the reshaped gather's buffer holds the per-token log-probabilities and the converted comparison's buffer the
  mask, each as the composition of the pure functions of the operations that lead to it. After the last two
  pieces the result buffer holds the loss as a function of those two. No operation writes an argument's buffer.

  An operation of a callee is stated over typed references: its function is applied between a transport of each
  operand from the buffer's type to the tensor type and a transport of the result back. At a literal buffer both
  types are the same, so each transport is the identity; they are removed one by one, by an equation, before the
  composed term is compared with the definition's chain of the same functions.

  The run: on every device, from any memory with zero counters, every weakly fair execution terminates with the
  result buffer at the reference's result of the three arguments' launch contents, and the three arguments
  unchanged.
-/
import proofs.«426376_j48859547959894_3_alg».proof.Proof.RefOps
import proofs.«426376_j48859547959894_3_alg».proof.Proof.RefDefs
import Idealize.ShloMosaic.Lib.StableHlo.Run
import Idealize.ShloMosaic.Lib.Pipeline.Frame

noncomputable section

namespace Cert.ReferenceIdeal.Hand

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-! ## What the buffers hold after the line, in two stages -/

/-- A transport along an equation between a type and itself is the identity. Stated as an equation to rewrite
    with, step by step, where the transports are nested: each use is then checked on its own. -/
theorem cast_self' {α : Sort _} (h : α = α) (a : α) : cast h a = a := cast_eq h a

/-- The device's buffer contents after the first two pieces, from contents `V0`. -/
def val1 (V0 : Valuation τ sig (Elt F)) : Valuation τ sig (Elt F) := after opsB (after opsA V0)

/-- The device's buffer contents after all four pieces, from contents `V0`. -/
def val2 (V0 : Valuation τ sig (Elt F)) : Valuation τ sig (Elt F) := after opsD (after opsC (val1 V0))

/-- The whole line's fold is the second stage. -/
theorem after_ops (V0 : Valuation τ sig (Elt F)) : after ops V0 = val2 V0 := by
  simp only [ops, after_append, val2, val1]

set_option maxRecDepth 8192 in
set_option maxHeartbeats 4000000 in
/-- After the first two pieces the buffer of the reshaped gather holds the per-token log-probabilities: the
    forty-six operations that lead to it composed, which is the definition's chain of the same functions. -/
theorem val1_v7 (V0 : Valuation τ sig (Elt F)) :
    val1 V0 (no_index (Proc.devRef .tc main_v7))
      = Cpo.refTokLp (V0 (Proc.devRef .tc main_arg0)) (V0 (Proc.devRef .tc main_arg1)) (V0 (Proc.devRef .tc main_arg2)) := by
  unfold val1
  simp only [opsA, opsB]
  after_results_simp
  simp only [TRef.ofBuf, TRef.toBuf, cast_self']
  simp only [Cpo.refTokLp]
  rfl

set_option maxRecDepth 8192 in
set_option maxHeartbeats 4000000 in
/-- After the first two pieces the buffer of the converted comparison holds the mask. -/
theorem val1_v8 (V0 : Valuation τ sig (Elt F)) :
    val1 V0 (no_index (Proc.devRef .tc main_v8)) = Cpo.refMask (F := F) (V0 (Proc.devRef .tc main_arg1)) := by
  unfold val1
  simp only [opsA, opsB]
  after_results_simp
  simp only [Cpo.refMask]

/-! No operation writes an argument's buffer: each keeps its contents through both stages. -/

set_option maxRecDepth 8192 in
set_option maxHeartbeats 4000000 in
theorem val1_arg0 (V0 : Valuation τ sig (Elt F)) :
    val1 V0 (no_index (Proc.devRef .tc main_arg0)) = V0 (Proc.devRef .tc main_arg0) := by
  unfold val1
  simp only [opsA, opsB]
  after_results_simp

set_option maxRecDepth 8192 in
set_option maxHeartbeats 4000000 in
theorem val1_arg1 (V0 : Valuation τ sig (Elt F)) :
    val1 V0 (no_index (Proc.devRef .tc main_arg1)) = V0 (Proc.devRef .tc main_arg1) := by
  unfold val1
  simp only [opsA, opsB]
  after_results_simp

set_option maxRecDepth 8192 in
set_option maxHeartbeats 4000000 in
theorem val1_arg2 (V0 : Valuation τ sig (Elt F)) :
    val1 V0 (no_index (Proc.devRef .tc main_arg2)) = V0 (Proc.devRef .tc main_arg2) := by
  unfold val1
  simp only [opsA, opsB]
  after_results_simp

set_option maxRecDepth 8192 in
set_option maxHeartbeats 4000000 in
theorem val2_arg0 (V0 : Valuation τ sig (Elt F)) :
    val2 V0 (no_index (Proc.devRef .tc main_arg0)) = V0 (Proc.devRef .tc main_arg0) := by
  unfold val2
  simp only [opsC, opsD]
  after_results_simp
  exact val1_arg0 V0

set_option maxRecDepth 8192 in
set_option maxHeartbeats 4000000 in
theorem val2_arg1 (V0 : Valuation τ sig (Elt F)) :
    val2 V0 (no_index (Proc.devRef .tc main_arg1)) = V0 (Proc.devRef .tc main_arg1) := by
  unfold val2
  simp only [opsC, opsD]
  after_results_simp
  exact val1_arg1 V0

set_option maxRecDepth 8192 in
set_option maxHeartbeats 4000000 in
theorem val2_arg2 (V0 : Valuation τ sig (Elt F)) :
    val2 V0 (no_index (Proc.devRef .tc main_arg2)) = V0 (Proc.devRef .tc main_arg2) := by
  unfold val2
  simp only [opsC, opsD]
  after_results_simp
  exact val1_arg2 V0

set_option maxRecDepth 8192 in
set_option maxHeartbeats 4000000 in
/-- After all four pieces the result buffer holds the loss as the function of the per-token log-probabilities
    and the mask that the last seventy operations compose. -/
theorem val2_v38_tail (V0 : Valuation τ sig (Elt F)) :
    val2 V0 (no_index (Proc.devRef .tc main_v38))
      = Cpo.refTail (val1 V0 (Proc.devRef .tc main_v7)) (val1 V0 (Proc.devRef .tc main_v8)) := by
  unfold val2
  simp only [opsC, opsD]
  after_results_simp
  simp only [TRef.ofBuf, TRef.toBuf, cast_self']
  simp only [Cpo.refTail, Cpo.refLogSigmoid, Cpo.refSoftplus]

/-- After all four pieces the result buffer holds the reference's result of the three arguments. -/
theorem val2_v38 (V0 : Valuation τ sig (Elt F)) :
    val2 V0 (no_index (Proc.devRef .tc main_v38))
      = Cpo.refResult (V0 (Proc.devRef .tc main_arg0)) (V0 (Proc.devRef .tc main_arg1)) (V0 (Proc.devRef .tc main_arg2)) := by
  rw [val2_v38_tail, val1_v7, val1_v8, Cpo.refResult]

/-! ## The run -/

/-- On every device, for any float values, from any memory with zero counters: every weakly fair execution of
    @main terminates with the result buffer at the reference's result of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
          = Cpo.refResult (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v38).trans (by simp only [after_ops]; exact val2_v38 (launchContents m c)),
      (h c main_arg0).trans (by simp only [after_ops]; exact val2_arg0 (launchContents m c)),
      (h c main_arg1).trans (by simp only [after_ops]; exact val2_arg1 (launchContents m c)),
      (h c main_arg2).trans (by simp only [after_ops]; exact val2_arg2 (launchContents m c))⟩)
    (run_seq scopedRefs_eq scopedSems_eq defs main (fun _ => ops) main_eq (fun _ => ops_sub) m ρ (fun _ => ops_fresh))

end Cert.ReferenceIdeal.Hand

end
-- ==== Proof.KTail.lean ====
/-
  The host operations after the launch, as one function of the token log-probabilities and the mask.

  After the launch @main subtracts the launch's result column (a token's log-sum-exp) from the token's target
  logit, arranges the 4096 differences as 8 rows of 512 token log-probabilities, converts the label mask to f32 in
  the same arrangement, and from these two arrays alone computes its result: the masked mean log-probability of
  each row, the difference of the first four rows' means and the last four rows', the preference term through two
  log-sigmoids (each a softplus of the negated argument, negated), and the masked negative log-likelihood of the
  first four rows. The function kTail is that computation, operation by operation in the printed order.
-/
import proofs.«426376_j48859547959894_3_alg».proof.Proof.KitFrame

set_option maxRecDepth 16384

noncomputable section

namespace Cert.KernelIdeal.Cpo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- @softplus as printed: the larger of the argument and zero plus log (1 + exp (-|argument|)), and the argument
    itself where the argument is not a number. -/
def kSoftplus (a : FVec F S4 .f32) : FVec F S4 .f32 :=
  let cst : FVec F S_ .f32 := constant S_ .f32 0x00000000#32
  let v0 : FVec F S4 .f32 := broadcastInDim S4 ![] Facts₀.bcast_S_S4 cst
  let v1 : FVec F S4 .f32 := maximumf a v0
  let v2 : FVec F S4 .f32 := broadcastInDim S4 ![] Facts₀.bcast_S_S4 cst
  let v3 : FVec F S4 .f32 := subf a v2
  let v4 : IVec S4 1 := cmpf .une v3 v3
  let v5 : FVec F S4 .f32 := broadcastInDim S4 ![] Facts₀.bcast_S_S4 cst
  let v6 : FVec F S4 .f32 := addf a v5
  let v7 : FVec F S4 .f32 := Host.absf v3
  let v8 : FVec F S4 .f32 := Host.negf v7
  let v9 : FVec F S4 .f32 := Host.exp v8
  let v10 : FVec F S4 .f32 := Host.log1p v9
  let v11 : FVec F S4 .f32 := addf v1 v10
  select v4 v6 v11

/-- @log_sigmoid as printed: minus the softplus of minus the argument. -/
def kLogSigmoid (a : FVec F S4 .f32) : FVec F S4 .f32 :=
  Host.negf (kSoftplus (Host.negf a))

/-- @main's result from the token log-probabilities lp and the mask mk, both 8 rows of 512: the operations
    %22 … %51 in the printed order. -/
def kTail (lp mk : FVec F S8x512 .f32) : FVec F S_ .f32 :=
  let v22 : FVec F S8x512 .f32 := mulf lp mk
  let cst_3 : FVec F S_ .f32 := constant S_ .f32 0x00000000#32
  let v23 : FVec F S8 .f32 := Host.reduceAdd v22 cst_3 Facts₀.reducesTo_S8x512_S8_d1 Facts₀.h_S_
  let cst_4 : FVec F S_ .f32 := constant S_ .f32 0x00000000#32
  let v24 : FVec F S8 .f32 := Host.reduceAdd mk cst_4 Facts₀.reducesTo_S8x512_S8_d1 Facts₀.h_S_
  let v25 : FVec F S8 .f32 := Host.divf v23 v24
  let v26 : FVec F S4 .f32 := extractStridedSlice S4 ![0] v25 Facts₀.slices_S8_S4_0
  let v27 : FVec F S4 .f32 := extractStridedSlice S4 ![4] v25 Facts₀.slices_S8_S4_4
  let v28 : FVec F S4 .f32 := subf v26 v27
  let cst_5 : FVec F S_ .f32 := constant S_ .f32 0x3DCCCCCD#32
  let v29 : FVec F S4 .f32 := broadcastInDim S4 ![] Facts₀.bcast_S_S4 cst_5
  let v30 : FVec F S4 .f32 := mulf v29 v28
  let v31 : FVec F S4 .f32 := kLogSigmoid v30
  let v32 : FVec F S4 .f32 := Host.negf v31
  let cst_6 : FVec F S_ .f32 := constant S_ .f32 0x3F800000#32
  let v33 : FVec F S4 .f32 := broadcastInDim S4 ![] Facts₀.bcast_S_S4 cst_6
  let v34 : FVec F S4 .f32 := mulf v32 v33
  let v35 : FVec F S4 .f32 := Host.negf v30
  let v36 : FVec F S4 .f32 := kLogSigmoid v35
  let cst_7 : FVec F S_ .f32 := constant S_ .f32 0x00000000#32
  let v37 : FVec F S4 .f32 := broadcastInDim S4 ![] Facts₀.bcast_S_S4 cst_7
  let v38 : FVec F S4 .f32 := mulf v36 v37
  let v39 : FVec F S4 .f32 := subf v34 v38
  let cst_8 : FVec F S_ .f32 := constant S_ .f32 0x00000000#32
  let v40 : FVec F S_ .f32 := Host.reduceAdd v39 cst_8 Facts₀.reducesTo_S4_S_d0 Facts₀.h_S_
  let cst_9 : FVec F S_ .f32 := constant S_ .f32 0x40800000#32
  let v41 : FVec F S_ .f32 := Host.divf v40 cst_9
  let v42 : FVec F S4x512 .f32 := extractStridedSlice S4x512 ![0, 0] lp Facts₀.slices_S8x512_S4x512_0_0
  let v43 : FVec F S4x512 .f32 := extractStridedSlice S4x512 ![0, 0] mk Facts₀.slices_S8x512_S4x512_0_0
  let v44 : FVec F S4x512 .f32 := mulf v42 v43
  let cst_10 : FVec F S_ .f32 := constant S_ .f32 0x00000000#32
  let v45 : FVec F S_ .f32 := Host.reduceAdd v44 cst_10 Facts₀.reducesTo_S4x512_S_d0_1 Facts₀.h_S_
  let v46 : FVec F S_ .f32 := Host.negf v45
  let v47 : FVec F S4x512 .f32 := extractStridedSlice S4x512 ![0, 0] mk Facts₀.slices_S8x512_S4x512_0_0
  let cst_11 : FVec F S_ .f32 := constant S_ .f32 0x00000000#32
  let v48 : FVec F S_ .f32 := Host.reduceAdd v47 cst_11 Facts₀.reducesTo_S4x512_S_d0_1 Facts₀.h_S_
  let v49 : FVec F S_ .f32 := Host.divf v46 v48
  let cst_12 : FVec F S_ .f32 := constant S_ .f32 0x3F800000#32
  let v50 : FVec F S_ .f32 := mulf cst_12 v49
  addf v50 v41

/-- The later stretches from any contents Wv: the result buffer holds kTail of the reshaped difference of the
    target logits and the launch's result column, and of the reshaped mask. -/
theorem tail_after (Wv : Valuation τ sig (Elt F)) :
    StableHlo.after (List.flatten (tailOps (F := F))) Wv (Proc.devRef .tc main_v51)
      = kTail (shapeCast S8x512 (subf (Wv (Proc.devRef .tc main_v15) : FVec F S4096 .f32)
                  (shapeCast S4096 (Wv (Proc.devRef .tc main_v16) : FVec F S4096x1 .f32) Facts₀.shapeCasts_S4096x1_S4096))
                Facts₀.shapeCasts_S4096_S8x512)
              (shapeCast S8x512 (uitofp .f32 (Wv (Proc.devRef .tc main_v5) : IVec S4096 1) : FVec F S4096 .f32) Facts₀.shapeCasts_S4096_S8x512) := by
  simp only [tailOps, hostOps1, hostOps1_1, hostOps1_2, hostOps1_3, hostOps1_4, List.flatten_cons, List.flatten_nil, List.append_nil,
    List.cons_append, List.nil_append]
  after_results_simp
  rfl

variable (m : (ℓ : Loc nD τ sig) → Buf (Elt F) ℓ)

/-- What @main leaves in its result buffer: kTail of the token log-probabilities — the target logits the launch
    finds minus the launch's final result column, as 8 rows of 512 — and of the mask the launch finds, as f32 in the
    same arrangement. -/
theorem tail_value (dats : (p : Fin 1) → (c : Dev nD) → Dat τ (Elt F) Unit ℕ (UR sig nD τ) ℕ (cfgs p) c) (c : Dev nD) :
    Pipeline.afterTail₀ cfgs dats 0 (V0 m) tailOps c main_v51
      = kTail (shapeCast S8x512 (subf (V m c main_v15 : FVec F S4096 .f32)
                  (shapeCast S4096 ((dats 0 c).arrAt 2 cfg0.N : FVec F S4096x1 .f32) Facts₀.shapeCasts_S4096x1_S4096))
                Facts₀.shapeCasts_S4096_S8x512)
              (shapeCast S8x512 (uitofp .f32 (V m c main_v5 : IVec S4096 1) : FVec F S4096 .f32) Facts₀.shapeCasts_S4096_S8x512) := by
  unfold Pipeline.afterTail₀
  refine (tail_after _).trans ?_
  have h15 : Pipeline.withArrays (cfgs 0).spec c (V0 m c) (fun w => (dats 0 c).arrAt w (cfgs 0).N) (Proc.devRef .tc main_v15) = V m c main_v15 :=
    Pipeline.withArrays_of_ne _ c (V0 m c) _ main_v15 (by decide : ∀ w, Pipeline.arrRef spec0 w ≠ main_v15)
  have h5 : Pipeline.withArrays (cfgs 0).spec c (V0 m c) (fun w => (dats 0 c).arrAt w (cfgs 0).N) (Proc.devRef .tc main_v5) = V m c main_v5 :=
    Pipeline.withArrays_of_ne _ c (V0 m c) _ main_v5 (by decide : ∀ w, Pipeline.arrRef spec0 w ≠ main_v5)
  have h16 : Pipeline.withArrays (cfgs 0).spec c (V0 m c) (fun w => (dats 0 c).arrAt w (cfgs 0).N) (Proc.devRef .tc main_v16) = (dats 0 c).arrAt 2 cfg0.N :=
    Pipeline.withArrays_arr spec0 launch0.win.arr_inj c (V0 m c) _ 2
  rw [h15, h5, h16]

end Cert.KernelIdeal.Cpo

end
-- ==== Proof.Spec.lean ====
/-
  The quantities both programs compute, over the argument arrays read as extended reals.

  A token is a pair (b, t) with b < 8 and t < 512; its logit for class v < 32000 is the inner product over the
  4096 hidden coordinates of the token's activation row with the class's weight row. The token's log-probability
  of class v is the logit minus the logarithm of the sum of the exponentials of all the token's logits. The
  reference computes it as (logit - M) - log (Σ exp (logit - M)) with M the row's maximum; the kernel as
  logit - (M + log (Σ exp (logit - M))), with M and the sum accumulated over fifty blocks of 640 classes.

  A label is a signed 32-bit word: the ignore label -100 is replaced by class 0, and a negative label counts
  classes from the end (32000 is added to it).
-/
import Idealize.ShloMosaic.PureOps.Ideal
import Idealize.ShloMosaic.Lib.ValueIdx

noncomputable section

namespace Cert.Cpo

open Idealize.ShloMosaic Idealize.ShloMosaic.ValueIdx
open scoped BigOperators

/-- Activations [8, 512, 4096], labels [8, 512], class weights [32000, 4096]. -/
abbrev SX : Shape := ⟨3, ![8, 512, 4096]⟩
abbrev SY : Shape := ⟨2, ![8, 512]⟩
abbrev SW : Shape := ⟨2, ![32000, 4096]⟩

/-- The logit of token (b, t) for class v: the inner product over the hidden coordinates. -/
def logit (X : SX.Idx → EReal) (W : SW.Idx → EReal) (b : Fin 8) (t : Fin 512) (v : Fin 32000) : EReal :=
  ∑ h : Fin 4096, X (ix3 b t h) * W (ix2 v h)

/-- The class word a label word selects: the ignore label -100 selects class 0, a negative label counts from the end. -/
def clsWord (a : BitVec 32) : BitVec 32 :=
  let s : BitVec 32 := if a = 4294967196#32 then 0#32 else a
  if s.slt 0#32 then s + 32000#32 else s

/-- The largest logit of a token. -/
def rowMax (X : SX.Idx → EReal) (W : SW.Idx → EReal) (b : Fin 8) (t : Fin 512) : EReal :=
  (Finset.univ : Finset (Fin 32000)).fold max ⊥ (fun v => logit X W b t v)

/-- The sum over the classes of the exponentials of a token's logits, each taken relative to the largest. -/
def rowSumExp (X : SX.Idx → EReal) (W : SW.Idx → EReal) (b : Fin 8) (t : Fin 512) : EReal :=
  ∑ v : Fin 32000, Ideal.exp (logit X W b t v - rowMax X W b t)

/-- The log-probability of class v, in the reference's arrangement. -/
def lpRef (X : SX.Idx → EReal) (W : SW.Idx → EReal) (b : Fin 8) (t : Fin 512) (v : Fin 32000) : EReal :=
  (logit X W b t v - rowMax X W b t) - Ideal.log (rowSumExp X W b t)

/-- The log-probability of class v, in the kernel's arrangement. -/
def lpKer (X : SX.Idx → EReal) (W : SW.Idx → EReal) (b : Fin 8) (t : Fin 512) (v : Fin 32000) : EReal :=
  logit X W b t v - (rowMax X W b t + Ideal.log (rowSumExp X W b t))

/-- Class 640 j + k, the k-th class of the j-th block of 640. -/
def blkCls (j : Fin 50) (k : Fin 640) : Fin 32000 := ⟨640 * j.val + k.val, by omega⟩

/-- A token's logits arranged in fifty blocks of 640 classes. -/
def blkScore (X : SX.Idx → EReal) (W : SW.Idx → EReal) (b : Fin 8) (t : Fin 512) (j : Fin 50) (k : Fin 640) : EReal :=
  logit X W b t (blkCls j k)

end Cert.Cpo

end
-- ==== Proof.PreDecode.lean ====
import proofs.«426376_j48859547959894_3_alg».proof.Pre_finite_inputs
import Idealize.ShloMosaic.Lib.ReduceAll
import Idealize.ShloMosaic.PureOps.Ideal.Laws
import Idealize.ShloMosaic.Lib.ValueIdx

/-!
  The precondition read back. The printed predicate says: every entry of the activations and of the
  weights has absolute value below +∞, and every label, read as a signed word, lies in [-32000, 32000).
  Here that one bit is decoded into those three families of facts, and the word arithmetic of the label
  normalisation (the ignore label -100 sent to class 0, a negative class counted from the end) is shown to
  land in [0, 32000).
-/

namespace Cert.Cpo.PreDecode

open Idealize.ShloMosaic

/-- The scalar shape has one index. -/
instance : Subsingleton Cert.Pre_finite_inputs.S_.Idx := ⟨fun a b => funext fun d => d.elim0⟩

/-- The word 0x7F800000 is +∞. -/
theorem inf_word : Ideal.ofBits .f32 0x7F800000#32 = (⊤ : EReal) := by simp [Ideal.ofBits, Ideal.ieee]

/-- An extended real whose absolute value max a (-a) is below +∞ is a real number. -/
theorem real_of_abs_lt_inf (a : EReal)
    (h : Ideal.cmp .olt (max a (-a)) (Ideal.ofBits .f32 0x7F800000#32) = 1#1) : ∃ r : ℝ, a = (r : EReal) := by
  rw [inf_word] at h
  have hlt : max a (-a) < ⊤ := by
    unfold Ideal.cmp at h
    by_contra hn
    simp [hn] at h
  rw [max_lt_iff] at hlt
  induction a using EReal.rec with
  | bot => exact absurd hlt.2 (by simp)
  | coe r => exact ⟨r, rfl⟩
  | top => exact absurd hlt.1 (by simp)

/-- The word 4294935296 is -32000 read signed; 32000 is 32000. -/
theorem toInt_neg32000 : (4294935296#32 : BitVec 32).toInt = -32000 := by decide
theorem toInt_32000 : (32000#32 : BitVec 32).toInt = 32000 := by decide

theorem decode [Cert.Pre_finite_inputs.Facts]
    (x : FVec Ideal Cert.Pre_finite_inputs.S8x512x4096 .f32) (y : IVec Cert.Pre_finite_inputs.S8x512 32)
    (w : FVec Ideal Cert.Pre_finite_inputs.S32000x4096 .f32)
    (h : Cert.Pre_finite_inputs.fn (F := Ideal) x y w = fun _ => 1#1) :
    (∀ i, ∃ r : ℝ, x i = (r : EReal)) ∧ (∀ i, ∃ r : ℝ, w i = (r : EReal))
      ∧ (∀ i, (-32000 : Int) ≤ (y i).toInt ∧ (y i).toInt < 32000) := by
  have h0 := congrFun h ValueIdx.ix0
  dsimp only [Cert.Pre_finite_inputs.fn] at h0
  obtain ⟨hxw, hy⟩ := IntOp.andi_eq_one.1 h0
  obtain ⟨hx, hw⟩ := IntOp.andi_eq_one.1 hxw
  refine ⟨fun i => ?_, fun i => ?_, fun i => ?_⟩
  · have e := Host.reduce_andi_all _ _ _ _ _ hx i
    exact real_of_abs_lt_inf (x i) e
  · have e := Host.reduce_andi_all _ _ _ _ _ hw i
    exact real_of_abs_lt_inf (w i) e
  · have e := Host.reduce_andi_all _ _ _ _ _ hy i
    obtain ⟨e1, e2⟩ := IntOp.andi_eq_one.1 e
    have e1' := IntOp.cmpi_sge.1 e1
    have e2' := IntOp.cmpi_slt.1 e2
    refine ⟨?_, ?_⟩
    · refine le_trans (le_of_eq toInt_neg32000.symm) e1'
    · exact lt_of_lt_of_eq e2' toInt_32000

/-! ## The label normalisation on one word -/

/-- The ignore label -100 goes to class 0 and a negative class counts from the end: a label in
    [-32000, 32000) lands in [0, 32000), so the bounds check that follows it passes. -/
theorem norm_inrange (a : BitVec 32) (h : (-32000 : Int) ≤ a.toInt ∧ a.toInt < 32000) :
    let s : BitVec 32 := if a = 4294967196#32 then 0#32 else a
    let n : BitVec 32 := if s.slt 0#32 then s + 32000#32 else s
    n.toNat < 32000 ∧ (0#32).sle n = true ∧ n.sle 31999#32 = true := by
  obtain ⟨h1, h2⟩ := h
  intro s n
  have h0 : (0#32 : BitVec 32).toInt = 0 := by decide
  have hs : (-32000 : Int) ≤ s.toInt ∧ s.toInt < 32000 := by
    show (-32000 : Int) ≤ (if a = 4294967196#32 then 0#32 else a).toInt
      ∧ (if a = 4294967196#32 then 0#32 else a).toInt < 32000
    split
    · decide
    · exact ⟨h1, h2⟩
  obtain ⟨s1, s2⟩ := hs
  have hn : (0 : Int) ≤ n.toInt ∧ n.toInt < 32000 := by
    show (0 : Int) ≤ (if s.slt 0#32 then s + 32000#32 else s).toInt
      ∧ (if s.slt 0#32 then s + 32000#32 else s).toInt < 32000
    split
    · next hlt =>
      rw [BitVec.slt_iff_toInt_lt, h0] at hlt
      have h32 : (32000#32 : BitVec 32).toInt = 32000 := by decide
      have hb : (s.toInt + 32000).bmod (2 ^ 32) = s.toInt + 32000 := Int.bmod_eq_of_le (by omega) (by omega)
      rw [BitVec.toInt_add, h32, hb]; omega
    · next hlt =>
      rw [BitVec.slt_iff_toInt_lt, h0] at hlt
      omega
  obtain ⟨n1, n2⟩ := hn
  refine ⟨?_, ?_, ?_⟩
  · have := BitVec.toInt_eq_toNat_cond n
    split at this <;> omega
  · rw [BitVec.sle_iff_toInt_le, h0]; exact n1
  · have h9 : (31999#32 : BitVec 32).toInt = 31999 := by decide
    rw [BitVec.sle_iff_toInt_le, h9]; omega

/-- A word select on the compare "a ≠ -100" keeps a, and gives 0 at -100. -/
theorem where_eq (a : BitVec 32) :
    Scalar.select (IntOp.cmpi .ne a 4294967196#32) a (0#32)
      = if a = 4294967196#32 then 0#32 else a := by
  unfold Scalar.select
  by_cases ha : a = 4294967196#32
  · rw [if_pos ha]
    exact if_neg (fun hc => (IntOp.cmpi_ne.1 hc) ha)
  · rw [if_neg ha]
    exact if_pos (IntOp.cmpi_ne.2 ha)

/-- A word select on the compare "s < 0" adds 32000 to a negative s and keeps the others. -/
theorem wrap_eq (s : BitVec 32) :
    Scalar.select (IntOp.cmpi .slt s 0#32) (IntOp.addi s 32000#32) s
      = if s.slt 0#32 then s + 32000#32 else s := by
  unfold Scalar.select IntOp.addi
  by_cases hs : s.slt 0#32 = true
  · have hc : IntOp.cmpi .slt s 0#32 = 1#1 := by
      rw [IntOp.cmpi_slt, ← BitVec.slt_iff_toInt_lt]; exact hs
    rw [if_pos hs]
    exact if_pos hc
  · have hc : ¬ IntOp.cmpi .slt s 0#32 = 1#1 := by
      rw [IntOp.cmpi_slt, ← BitVec.slt_iff_toInt_lt]; exact hs
    rw [if_neg hs]
    exact if_neg hc

/-- The same fact with the normalisation and the bounds check written in the word operations the
    vector forms unfold to at an index (select on a compare word, addi, the signed compares). -/
theorem norm_inrange' (a : BitVec 32) (h : (-32000 : Int) ≤ a.toInt ∧ a.toInt < 32000) :
    let s : BitVec 32 := Scalar.select (IntOp.cmpi .ne a 4294967196#32) a (0#32)
    let n : BitVec 32 := Scalar.select (IntOp.cmpi .slt s 0#32) (IntOp.addi s 32000#32) s
    n.toNat < 32000 ∧ IntOp.cmpi .sge n 0#32 = 1#1 ∧ IntOp.cmpi .sle n 31999#32 = 1#1 := by
  intro s n
  have hs : s = if a = 4294967196#32 then 0#32 else a := where_eq a
  have hn : n = if s.slt 0#32 then s + 32000#32 else s := wrap_eq s
  have key := norm_inrange a h
  dsimp only at key
  rw [← hs, ← hn] at key
  obtain ⟨k1, k2, k3⟩ := key
  refine ⟨k1, ?_, ?_⟩
  · rw [IntOp.cmpi_sge, ← BitVec.sle_iff_toInt_le]; exact k2
  · rw [IntOp.cmpi_sle, ← BitVec.sle_iff_toInt_le]; exact k3

end Cert.Cpo.PreDecode
-- ==== Proof.KPre.lean ====
/-
  What the launch finds: the values of the host operations before the launch, read at one token.

  Before the launch the program reshapes the activations to a [4096, 4096] matrix (token 512 b + t in row b, t) and
  changes its format and the class weights' (the identity at the ideal values); reshapes the labels to a vector of
  4096, compares them with the ignore label -100, replaces the ignore label by class 0 and counts a negative label
  from the end; gathers, for each token, the weight row its class word names (the start index read signed and clamped
  into the class range); and sums, over the hidden axis, the products of the token's activations with that row: the
  target logit.

  Here each of these is read at token (b, t): the two matrices the launch's windows stage are the arguments'
  entries, the mask is 0 at the ignore label and 1 elsewhere, and the target logit, when the label's class word lies
  in [0, 31999], is the logit of that class.
-/
import proofs.«426376_j48859547959894_3_alg».proof.Proof.KitFrame
import proofs.«426376_j48859547959894_3_alg».proof.Proof.Spec
import proofs.«426376_j48859547959894_3_alg».proof.Proof.PreDecode
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate
import Idealize.ShloMosaic.Lib.StableHlo.Run

set_option maxRecDepth 16384

noncomputable section

namespace Cert.KernelIdeal.Cpo

open Cert.KernelIdeal Cert.KernelIdeal.Gen
open Idealize.ShloMosaic Idealize.ShloMosaic.TcCoe Idealize.ShloMosaic.Tactic
open Idealize.ShloMosaic.ValueIdx Idealize.ShloMosaic.StableHlo
open Idealize.SL Idealize.SL.Sem
open scoped BigOperators

variable (m : (ℓ : Loc nD τ sig) → Buf (Elt Ideal) ℓ)

/-! ## The reshapes of the activations and of the labels read at a token -/

/-- The [8, 512, 4096] activations as a [4096, 4096] matrix read, at (512 b + t, h), the activations at (b, t, h). -/
theorem x_cast_apply {α : Type} (X : S8x512x4096.Idx → α) (b : Fin 8) (t : Fin 512) (h : Fin 4096) :
    shapeCast S4096x4096 X Facts₀.shapeCasts_S8x512x4096_S4096x4096 (ix2 ⟨512 * b.val + t.val, by omega⟩ h) = X (ix3 b t h) :=
  shapeCast_apply X _ _ _ (by
    rw [Shape.rowMajor_val_three, Shape.rowMajor_val_two]
    show (b.val * 512 + t.val) * 4096 + h.val = (512 * b.val + t.val) * 4096 + h.val
    omega)

/-- The [8, 512] labels as a vector of 4096 read, at 512 b + t, the label at (b, t). -/
theorem y_cast_apply {α : Type} (Y : S8x512.Idx → α) (b : Fin 8) (t : Fin 512) :
    shapeCast S4096 Y Facts₀.shapeCasts_S8x512_S4096 (ix1 ⟨512 * b.val + t.val, by omega⟩) = Y (ix2 b t) :=
  shapeCast_apply Y _ _ _ (by
    rw [Shape.rowMajor_val_two, Shape.rowMajor_val_one]
    show b.val * 512 + t.val = 512 * b.val + t.val
    omega)

/-! ## Broadcasts read at an index -/

/-- A scalar broadcast to the token vector reads the scalar everywhere. -/
theorem bcast_tok_apply {α : Type} (v : S_.Idx → α) (j : S4096.Idx) :
    broadcastInDim S4096 ![] Facts₀.bcast_S_S4096 v j = v ix0 :=
  congrArg v (funext fun a => a.elim0)

/-- The token vector as a [4096, 1] column reads, at (r, 0), the vector at r. -/
theorem bcast_tokcol_apply {α : Type} (y : S4096.Idx → α) (r : Fin 4096) (u : Fin 1) :
    broadcastInDim S4096x1 ![0] Facts₀.bcast_S4096_S4096x1_0 y (ix2 r u) = y (ix1 r) := by
  refine congrArg y (funext fun a => Fin.ext ?_)
  match a with
  | ⟨0, _⟩ => rfl

/-! ## The gather of the weight rows read at (r, h) -/

theorem gk_sim : gather_S32000x4096_S4096x1_S4096x4096_1_0_n_n_0_1_14096.startIndexMap = [0] := rfl
theorem gk_csd : gather_S32000x4096_S4096x1_S4096x4096_1_0_n_n_0_1_14096.collapsedSliceDims = [0] := rfl
theorem gk_obd : gather_S32000x4096_S4096x1_S4096x4096_1_0_n_n_0_1_14096.operandBatchingDims = [] := rfl

/-- On the class axis the operand index is the start index at (r, 0), read signed and clamped into [0, 31999]. -/
theorem gather_rows_0 (idx : IVec S4096x1 32) (r h : Fin 4096) :
    (gather_S32000x4096_S4096x1_S4096x4096_1_0_n_n_0_1_14096.operandIdx (ix2 r h) idx 0).val = min (idx (ix2 r (0 : Fin 1))).toInt.toNat 31999 := by
  show gather_S32000x4096_S4096x1_S4096x4096_1_0_n_n_0_1_14096.start (ix2 r h) idx 0 + gather_S32000x4096_S4096x1_S4096x4096_1_0_n_n_0_1_14096.batchCoord (ix2 r h) 0 + gather_S32000x4096_S4096x1_S4096x4096_1_0_n_n_0_1_14096.offCoord (ix2 r h) 0 = _
  have hnb : (0 : Fin S32000x4096.rank) ∉ gather_S32000x4096_S4096x1_S4096x4096_1_0_n_n_0_1_14096.operandBatchingDims := by rw [gk_obd]; decide
  have hc : (0 : Fin S32000x4096.rank) ∈ gather_S32000x4096_S4096x1_S4096x4096_1_0_n_n_0_1_14096.collapsedSliceDims := by rw [gk_csd]; decide
  have hs : (0 : Fin S32000x4096.rank) ∈ gather_S32000x4096_S4096x1_S4096x4096_1_0_n_n_0_1_14096.startIndexMap := by rw [gk_sim]; decide
  rw [GatherDims.batchCoord_eq_zero _ _ _ hnb,
    GatherDims.offCoord_eq_zero _ _ _ (fun h => ((GatherDims.mem_sKept _ _).mp h).1 hc), Nat.add_zero]
  unfold GatherDims.start
  rw [dif_pos hs]
  have hsi : gather_S32000x4096_S4096x1_S4096x4096_1_0_n_n_0_1_14096.siIdx (ix2 r h)
      ⟨List.idxOf (0 : Fin S32000x4096.rank) gather_S32000x4096_S4096x1_S4096x4096_1_0_n_n_0_1_14096.startIndexMap, List.idxOf_lt_length_iff.2 hs⟩
        = ix2 r (0 : Fin 1) := by
    funext c; refine Fin.ext ?_
    match c with
    | ⟨0, _⟩ => rfl
    | ⟨1, _⟩ => rfl
  rw [hsi]
  rfl

/-- On the hidden axis the operand index is the result's second coordinate. -/
theorem gather_rows_1 (idx : IVec S4096x1 32) (r h : Fin 4096) :
    (gather_S32000x4096_S4096x1_S4096x4096_1_0_n_n_0_1_14096.operandIdx (ix2 r h) idx 1).val = h.val := by
  show gather_S32000x4096_S4096x1_S4096x4096_1_0_n_n_0_1_14096.start (ix2 r h) idx 1 + gather_S32000x4096_S4096x1_S4096x4096_1_0_n_n_0_1_14096.batchCoord (ix2 r h) 1 + gather_S32000x4096_S4096x1_S4096x4096_1_0_n_n_0_1_14096.offCoord (ix2 r h) 1 = _
  have hnb : (1 : Fin S32000x4096.rank) ∉ gather_S32000x4096_S4096x1_S4096x4096_1_0_n_n_0_1_14096.operandBatchingDims := by rw [gk_obd]; decide
  have hnc : (1 : Fin S32000x4096.rank) ∉ gather_S32000x4096_S4096x1_S4096x4096_1_0_n_n_0_1_14096.collapsedSliceDims := by rw [gk_csd]; decide
  have hns : (1 : Fin S32000x4096.rank) ∉ gather_S32000x4096_S4096x1_S4096x4096_1_0_n_n_0_1_14096.startIndexMap := by rw [gk_sim]; decide
  have hk : (1 : Fin S32000x4096.rank) ∈ gather_S32000x4096_S4096x1_S4096x4096_1_0_n_n_0_1_14096.sKept := (GatherDims.mem_sKept _ _).mpr ⟨hnc, hnb⟩
  rw [GatherDims.batchCoord_eq_zero _ _ _ hnb, Nat.add_zero]
  unfold GatherDims.start GatherDims.offCoord
  rw [dif_neg hns, dif_pos hk, Nat.zero_add]
  rfl

/-- Result element (r, h) is the weight at (the start index (r, 0) read signed and clamped into [0, 31999], h). -/
theorem gather_rows_apply {α : Type} (x : S32000x4096.Idx → α) (idx : IVec S4096x1 32) (r h : Fin 4096) :
    Host.gather gather_S32000x4096_S4096x1_S4096x4096_1_0_n_n_0_1_14096 x idx (ix2 r h)
      = x (ix2 ⟨min (idx (ix2 r (0 : Fin 1))).toInt.toNat 31999, by omega⟩ h) := by
  unfold Host.gather
  refine congrArg x (funext fun a => Fin.ext ?_)
  match a with
  | ⟨0, _⟩ => exact gather_rows_0 idx r h
  | ⟨1, _⟩ => exact gather_rows_1 idx r h

/-! ## The sum over the hidden axis read at a token -/

/-- The [4096, 4096] shape with its hidden axis dropped is [4096]. -/
theorem reduces_hid : S4096x4096.Reduces [1] S4096 := by decide

theorem lift_hid (r h : Fin 4096) : reduces_hid.lift (ix1 r) h = ix2 r h := by
  funext c
  refine Fin.ext ?_
  match c with
  | ⟨0, _⟩ => rfl
  | ⟨1, _⟩ => rfl

/-- The sum over the hidden axis from zero is the sum over the hidden coordinates. -/
theorem hidsum_apply (x : FVec Ideal S4096x4096 .f32) (r : Fin 4096) :
    (Host.reduceAdd (F := Ideal) x (constant (F := Ideal) S_ .f32 0x00000000#32)
        Facts₀.reducesTo_S4096x4096_S4096_d1 Facts₀.h_S_ : FVec Ideal S4096 .f32) (ix1 r)
      = ∑ h : Fin 4096, x (ix2 r h) := by
  show Ideal.hostReduceAdd Facts₀.reducesTo_S4096x4096_S4096_d1 x (Ideal.ofBits .f32 0x00000000#32) (ix1 r) = _
  rw [Ideal.hostReduceAdd_single Facts₀.reducesTo_S4096x4096_S4096_d1 reduces_hid x _ (ix1 r), Ideal.ofBits_zero_f32, zero_add]
  exact Finset.sum_congr rfl fun h _ => congrArg x (lift_hid r h)

/-! ## The label words at a token -/

/-- The comparison with the ignore label, read as a float: 0 at the ignore label, 1 elsewhere. -/
theorem mask_word (a : BitVec 32) :
    (((IntOp.cmpi .ne a 4294967196#32).toNat : ℝ) : EReal) = if a = 4294967196#32 then (0 : EReal) else 1 := by
  by_cases h : a = 4294967196#32
  · rw [if_pos h, h]; simp [IntOp.cmpi]
  · rw [if_neg h]
    have hne : (a != 4294967196#32) = true := by simpa using h
    simp [IntOp.cmpi, hne]

/-- A word below 32000 read signed and clamped into [0, 31999] is its value. -/
theorem clamp_small (n : BitVec 32) (h : n.toNat < 32000) : min n.toInt.toNat 31999 = n.toNat := by
  rw [StableHlo.Predicate.toInt_eq_toNat_of_lt (by omega), Int.toNat_natCast]
  omega

/-- The labels as a vector of 4096. -/
def labelsFlat (Y : IVec S8x512 32) : IVec S4096 32 := shapeCast S4096 Y Facts₀.shapeCasts_S8x512_S4096

/-- Whether each label is not the ignore label. -/
def maskBits (Y : IVec S8x512 32) : IVec S4096 1 :=
  cmpi .ne (labelsFlat Y) (broadcastInDim S4096 ![] Facts₀.bcast_S_S4096 (constantI S_ 32 4294967196#32))

/-- The labels with the ignore label replaced by class 0. -/
def safeFlat (Y : IVec S8x512 32) : IVec S4096 32 :=
  select (maskBits Y) (labelsFlat Y) (broadcastInDim S4096 ![] Facts₀.bcast_S_S4096 (id (constantI S_ 32 0#32)))

/-- A vector of label words with the negative ones counted from the end. -/
def wrapFlat (l : IVec S4096 32) : IVec S4096 32 :=
  select (cmpi .slt l (broadcastInDim S4096 ![] Facts₀.bcast_S_S4096 (constantI S_ 32 0#32)))
    (addi l (broadcastInDim S4096 ![] Facts₀.bcast_S_S4096 (constantI S_ 32 32000#32))) l

/-- The start index of token (b, t) is the class word of its label. -/
theorem startWord_apply (Y : IVec S8x512 32) (b : Fin 8) (t : Fin 512) :
    wrapFlat (safeFlat Y) (ix1 ⟨512 * b.val + t.val, by omega⟩) = Cert.Cpo.clsWord (Y (ix2 b t)) := by
  have hs : safeFlat Y (ix1 ⟨512 * b.val + t.val, by omega⟩)
      = if Y (ix2 b t) = 4294967196#32 then 0#32 else Y (ix2 b t) := by
    show Scalar.select (IntOp.cmpi .ne (shapeCast S4096 Y Facts₀.shapeCasts_S8x512_S4096 (ix1 ⟨512 * b.val + t.val, by omega⟩)) 4294967196#32)
        (shapeCast S4096 Y Facts₀.shapeCasts_S8x512_S4096 (ix1 ⟨512 * b.val + t.val, by omega⟩)) 0#32 = _
    rw [y_cast_apply]
    exact Cert.Cpo.PreDecode.where_eq _
  show Scalar.select (IntOp.cmpi .slt (safeFlat Y (ix1 ⟨512 * b.val + t.val, by omega⟩)) 0#32)
      (IntOp.addi (safeFlat Y (ix1 ⟨512 * b.val + t.val, by omega⟩)) 32000#32)
      (safeFlat Y (ix1 ⟨512 * b.val + t.val, by omega⟩)) = _
  rw [hs, Cert.Cpo.PreDecode.wrap_eq]
  rfl

/-! ## The values the launch finds -/

/-- The target logits: the sum over the hidden axis of the activations times the gathered weight rows. -/
def tgtLogit (X : FVec Ideal S8x512x4096 .f32) (Y : IVec S8x512 32) (W : FVec Ideal S32000x4096 .f32) : FVec Ideal S4096 .f32 :=
  Host.reduceAdd (F := Ideal)
    (mulf (shapeCast S4096x4096 X Facts₀.shapeCasts_S8x512x4096_S4096x4096)
      (Host.gather gather_S32000x4096_S4096x1_S4096x4096_1_0_n_n_0_1_14096 W
        (broadcastInDim S4096x1 ![0] Facts₀.bcast_S4096_S4096x1_0 (wrapFlat (safeFlat Y)))))
    (constant (F := Ideal) S_ .f32 0x00000000#32) Facts₀.reducesTo_S4096x4096_S4096_d1 Facts₀.h_S_

/-- The first window's array: the activations as a [4096, 4096] matrix, their format changed. -/
theorem V_v1_eq (c : Dev nD) :
    (V (F := Ideal) m c main_v1 : FVec Ideal S4096x4096 .bf16)
      = (truncf (F := Ideal) .bf16 (shapeCast S4096x4096 (m ((c : Thread nD τ).loc main_arg0)) Facts₀.shapeCasts_S8x512x4096_S4096x4096 : FVec Ideal S4096x4096 .f32)
          Facts₀.bitsLt_bf16_f32 : FVec Ideal S4096x4096 .bf16) := by
  dsimp only [V, V0]
  simp only [hostOps0, hostOps0_1, hostOps0_2, List.flatten_cons, List.flatten_nil, List.append_nil, List.cons_append, List.nil_append]
  after_results_simp
  rfl

/-- The second window's array: the class weights, their format changed. -/
theorem V_v2_eq (c : Dev nD) :
    (V (F := Ideal) m c main_v2 : FVec Ideal S32000x4096 .bf16)
      = (truncf (F := Ideal) .bf16 (m ((c : Thread nD τ).loc main_arg2) : FVec Ideal S32000x4096 .f32) Facts₀.bitsLt_bf16_f32
          : FVec Ideal S32000x4096 .bf16) := by
  dsimp only [V, V0]
  simp only [hostOps0, hostOps0_1, hostOps0_2, List.flatten_cons, List.flatten_nil, List.append_nil, List.cons_append, List.nil_append]
  after_results_simp

/-- The comparison of the labels with the ignore label. -/
theorem V_v5_eq (c : Dev nD) :
    (V (F := Ideal) m c main_v5 : IVec S4096 1) = maskBits (m ((c : Thread nD τ).loc main_arg1)) := by
  dsimp only [V, V0]
  simp only [hostOps0, hostOps0_1, hostOps0_2, List.flatten_cons, List.flatten_nil, List.append_nil, List.cons_append, List.nil_append]
  after_results_simp
  rfl

set_option maxHeartbeats 4000000 in
/-- The target logits the launch finds. -/
theorem V_v15_eq (c : Dev nD) :
    (V (F := Ideal) m c main_v15 : FVec Ideal S4096 .f32)
      = tgtLogit (m ((c : Thread nD τ).loc main_arg0)) (m ((c : Thread nD τ).loc main_arg1)) (m ((c : Thread nD τ).loc main_arg2)) := by
  dsimp only [V, V0]
  simp only [hostOps0, hostOps0_1, hostOps0_2, List.flatten_cons, List.flatten_nil, List.append_nil, List.cons_append, List.nil_append]
  after_results_simp
  rfl

/-- The first window's array at token (b, t) and hidden coordinate h is the activation there. -/
theorem V_x (c : Dev nD) (b : Fin 8) (t : Fin 512) (h : Fin 4096) :
    V (F := Ideal) m c main_v1 (ix2 ⟨512 * b.val + t.val, by omega⟩ h) = m ((c : Thread nD τ).loc main_arg0) (ix3 b t h) :=
  (congrFun (V_v1_eq m c) (ix2 ⟨512 * b.val + t.val, by omega⟩ h)).trans
    (x_cast_apply (m ((c : Thread nD τ).loc main_arg0)) b t h)

/-- The second window's array at class v and hidden coordinate h is the weight there. -/
theorem V_w (c : Dev nD) (v : Fin 32000) (h : Fin 4096) :
    V (F := Ideal) m c main_v2 (ix2 v h) = m ((c : Thread nD τ).loc main_arg2) (ix2 v h) :=
  congrFun (V_v2_eq m c) (ix2 v h)

/-- The mask at token (b, t): 0 where the label is the ignore label -100, else 1. -/
theorem V_mask (c : Dev nD) (b : Fin 8) (t : Fin 512) :
    uitofp (F := Ideal) .f32 (V (F := Ideal) m c main_v5) (ix1 ⟨512 * b.val + t.val, by omega⟩)
      = (if m ((c : Thread nD τ).loc main_arg1) (ix2 b t) = 4294967196#32 then (0 : EReal) else 1) := by
  have e := V_v5_eq m c
  show (((V (F := Ideal) m c main_v5 (ix1 ⟨512 * b.val + t.val, by omega⟩) : BitVec 1).toNat : ℝ) : EReal) = _
  rw [congrFun e (ix1 ⟨512 * b.val + t.val, by omega⟩)]
  show (((IntOp.cmpi .ne (shapeCast S4096 (m ((c : Thread nD τ).loc main_arg1)) Facts₀.shapeCasts_S8x512_S4096
      (ix1 ⟨512 * b.val + t.val, by omega⟩)) 4294967196#32).toNat : ℝ) : EReal) = _
  rw [y_cast_apply]
  exact mask_word _

/-- The target logit at token (b, t), when the label's class word lies in [0, 31999], is the logit of that class. -/
theorem tgtLogit_apply (X : FVec Ideal S8x512x4096 .f32) (Y : IVec S8x512 32) (W : FVec Ideal S32000x4096 .f32)
    (b : Fin 8) (t : Fin 512) (hlt : (Cert.Cpo.clsWord (Y (ix2 b t))).toNat < 32000) :
    tgtLogit X Y W (ix1 ⟨512 * b.val + t.val, by omega⟩)
      = Cert.Cpo.logit X W b t ⟨(Cert.Cpo.clsWord (Y (ix2 b t))).toNat, hlt⟩ := by
  unfold tgtLogit Cert.Cpo.logit
  rw [hidsum_apply]
  refine Finset.sum_congr rfl fun h _ => ?_
  have hk : (⟨min ((broadcastInDim S4096x1 ![0] Facts₀.bcast_S4096_S4096x1_0 (wrapFlat (safeFlat Y)))
        (ix2 (⟨512 * b.val + t.val, by omega⟩ : Fin 4096) (0 : Fin 1))).toInt.toNat 31999, by omega⟩ : Fin 32000)
      = ⟨(Cert.Cpo.clsWord (Y (ix2 b t))).toNat, hlt⟩ :=
    Fin.ext (by
      show min _ 31999 = _
      rw [bcast_tokcol_apply, startWord_apply]
      exact clamp_small _ hlt)
  rw [mulf_apply, x_cast_apply, gather_rows_apply, hk]

/-- The target logit the launch finds at token (b, t), when the label's class word lies in [0, 31999]: the logit of
    that class. -/
theorem V_logit (c : Dev nD) (b : Fin 8) (t : Fin 512)
    (hcls : (Cert.Cpo.clsWord (m ((c : Thread nD τ).loc main_arg1) (ix2 b t))).toNat < 32000
      ∧ (0#32).sle (Cert.Cpo.clsWord (m ((c : Thread nD τ).loc main_arg1) (ix2 b t))) = true
      ∧ (Cert.Cpo.clsWord (m ((c : Thread nD τ).loc main_arg1) (ix2 b t))).sle 31999#32 = true) :
    V (F := Ideal) m c main_v15 (ix1 ⟨512 * b.val + t.val, by omega⟩)
      = Cert.Cpo.logit (m ((c : Thread nD τ).loc main_arg0)) (m ((c : Thread nD τ).loc main_arg2)) b t
          ⟨(Cert.Cpo.clsWord (m ((c : Thread nD τ).loc main_arg1) (ix2 b t))).toNat, hcls.1⟩ :=
  (congrFun (V_v15_eq m c) (ix1 ⟨512 * b.val + t.val, by omega⟩)).trans
    (tgtLogit_apply (m ((c : Thread nD τ).loc main_arg0)) (m ((c : Thread nD τ).loc main_arg1))
      (m ((c : Thread nD τ).loc main_arg2)) b t hcls.1)

end Cert.KernelIdeal.Cpo

end
-- ==== Proof.LibOnlineSoftmax.lean ====
/-
  The online softmax over consecutive blocks of columns equals the one-shot softmax-weighted sum, over the
  extended reals with exact operations.

  For scores S and values V that are real numbers, the state (m, l, a) starts at (⊥, 0, 0); absorbing a block
  b of columns replaces it by
    m' = max m (max of the block's scores),
    l' = exp (m - m') * l + Σ_k exp (S b k - m'),
    a' = exp (m - m') * a + Σ_k exp (S b k - m') * V b k.
  The invariant: after the blocks in a set B, m is the maximum of their scores (⊥ for no block), l is the sum of
  exp (S - m) over them and a the sum of exp (S - m) * V. The first step has m = ⊥: exp (⊥ - m') = 0 and the old
  l and a are 0, and 0 * 0 = 0. Once a block is in, m is real and l is a positive real, and a / l is the sum of
  (exp (S - m) / l) * V, the quotient distributed over the sum.

  All functions are valued in the extended reals and assumed real-valued pointwise
  (hypotheses of the form ∀ j k, ∃ r : ℝ, S j k = r); a real-valued family is used through its coercion.
-/
import Idealize.ShloMosaic.PureOps.Ideal
import Mathlib.Data.EReal.Basic
import Mathlib.Data.EReal.Operations
import Mathlib.Data.Finset.Lattice.Fold
import Mathlib.Algebra.BigOperators.Group.Finset.Basic
import Mathlib.Algebra.BigOperators.Ring.Finset
import Mathlib.Analysis.SpecialFunctions.Exp

noncomputable section

namespace Cert.OnlineSoftmax

open Idealize.ShloMosaic
open scoped BigOperators

variable {ι β κ : Type*}

/-- The coercion of the reals into the extended reals commutes with finite sums. -/
theorem coe_finset_sum (T : Finset ι) (f : ι → ℝ) :
    ((∑ i ∈ T, f i : ℝ) : EReal) = ∑ i ∈ T, (f i : EReal) := by
  classical
  induction T using Finset.induction_on with
  | empty => simp
  | insert a s ha ih => rw [Finset.sum_insert ha, Finset.sum_insert ha, EReal.coe_add, ih]

/-- The fold of max from the bottom element is the finite supremum. -/
theorem fold_max_bot_eq_sup (T : Finset ι) (f : ι → EReal) : T.fold max ⊥ f = T.sup f := rfl

/-- The exponential of a difference of two real numbers, taken in the extended reals, is the real one. -/
theorem exp_coe_sub_coe (r m : ℝ) :
    Ideal.exp ((r : EReal) - (m : EReal)) = ((Real.exp (r - m) : ℝ) : EReal) := by
  rw [← EReal.coe_sub, Ideal.exp_coe]

/-- The maximum of finitely many real numbers, at least one, is a real number. -/
theorem exists_real_fold_max {T : Finset ι} (hT : T.Nonempty) (s : ι → ℝ) :
    ∃ r : ℝ, T.fold max ⊥ (fun i => (s i : EReal)) = (r : EReal) := by
  induction hT using Finset.Nonempty.cons_induction with
  | singleton a => exact ⟨s a, by rw [Finset.fold_singleton, max_bot_right]⟩
  | cons a t ha ht ih =>
    obtain ⟨r, hr⟩ := ih
    exact ⟨max (s a) r, by rw [Finset.fold_cons, hr, EReal.coe_strictMono.monotone.map_max]⟩

/-- Moving the reference point of a sum of exponentials from one real number to another multiplies it by the
    exponential of the difference. -/
theorem rescale_real (T : Finset ι) (s c : ι → ℝ) (m m' : ℝ) :
    Ideal.exp ((m : EReal) - (m' : EReal)) * ∑ i ∈ T, Ideal.exp ((s i : EReal) - (m : EReal)) * (c i : EReal)
      = ∑ i ∈ T, Ideal.exp ((s i : EReal) - (m' : EReal)) * (c i : EReal) := by
  simp only [exp_coe_sub_coe, ← EReal.coe_mul, ← coe_finset_sum]
  congr 1
  rw [Finset.mul_sum]
  refine Finset.sum_congr rfl fun i _ => ?_
  rw [← mul_assoc, ← Real.exp_add]
  congr 2; ring

/-- The same with reference points in the extended reals that are real as soon as there is a term; with no term
    both sides are zero, whatever the factor. -/
theorem rescale {T : Finset ι} (s c : ι → ℝ) {m m' : EReal}
    (hm : T.Nonempty → ∃ r : ℝ, m = (r : EReal)) (hm' : T.Nonempty → ∃ r : ℝ, m' = (r : EReal)) :
    Ideal.exp (m - m') * ∑ i ∈ T, Ideal.exp ((s i : EReal) - m) * (c i : EReal)
      = ∑ i ∈ T, Ideal.exp ((s i : EReal) - m') * (c i : EReal) := by
  rcases T.eq_empty_or_nonempty with rfl | hT
  · simp
  · obtain ⟨r, rfl⟩ := hm hT
    obtain ⟨r', rfl⟩ := hm' hT
    exact rescale_real T s c r r'

theorem rescale_one {T : Finset ι} (s : ι → ℝ) {m m' : EReal}
    (hm : T.Nonempty → ∃ r : ℝ, m = (r : EReal)) (hm' : T.Nonempty → ∃ r : ℝ, m' = (r : EReal)) :
    Ideal.exp (m - m') * ∑ i ∈ T, Ideal.exp ((s i : EReal) - m)
      = ∑ i ∈ T, Ideal.exp ((s i : EReal) - m') := by
  simpa using rescale s (fun _ => (1 : ℝ)) hm hm'

/-! ### One flat family of scores -/

/-- The state (m, l, a) of the online softmax after exactly the scores indexed by T have been absorbed:
    m is their maximum (the bottom element when there are none), l the sum of exp (S i - m) and a the
    sum of exp (S i - m) * V i. -/
structure FlatInv (S V : ι → EReal) (T : Finset ι) (m l a : EReal) : Prop where
  m_eq : m = T.fold max ⊥ S
  l_eq : l = ∑ i ∈ T, Ideal.exp (S i - m)
  a_eq : a = ∑ i ∈ T, Ideal.exp (S i - m) * V i

theorem FlatInv.init (S V : ι → EReal) : FlatInv S V ∅ ⊥ 0 0 :=
  ⟨by simp, by simp, by simp⟩

theorem FlatInv.step [DecidableEq ι] {S V : ι → EReal} {T U : Finset ι} {m l a m' l' a' : EReal}
    (h : FlatInv S V T m l a) (hTU : Disjoint T U)
    (hS : ∀ i, ∃ r : ℝ, S i = (r : EReal)) (hV : ∀ i, ∃ r : ℝ, V i = (r : EReal))
    (hm' : m' = max m (U.fold max ⊥ S))
    (hl' : l' = Ideal.exp (m - m') * l + ∑ i ∈ U, Ideal.exp (S i - m'))
    (ha' : a' = Ideal.exp (m - m') * a + ∑ i ∈ U, Ideal.exp (S i - m') * V i) :
    FlatInv S V (T ∪ U) m' l' a' := by
  choose s hs using hS
  choose v hv using hV
  obtain rfl : S = fun i => (s i : EReal) := funext hs
  obtain rfl : V = fun i => (v i : EReal) := funext hv
  have hmU : m' = (T ∪ U).fold max ⊥ (fun i => (s i : EReal)) := by
    rw [hm', h.m_eq, fold_max_bot_eq_sup, fold_max_bot_eq_sup, fold_max_bot_eq_sup, Finset.sup_union]
  have hr : T.Nonempty → ∃ r : ℝ, m = (r : EReal) := fun hT => by
    rw [h.m_eq]; exact exists_real_fold_max hT s
  have hr' : T.Nonempty → ∃ r : ℝ, m' = (r : EReal) := fun hT => by
    rw [hmU]; exact exists_real_fold_max (hT.mono Finset.subset_union_left) s
  refine ⟨hmU, ?_, ?_⟩
  · rw [hl', h.l_eq, rescale_one s hr hr', Finset.sum_union hTU]
  · rw [ha', h.a_eq, rescale s v hr hr', Finset.sum_union hTU]

/-- After at least one score the maximum is a real number and the normaliser a positive real number. -/
theorem FlatInv.exists_real {S V : ι → EReal} {T : Finset ι} {m l a : EReal} (h : FlatInv S V T m l a)
    (hT : T.Nonempty) (hS : ∀ i, ∃ r : ℝ, S i = (r : EReal)) :
    (∃ r : ℝ, m = (r : EReal)) ∧ ∃ r : ℝ, 0 < r ∧ l = (r : EReal) := by
  choose s hs using hS
  obtain rfl : S = fun i => (s i : EReal) := funext hs
  obtain ⟨r, hr⟩ : ∃ r : ℝ, m = (r : EReal) := by rw [h.m_eq]; exact exists_real_fold_max hT s
  refine ⟨⟨r, hr⟩, ∑ i ∈ T, Real.exp (s i - r), Finset.sum_pos (fun i _ => Real.exp_pos _) hT, ?_⟩
  rw [h.l_eq, hr, coe_finset_sum]
  exact Finset.sum_congr rfl fun i _ => exp_coe_sub_coe _ _

/-- The closing step: the accumulated numerator over the accumulated normaliser is the sum of the normalised
    weights times the values. -/
theorem FlatInv.div_eq {S V : ι → EReal} {T : Finset ι} {m l a : EReal} (h : FlatInv S V T m l a)
    (hT : T.Nonempty) (hS : ∀ i, ∃ r : ℝ, S i = (r : EReal)) (hV : ∀ i, ∃ r : ℝ, V i = (r : EReal)) :
    Ideal.div a l = ∑ i ∈ T, Ideal.div (Ideal.exp (S i - m)) l * V i := by
  obtain ⟨⟨r, hr⟩, L, hL, hlL⟩ := h.exists_real hT hS
  choose s hs using hS
  choose v hv using hV
  obtain rfl : S = fun i => (s i : EReal) := funext hs
  obtain rfl : V = fun i => (v i : EReal) := funext hv
  rw [h.a_eq, hlL, hr]
  simp only [Ideal.div_coe hL.ne', exp_coe_sub_coe, ← EReal.coe_mul, ← coe_finset_sum]
  congr 1
  rw [Finset.sum_mul]
  exact Finset.sum_congr rfl fun i _ => by ring

/-! ### Scores in blocks -/

/-- The state after exactly the blocks in B have been absorbed, each block a whole family κ of columns. -/
structure Inv [Fintype κ] (S V : β → κ → EReal) (B : Finset β) (m l a : EReal) : Prop where
  m_eq : m = B.fold max ⊥ fun j => Finset.univ.fold max ⊥ (S j)
  l_eq : l = ∑ j ∈ B, ∑ k, Ideal.exp (S j k - m)
  a_eq : a = ∑ j ∈ B, ∑ k, Ideal.exp (S j k - m) * V j k

/-- The block form is the flat form over the pairs (block, column). -/
theorem inv_iff_flatInv [Fintype κ] (S V : β → κ → EReal) (B : Finset β) (m l a : EReal) :
    Inv S V B m l a
      ↔ FlatInv (fun x : β × κ => S x.1 x.2) (fun x : β × κ => V x.1 x.2) (B ×ˢ Finset.univ) m l a := by
  have hm : (B ×ˢ (Finset.univ : Finset κ)).fold max ⊥ (fun x : β × κ => S x.1 x.2)
      = B.fold max ⊥ fun j => Finset.univ.fold max ⊥ (S j) := by
    simp only [fold_max_bot_eq_sup]; exact Finset.sup_product_left _ _ _
  have hl : ∑ x ∈ B ×ˢ (Finset.univ : Finset κ), Ideal.exp (S x.1 x.2 - m)
      = ∑ j ∈ B, ∑ k, Ideal.exp (S j k - m) :=
    Finset.sum_product' _ _ (fun j k => Ideal.exp (S j k - m))
  have ha : ∑ x ∈ B ×ˢ (Finset.univ : Finset κ), Ideal.exp (S x.1 x.2 - m) * V x.1 x.2
      = ∑ j ∈ B, ∑ k, Ideal.exp (S j k - m) * V j k :=
    Finset.sum_product' _ _ (fun j k => Ideal.exp (S j k - m) * V j k)
  constructor
  · rintro ⟨h1, h2, h3⟩; exact ⟨h1.trans hm.symm, h2.trans hl.symm, h3.trans ha.symm⟩
  · rintro ⟨h1, h2, h3⟩; exact ⟨h1.trans hm, h2.trans hl, h3.trans ha⟩

theorem Inv.init [Fintype κ] (S V : β → κ → EReal) : Inv S V ∅ ⊥ 0 0 :=
  ⟨by simp, by simp, by simp⟩

/-- One block step: from the state after the blocks in B to the state after insert b B. -/
theorem Inv.step [DecidableEq β] [Fintype κ] {S V : β → κ → EReal} {B : Finset β} {b : β} {m l a m' l' a' : EReal}
    (h : Inv S V B m l a) (hb : b ∉ B)
    (hS : ∀ j k, ∃ r : ℝ, S j k = (r : EReal)) (hV : ∀ j k, ∃ r : ℝ, V j k = (r : EReal))
    (hm' : m' = max m (Finset.univ.fold max ⊥ (S b)))
    (hl' : l' = Ideal.exp (m - m') * l + ∑ k, Ideal.exp (S b k - m'))
    (ha' : a' = Ideal.exp (m - m') * a + ∑ k, Ideal.exp (S b k - m') * V b k) :
    Inv S V (insert b B) m' l' a' := by
  classical
  rw [inv_iff_flatInv] at h ⊢
  have hU : insert b B ×ˢ (Finset.univ : Finset κ) = B ×ˢ Finset.univ ∪ {b} ×ˢ Finset.univ := by
    rw [Finset.insert_eq, Finset.union_product, Finset.union_comm]
  rw [hU]
  refine h.step ?_ (fun x => hS x.1 x.2) (fun x => hV x.1 x.2) ?_ ?_ ?_
  · exact Finset.disjoint_product.2 (Or.inl (Finset.disjoint_singleton_right.2 hb))
  · rw [hm']; congr 1
    simp only [fold_max_bot_eq_sup]
    rw [Finset.sup_product_left, Finset.sup_singleton]
  · rw [hl', Finset.sum_product' (f := fun j k => Ideal.exp (S j k - m')), Finset.sum_singleton]
  · rw [ha', Finset.sum_product' (f := fun j k => Ideal.exp (S j k - m') * V j k), Finset.sum_singleton]

theorem Inv.exists_real [Fintype κ] [Nonempty κ] {S V : β → κ → EReal} {B : Finset β} {m l a : EReal}
    (h : Inv S V B m l a) (hB : B.Nonempty) (hS : ∀ j k, ∃ r : ℝ, S j k = (r : EReal)) :
    (∃ r : ℝ, m = (r : EReal)) ∧ ∃ r : ℝ, 0 < r ∧ l = (r : EReal) :=
  ((inv_iff_flatInv S V B m l a).1 h).exists_real (hB.product Finset.univ_nonempty) fun x => hS x.1 x.2

theorem Inv.div_eq [Fintype κ] [Nonempty κ] {S V : β → κ → EReal} {B : Finset β} {m l a : EReal}
    (h : Inv S V B m l a) (hB : B.Nonempty)
    (hS : ∀ j k, ∃ r : ℝ, S j k = (r : EReal)) (hV : ∀ j k, ∃ r : ℝ, V j k = (r : EReal)) :
    Ideal.div a l = ∑ j ∈ B, ∑ k, Ideal.div (Ideal.exp (S j k - m)) l * V j k := by
  rw [((inv_iff_flatInv S V B m l a).1 h).div_eq (hB.product Finset.univ_nonempty) (fun x => hS x.1 x.2)
    fun x => hV x.1 x.2]
  exact Finset.sum_product' _ _ (fun j k => Ideal.div (Ideal.exp (S j k - m)) l * V j k)

/-! ### The recursion as a function, and four blocks -/

/-- One block step of the online softmax on the state (m, l, a). -/
def blockStep [Fintype κ] (s v : κ → EReal) (st : EReal × EReal × EReal) : EReal × EReal × EReal :=
  (max st.1 (Finset.univ.fold max ⊥ s),
   Ideal.exp (st.1 - max st.1 (Finset.univ.fold max ⊥ s)) * st.2.1
     + ∑ k, Ideal.exp (s k - max st.1 (Finset.univ.fold max ⊥ s)),
   Ideal.exp (st.1 - max st.1 (Finset.univ.fold max ⊥ s)) * st.2.2
     + ∑ k, Ideal.exp (s k - max st.1 (Finset.univ.fold max ⊥ s)) * v k)

/-- A block step preserves the invariant. -/
theorem Inv.blockStep [DecidableEq β] [Fintype κ] {S V : β → κ → EReal} {B : Finset β} {b : β}
    {st : EReal × EReal × EReal} (h : Inv S V B st.1 st.2.1 st.2.2) (hb : b ∉ B)
    (hS : ∀ j k, ∃ r : ℝ, S j k = (r : EReal)) (hV : ∀ j k, ∃ r : ℝ, V j k = (r : EReal)) :
    Inv S V (insert b B) (blockStep (S b) (V b) st).1 (blockStep (S b) (V b) st).2.1
      (blockStep (S b) (V b) st).2.2 :=
  h.step hb hS hV rfl rfl rfl

/-- Four blocks: the online recursion from (⊥, 0, 0) returns the one-shot softmax-weighted sum. -/
theorem online_four [Fintype κ] [Nonempty κ] (S V : Fin 4 → κ → EReal)
    (hS : ∀ j k, ∃ r : ℝ, S j k = (r : EReal)) (hV : ∀ j k, ∃ r : ℝ, V j k = (r : EReal))
    (st : EReal × EReal × EReal)
    (hst : st = blockStep (S 3) (V 3) (blockStep (S 2) (V 2) (blockStep (S 1) (V 1) (blockStep (S 0) (V 0) (⊥, 0, 0)))))
    (M Z : EReal)
    (hM : M = Finset.univ.fold max ⊥ fun j : Fin 4 => Finset.univ.fold max ⊥ (S j))
    (hZ : Z = ∑ j : Fin 4, ∑ k, Ideal.exp (S j k - M)) :
    Ideal.div st.2.2 st.2.1 = ∑ j : Fin 4, ∑ k, Ideal.div (Ideal.exp (S j k - M)) Z * V j k := by
  have h0 : Inv S V ∅ ((⊥ : EReal), (0 : EReal), (0 : EReal)).1 ((⊥ : EReal), (0 : EReal), (0 : EReal)).2.1
      ((⊥ : EReal), (0 : EReal), (0 : EReal)).2.2 := Inv.init S V
  have h1 := h0.blockStep (b := 0) (by decide) hS hV
  have h2 := h1.blockStep (b := 1) (by decide) hS hV
  have h3 := h2.blockStep (b := 2) (by decide) hS hV
  have h4 := h3.blockStep (b := 3) (by decide) hS hV
  rw [← hst] at h4
  replace h4 : Inv S V Finset.univ st.1 st.2.1 st.2.2 := by
    convert h4 using 1
    decide
  have hMm : M = st.1 := hM.trans h4.m_eq.symm
  have hZl : Z = st.2.1 := by rw [hZ, hMm]; exact h4.l_eq.symm
  rw [hMm, hZl]
  exact h4.div_eq Finset.univ_nonempty hS hV

/-! ### 4096 columns as four blocks of 1024 -/

/-- Column kk of block j is the flat column 1024 * j + kk. -/
def colEquiv : Fin 4 × Fin 1024 ≃ Fin 4096 where
  toFun x := ⟨1024 * x.1.val + x.2.val, by omega⟩
  invFun c := (⟨c.val / 1024, by omega⟩, ⟨c.val % 1024, by omega⟩)
  left_inv x := by
    apply Prod.ext
    · apply Fin.ext; show (1024 * x.1.val + x.2.val) / 1024 = x.1.val; omega
    · apply Fin.ext; show (1024 * x.1.val + x.2.val) % 1024 = x.2.val; omega
  right_inv c := by
    apply Fin.ext; show 1024 * (c.val / 1024) + c.val % 1024 = c.val; omega

/-- A sum over the 4096 columns, block by block. -/
theorem sum_fin4096 (g : Fin 4096 → EReal) :
    (∑ k : Fin 4096, g k) = ∑ j : Fin 4, ∑ kk : Fin 1024, g ⟨1024 * j.val + kk.val, by omega⟩ := by
  rw [← Fintype.sum_equiv colEquiv (fun x => g (colEquiv x)) g (fun _ => rfl)]
  exact Fintype.sum_prod_type' (fun (j : Fin 4) (kk : Fin 1024) => g ⟨1024 * j.val + kk.val, by omega⟩)

/-- A maximum over the 4096 columns, block by block. -/
theorem fold_max_fin4096 (g : Fin 4096 → EReal) :
    (Finset.univ : Finset (Fin 4096)).fold max ⊥ g
      = (Finset.univ : Finset (Fin 4)).fold max ⊥ fun j =>
          (Finset.univ : Finset (Fin 1024)).fold max ⊥ fun kk => g ⟨1024 * j.val + kk.val, by omega⟩ := by
  simp only [fold_max_bot_eq_sup]
  rw [← Finset.map_univ_equiv colEquiv, Finset.sup_map, ← Finset.univ_product_univ, Finset.sup_product_left]
  rfl

/-- The flat form: the four block steps over the 4096 columns, taken as four blocks of 1024, return the
    softmax-weighted sum over all 4096 columns. -/
theorem online_four_flat (s v : Fin 4096 → EReal)
    (hs : ∀ k, ∃ r : ℝ, s k = (r : EReal)) (hv : ∀ k, ∃ r : ℝ, v k = (r : EReal))
    (st : EReal × EReal × EReal)
    (hst : st =
      blockStep (fun kk : Fin 1024 => s ⟨1024 * (3 : Fin 4).val + kk.val, by omega⟩)
          (fun kk : Fin 1024 => v ⟨1024 * (3 : Fin 4).val + kk.val, by omega⟩)
        (blockStep (fun kk : Fin 1024 => s ⟨1024 * (2 : Fin 4).val + kk.val, by omega⟩)
            (fun kk : Fin 1024 => v ⟨1024 * (2 : Fin 4).val + kk.val, by omega⟩)
          (blockStep (fun kk : Fin 1024 => s ⟨1024 * (1 : Fin 4).val + kk.val, by omega⟩)
              (fun kk : Fin 1024 => v ⟨1024 * (1 : Fin 4).val + kk.val, by omega⟩)
            (blockStep (fun kk : Fin 1024 => s ⟨1024 * (0 : Fin 4).val + kk.val, by omega⟩)
                (fun kk : Fin 1024 => v ⟨1024 * (0 : Fin 4).val + kk.val, by omega⟩) (⊥, 0, 0))))) :
    Ideal.div st.2.2 st.2.1
      = ∑ k : Fin 4096,
          Ideal.div (Ideal.exp (s k - (Finset.univ : Finset (Fin 4096)).fold max ⊥ s))
            (∑ k' : Fin 4096, Ideal.exp (s k' - (Finset.univ : Finset (Fin 4096)).fold max ⊥ s)) * v k := by
  rw [sum_fin4096 fun k => Ideal.div (Ideal.exp (s k - (Finset.univ : Finset (Fin 4096)).fold max ⊥ s))
    (∑ k' : Fin 4096, Ideal.exp (s k' - (Finset.univ : Finset (Fin 4096)).fold max ⊥ s)) * v k]
  exact online_four (fun (j : Fin 4) (kk : Fin 1024) => s ⟨1024 * j.val + kk.val, by omega⟩)
    (fun (j : Fin 4) (kk : Fin 1024) => v ⟨1024 * j.val + kk.val, by omega⟩) (fun _ _ => hs _) (fun _ _ => hv _) st hst _ _
    (fold_max_fin4096 s) (sum_fin4096 fun k' => Ideal.exp (s k' - (Finset.univ : Finset (Fin 4096)).fold max ⊥ s))

/-! ### Closing from the invariant over all blocks -/

/-- With every block absorbed, the quotient is the one-shot softmax-weighted sum, the maximum M and the
    normaliser Z being given by their one-shot formulas. -/
theorem Inv.div_eq_univ [Fintype β] [Nonempty β] [Fintype κ] [Nonempty κ] {S V : β → κ → EReal} {m l a : EReal}
    (h : Inv S V Finset.univ m l a)
    (hS : ∀ j k, ∃ r : ℝ, S j k = (r : EReal)) (hV : ∀ j k, ∃ r : ℝ, V j k = (r : EReal))
    (M Z : EReal)
    (hM : M = Finset.univ.fold max ⊥ fun j : β => Finset.univ.fold max ⊥ (S j))
    (hZ : Z = ∑ j : β, ∑ k, Ideal.exp (S j k - M)) :
    Ideal.div a l = ∑ j : β, ∑ k, Ideal.div (Ideal.exp (S j k - M)) Z * V j k := by
  have hMm : M = m := hM.trans h.m_eq.symm
  have hZl : Z = l := by rw [hZ, hMm]; exact h.l_eq.symm
  rw [hMm, hZl]
  exact h.div_eq Finset.univ_nonempty hS hV

/-- The same over 4096 columns taken as four blocks of 1024, in the flat form. -/
theorem Inv.div_eq_flat4096 (s v : Fin 4096 → EReal)
    (hs : ∀ k, ∃ r : ℝ, s k = (r : EReal)) (hv : ∀ k, ∃ r : ℝ, v k = (r : EReal)) {m l a : EReal}
    (h : Inv (fun (j : Fin 4) (kk : Fin 1024) => s ⟨1024 * j.val + kk.val, by omega⟩)
      (fun (j : Fin 4) (kk : Fin 1024) => v ⟨1024 * j.val + kk.val, by omega⟩) Finset.univ m l a) :
    Ideal.div a l
      = ∑ k : Fin 4096,
          Ideal.div (Ideal.exp (s k - (Finset.univ : Finset (Fin 4096)).fold max ⊥ s))
            (∑ k' : Fin 4096, Ideal.exp (s k' - (Finset.univ : Finset (Fin 4096)).fold max ⊥ s)) * v k := by
  rw [sum_fin4096 fun k => Ideal.div (Ideal.exp (s k - (Finset.univ : Finset (Fin 4096)).fold max ⊥ s))
    (∑ k' : Fin 4096, Ideal.exp (s k' - (Finset.univ : Finset (Fin 4096)).fold max ⊥ s)) * v k]
  exact h.div_eq_univ (fun _ _ => hs _) (fun _ _ => hv _) _ _
    (fold_max_fin4096 s) (sum_fin4096 fun k' => Ideal.exp (s k' - (Finset.univ : Finset (Fin 4096)).fold max ⊥ s))

/-- The four blocks of Fin 4, one inserted after the other, are all of them. -/
theorem insert_fin4 : insert (3 : Fin 4) (insert 2 (insert 1 (insert 0 ∅))) = (Finset.univ : Finset (Fin 4)) := by
  decide

end Cert.OnlineSoftmax
-- ==== Proof.LseMath.lean ====
/-
  The log-probability of a class in its two arrangements, and the blockwise recursion's final state.

  With real activations and weights every logit is a real number, so the row's maximum M is real and the sum
  Z of exp (logit - M) is a positive real; the logarithm of Z is then the real logarithm, and
  (a - M) - log Z = a - (M + log Z) is an identity of real numbers.

  The 32000 classes are fifty consecutive blocks of 640: class c is the (c mod 640)-th of block c / 640. A
  maximum or a sum over all classes is the maximum or the sum over the blocks of the block's maximum or sum.
  Hence the recursion's state after all fifty blocks holds the row's maximum and its sum of exponentials.
-/
import proofs.«426376_j48859547959894_3_alg».proof.Proof.Spec
import proofs.«426376_j48859547959894_3_alg».proof.Proof.LibOnlineSoftmax
import Mathlib.Data.EReal.Basic
import Mathlib.Data.EReal.Operations
import Mathlib.Data.Finset.Lattice.Fold
import Mathlib.Data.Fintype.BigOperators
import Mathlib.Algebra.BigOperators.Group.Finset.Basic
import Mathlib.Analysis.SpecialFunctions.Exp

noncomputable section

namespace Cert.Cpo

open Idealize.ShloMosaic Idealize.ShloMosaic.ValueIdx Cert.OnlineSoftmax
open scoped BigOperators

/-- The exponential of -∞ is 0. -/
theorem exp_bot : Ideal.exp ⊥ = 0 := Ideal.exp_bot

/-- -∞ is neutral for the maximum. -/
theorem max_bot_left' (x : EReal) : max ⊥ x = x := max_bot_left x

/-- finite inputs give real logits -/
theorem logit_real {X : SX.Idx → EReal} {W : SW.Idx → EReal}
    (hX : ∀ i, ∃ r : ℝ, X i = (r : EReal)) (hW : ∀ i, ∃ r : ℝ, W i = (r : EReal))
    (b : Fin 8) (t : Fin 512) (v : Fin 32000) : ∃ r : ℝ, logit X W b t v = (r : EReal) := by
  choose x hx using hX
  choose w hw using hW
  refine ⟨∑ h : Fin 4096, x (ix3 b t h) * w (ix2 v h), ?_⟩
  rw [logit, coe_finset_sum]
  exact Finset.sum_congr rfl fun h _ => by rw [hx, hw, EReal.coe_mul]

/-- With real logits the row's maximum is real and the sum of exponentials a positive real, given by real sums. -/
theorem row_real {X : SX.Idx → EReal} {W : SW.Idx → EReal}
    (hX : ∀ i, ∃ r : ℝ, X i = (r : EReal)) (hW : ∀ i, ∃ r : ℝ, W i = (r : EReal))
    (b : Fin 8) (t : Fin 512) :
    ∃ (s : Fin 32000 → ℝ) (M Z : ℝ), 0 < Z ∧ (∀ v, logit X W b t v = (s v : EReal))
      ∧ rowMax X W b t = (M : EReal) ∧ rowSumExp X W b t = (Z : EReal) := by
  choose s hs using logit_real hX hW b t
  have hne : (Finset.univ : Finset (Fin 32000)).Nonempty := ⟨⟨0, by omega⟩, Finset.mem_univ _⟩
  obtain ⟨M, hM⟩ : ∃ M : ℝ, rowMax X W b t = (M : EReal) := by
    have hfun : (fun v => logit X W b t v) = fun v => (s v : EReal) := funext hs
    rw [rowMax, hfun]
    exact exists_real_fold_max hne s
  refine ⟨s, M, ∑ v : Fin 32000, Real.exp (s v - M), Finset.sum_pos (fun i _ => Real.exp_pos _) hne, hs, hM, ?_⟩
  rw [rowSumExp, hM, coe_finset_sum]
  exact Finset.sum_congr rfl fun v _ => by rw [hs, exp_coe_sub_coe]

/-- the two arrangements of the log-probability agree when the logits are real -/
theorem lpKer_eq_lpRef {X : SX.Idx → EReal} {W : SW.Idx → EReal}
    (hX : ∀ i, ∃ r : ℝ, X i = (r : EReal)) (hW : ∀ i, ∃ r : ℝ, W i = (r : EReal))
    (b : Fin 8) (t : Fin 512) (v : Fin 32000) : lpKer X W b t v = lpRef X W b t v := by
  obtain ⟨s, M, Z, hZ, hs, hM, hZe⟩ := row_real hX hW b t
  rw [lpKer, lpRef, hs, hM, hZe, Ideal.log_coe, if_neg (not_le.2 hZ)]
  rw [← EReal.coe_add, ← EReal.coe_sub, ← EReal.coe_sub, ← EReal.coe_sub]
  refine congrArg Real.toEReal ?_
  ring

/-- Class 640 j + k is the k-th class of block j: the pairs (block, place) are the classes. -/
def clsEquiv : Fin 50 × Fin 640 ≃ Fin 32000 where
  toFun x := blkCls x.1 x.2
  invFun c := (⟨c.val / 640, by omega⟩, ⟨c.val % 640, by omega⟩)
  left_inv x := by
    apply Prod.ext
    · apply Fin.ext; show (640 * x.1.val + x.2.val) / 640 = x.1.val; omega
    · apply Fin.ext; show (640 * x.1.val + x.2.val) % 640 = x.2.val; omega
  right_inv c := by
    apply Fin.ext; show 640 * (c.val / 640) + c.val % 640 = c.val; omega

/-- A sum over the classes, block by block. -/
theorem sum_cls (g : Fin 32000 → EReal) :
    (∑ v : Fin 32000, g v) = ∑ j : Fin 50, ∑ k : Fin 640, g (blkCls j k) := by
  rw [← Fintype.sum_equiv clsEquiv (fun x => g (clsEquiv x)) g (fun _ => rfl)]
  exact Fintype.sum_prod_type' (fun (j : Fin 50) (k : Fin 640) => g (blkCls j k))

/-- A maximum over the classes, block by block. -/
theorem fold_max_cls (g : Fin 32000 → EReal) :
    (Finset.univ : Finset (Fin 32000)).fold max ⊥ g
      = (Finset.univ : Finset (Fin 50)).fold max ⊥ fun j =>
          (Finset.univ : Finset (Fin 640)).fold max ⊥ fun k => g (blkCls j k) := by
  simp only [fold_max_bot_eq_sup]
  rw [← Finset.map_univ_equiv clsEquiv, Finset.sup_map, ← Finset.univ_product_univ, Finset.sup_product_left]
  rfl

/-- the state of the blockwise recursion after all fifty blocks is the row's maximum and its sum of exponentials -/
theorem online_total {X : SX.Idx → EReal} {W : SW.Idx → EReal} (b : Fin 8) (t : Fin 512) {m l a : EReal}
    (h : Cert.OnlineSoftmax.Inv (blkScore X W b t) (fun _ _ => (0 : EReal)) Finset.univ m l a) :
    m = rowMax X W b t ∧ l = rowSumExp X W b t := by
  have hm : m = rowMax X W b t :=
    h.m_eq.trans (fold_max_cls fun v => logit X W b t v).symm
  refine ⟨hm, h.l_eq.trans ?_⟩
  rw [hm]
  exact (sum_cls fun v => Ideal.exp (logit X W b t v - rowMax X W b t)).symm

/-- hence the kernel's normaliser m + log l is the row's maximum plus the logarithm of its sum of exponentials -/
theorem online_total_lse {X : SX.Idx → EReal} {W : SW.Idx → EReal} (b : Fin 8) (t : Fin 512) {m l a : EReal}
    (h : Cert.OnlineSoftmax.Inv (blkScore X W b t) (fun _ _ => (0 : EReal)) Finset.univ m l a) :
    m + Ideal.log l = rowMax X W b t + Ideal.log (rowSumExp X W b t) := by
  obtain ⟨hm, hl⟩ := online_total b t h
  rw [hm, hl]

end Cert.Cpo

end
-- ==== Proof.KPayload.lean ====
import proofs.«426376_j48859547959894_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

/-! The kernel body's arithmetic read at an index, at the ideal values: the two splats (-∞ and 0), the product of a
    row block of x with a block of w (contracting axis 1 of both), the running row maximum, the running row sum of
    exponentials rescaled to the new maximum, and the final m + log l. -/

noncomputable section

namespace Cert.KernelIdeal.Cpo

open Idealize.ShloMosaic Idealize.SL.Sem Idealize.ShloMosaic.ValueIdx
open Cert.KernelIdeal Cert.KernelIdeal.Gen
open scoped BigOperators

/-! ## Constants -/

/-- The f32 pattern of -∞ denotes ⊥. -/
theorem ofBits_neg_inf_f32 : Ideal.ofBits .f32 0xFF800000#32 = ⊥ := by simp [Ideal.ofBits, Ideal.ieee]

/-! ## Layout operations at an index -/

section Layout
variable {α : Type}

/-- An [a] array cast to the column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The splats -/

theorem pay1_apply (y : S1024x1.Idx) : k0_pay1 (F := Ideal) y = ⊥ := by
  unfold Gen.k0_pay1
  rw [shapeCast_self]
  exact ofBits_neg_inf_f32

theorem pay2_apply (y : S1024x1.Idx) : k0_pay2 (F := Ideal) y = 0 := by
  unfold Gen.k0_pay2
  rw [shapeCast_self]
  exact Ideal.ofBits_zero_f32

/-! ## The lane reductions at a row -/

/-- The reduced index (r) with the lane k put back on axis 1 is (r, k). -/
theorem lift_row (r : Fin 1024) (k : Fin 640) :
    reduces_S1024x640_S1024.lift (ix1 r) k = ix2 r k :=
  funext fun a => Fin.ext (by
    match a with
    | ⟨0, _⟩ => rfl
    | ⟨1, _⟩ => rfl)

/-- The lane maximum from -∞ of a [1024, 640] array, at row r: the fold of max from ⊥ over the row's lanes. -/
theorem rowMax_apply (src : FVec Ideal S1024x640 .f32) (hφ : FKind.Formats .f32)
    (hacc : (0xFF800000#32 : BitVec 32) = 0xFF800000#32) (r : Fin 1024) :
    multiReduction (F := Ideal) .maximumf [1] S1024 src 0xFF800000#32 reduces_S1024x640_S1024 hφ hacc (ix1 r)
      = (Finset.univ : Finset (Fin 640)).fold max ⊥ fun k => src (ix2 r k) := by
  refine (Ideal.multiReduction_maximumf_single src 0xFF800000#32 reduces_S1024x640_S1024 hφ hacc (ix1 r)).trans ?_
  have e : (src ∘ reduces_S1024x640_S1024.lift (ix1 r)) = fun k : Fin 640 => src (ix2 r k) :=
    funext fun k => congrArg src (lift_row r k)
  show (Finset.univ : Finset (Fin 640)).fold max (Ideal.ofBits .f32 0xFF800000#32) (src ∘ reduces_S1024x640_S1024.lift (ix1 r)) = _
  rw [e, ofBits_neg_inf_f32]
  rfl

/-- The lane sum from 0 of a [1024, 640] array, at row r: the sum over the row's lanes. -/
theorem rowSum_apply (src : FVec Ideal S1024x640 .f32) (hφ : FKind.Formats .f32)
    (hacc : (0x00000000#32 : BitVec 32) = 0x00000000#32) (r : Fin 1024) :
    multiReduction (F := Ideal) .add [1] S1024 src 0x00000000#32 reduces_S1024x640_S1024 hφ hacc (ix1 r)
      = ∑ k : Fin 640, src (ix2 r k) := by
  refine (Ideal.multiReduction_add_single src 0x00000000#32 reduces_S1024x640_S1024 hφ hacc (ix1 r)).trans ?_
  exact Finset.sum_congr rfl fun k _ => congrArg src (lift_row r k)

/-! ## The product: x's row r against w's row k, over the 4096 contracted entries -/

/-- The left operand's index at output (i0, i1), contraction q: row i0 ... -/
theorem lhs_dot_0 (i : S1024x640.Idx) (q : dot_S1024x4096_S640x4096_S1024x640_1_1_0_0_n_n.contr.Idx) :
    (dot_S1024x4096_S640x4096_S1024x640_1_1_0_0_n_n.lhsIdx i q 0).val = (i 0).val := by
  unfold DotDims.lhsIdx
  rw [dif_neg (show ¬(0 : Fin S1024x4096.rank) ∈ dot_S1024x4096_S640x4096_S1024x640_1_1_0_0_n_n.lhsBatch by decide),
    dif_pos (show (0 : Fin S1024x4096.rank) ∈ dot_S1024x4096_S640x4096_S1024x640_1_1_0_0_n_n.lhsNonContracting by decide)]
  rfl
/-- ... and column the contraction position. -/
theorem lhs_dot_1 (i : S1024x640.Idx) (q : dot_S1024x4096_S640x4096_S1024x640_1_1_0_0_n_n.contr.Idx) :
    (dot_S1024x4096_S640x4096_S1024x640_1_1_0_0_n_n.lhsIdx i q 1).val = (q ⟨0, by decide⟩).val :=
  dot_S1024x4096_S640x4096_S1024x640_1_1_0_0_n_n.lhsIdx_val_of_single rfl i q
/-- The right operand's index at output (i0, i1), contraction q: row i1 ... -/
theorem rhs_dot_0 (i : S1024x640.Idx) (q : dot_S1024x4096_S640x4096_S1024x640_1_1_0_0_n_n.contr.Idx) :
    (dot_S1024x4096_S640x4096_S1024x640_1_1_0_0_n_n.rhsIdx i q 0).val = (i 1).val := by
  unfold DotDims.rhsIdx
  rw [dif_neg (show ¬(0 : Fin S640x4096.rank) ∈ dot_S1024x4096_S640x4096_S1024x640_1_1_0_0_n_n.rhsBatch by decide),
    dif_pos (show (0 : Fin S640x4096.rank) ∈ dot_S1024x4096_S640x4096_S1024x640_1_1_0_0_n_n.rhsNonContracting by decide)]
  rfl
/-- ... and column the contraction position. -/
theorem rhs_dot_1 (i : S1024x640.Idx) (q : dot_S1024x4096_S640x4096_S1024x640_1_1_0_0_n_n.contr.Idx) :
    (dot_S1024x4096_S640x4096_S1024x640_1_1_0_0_n_n.rhsIdx i q 1).val = (q ⟨0, by decide⟩).val :=
  dot_S1024x4096_S640x4096_S1024x640_1_1_0_0_n_n.rhsIdx_val_of_single rfl i q

/-- The block's scores: entry (r, k) is the inner product of x's row r with w's row k. -/
theorem pay3_apply (x : Vec Ideal S1024x4096 .bf16) (w : Vec Ideal S640x4096 .bf16) (r : Fin 1024) (k : Fin 640) :
    k0_pay3 x w (ix2 r k) = ∑ h : Fin 4096, x (ix2 r h) * w (ix2 k h) := by
  unfold Gen.k0_pay3
  rw [shapeCast_self, shapeCast_self]
  refine (Ideal.matmul_constant_zero_apply (φ₁ := .bf16) (φ₂ := .bf16) dot_S1024x4096_S640x4096_S1024x640_1_1_0_0_n_n none x w (ix2 r k)).trans ?_
  rw [← Equiv.sum_comp (contrEquiv1 dot_S1024x4096_S640x4096_S1024x640_1_1_0_0_n_n 4096 rfl rfl).symm]
  refine Finset.sum_congr rfl fun h _ => ?_
  have hk := contrEquiv1_symm_val dot_S1024x4096_S640x4096_S1024x640_1_1_0_0_n_n 4096 rfl rfl h
  have el : dot_S1024x4096_S640x4096_S1024x640_1_1_0_0_n_n.lhsIdx (ix2 r k)
      ((contrEquiv1 dot_S1024x4096_S640x4096_S1024x640_1_1_0_0_n_n 4096 rfl rfl).symm h) = ix2 r h :=
    funext fun a => Fin.ext (by
      match a with
      | ⟨0, _⟩ => exact lhs_dot_0 _ _
      | ⟨1, _⟩ => exact (lhs_dot_1 _ _).trans hk)
  have er : dot_S1024x4096_S640x4096_S1024x640_1_1_0_0_n_n.rhsIdx (ix2 r k)
      ((contrEquiv1 dot_S1024x4096_S640x4096_S1024x640_1_1_0_0_n_n 4096 rfl rfl).symm h) = ix2 k h :=
    funext fun a => Fin.ext (by
      match a with
      | ⟨0, _⟩ => exact rhs_dot_0 _ _
      | ⟨1, _⟩ => exact (rhs_dot_1 _ _).trans hk)
  rw [el, er]

/-! ## The running maximum, the running sum, and the result -/

/-- The new maximum at row r: the old one against the largest score of the row. -/
theorem pay4_apply (x : Vec Ideal S1024x4096 .bf16) (w : Vec Ideal S640x4096 .bf16) (pm : Vec Ideal S1024x1 .f32) (r : Fin 1024) :
    k0_pay4 x w pm (ix2 r 0) = max (pm (ix2 r 0)) ((Finset.univ : Finset (Fin 640)).fold max ⊥ fun k => k0_pay3 x w (ix2 r k)) := by
  unfold Gen.k0_pay4
  refine (maximumf_apply (φ := .f32) pm _ (ix2 r 0)).trans ?_
  refine congrArg (max (pm (ix2 r 0))) ?_
  refine (shapeCast_a_a1_apply _ shapeCasts_S1024_S1024x1 r 0).trans ?_
  exact rowMax_apply (k0_pay3 x w) _ _ r

/-- The stored maximum is the new maximum. -/
theorem pay5_eq_pay4 (x : Vec Ideal S1024x4096 .bf16) (w : Vec Ideal S640x4096 .bf16) (pm : Vec Ideal S1024x1 .f32) :
    k0_pay5 x w pm = k0_pay4 x w pm := by
  unfold Gen.k0_pay5
  exact shapeCast_self _ _

theorem pay5_apply (x : Vec Ideal S1024x4096 .bf16) (w : Vec Ideal S640x4096 .bf16) (pm : Vec Ideal S1024x1 .f32) (r : Fin 1024) :
    k0_pay5 x w pm (ix2 r 0) = max (pm (ix2 r 0)) ((Finset.univ : Finset (Fin 640)).fold max ⊥ fun k => k0_pay3 x w (ix2 r k)) :=
  (congrFun (pay5_eq_pay4 x w pm) (ix2 r 0)).trans (pay4_apply x w pm r)

/-- One block step of the running sum, for any scores s and any new maximum m': the old sum rescaled by
    exp (old maximum - m') plus the row's sum of exp (score - m'). -/
theorem sumStep_apply (s : FVec Ideal S1024x640 .f32) (m' pm pl : FVec Ideal S1024x1 .f32) (hφ : FKind.Formats .f32)
    (hacc : (0x00000000#32 : BitVec 32) = 0x00000000#32) (r : Fin 1024) :
    addf (mulf (exp (subf pm m')) pl)
        (shapeCast S1024x1
          (multiReduction (F := Ideal) .add [1] S1024 (exp (subf s (broadcastTo S1024x640 m' broadcasts_S1024x1_S1024x640)))
            0x00000000#32 reduces_S1024x640_S1024 hφ hacc)
          shapeCasts_S1024_S1024x1) (ix2 r 0)
      = Ideal.exp (pm (ix2 r 0) - m' (ix2 r 0)) * pl (ix2 r 0) + ∑ k : Fin 640, Ideal.exp (s (ix2 r k) - m' (ix2 r 0)) := by
  refine (addf_apply _ _ (ix2 r 0)).trans ?_
  refine congrArg₂ (· + ·) rfl ?_
  refine (shapeCast_a_a1_apply _ shapeCasts_S1024_S1024x1 r 0).trans ?_
  refine (rowSum_apply _ hφ hacc r).trans ?_
  refine Finset.sum_congr rfl fun k _ => ?_
  show Ideal.exp (s (ix2 r k) - broadcastTo S1024x640 m' broadcasts_S1024x1_S1024x640 (ix2 r k)) = _
  rw [broadcastTo_a1_ab_apply]

theorem pay6_apply (x : Vec Ideal S1024x4096 .bf16) (w : Vec Ideal S640x4096 .bf16) (pm pl : Vec Ideal S1024x1 .f32) (r : Fin 1024) :
    k0_pay6 x w pm pl (ix2 r 0)
      = Ideal.exp (pm (ix2 r 0) - k0_pay5 x w pm (ix2 r 0)) * pl (ix2 r 0)
        + ∑ k : Fin 640, Ideal.exp (k0_pay3 x w (ix2 r k) - k0_pay5 x w pm (ix2 r 0)) := by
  rw [pay5_eq_pay4]
  unfold Gen.k0_pay6
  refine (congrFun (shapeCast_self _ shapeCasts_S1024x1_S1024x1) (ix2 r 0)).trans ?_
  exact sumStep_apply (k0_pay3 x w) (k0_pay4 x w pm) pm pl _ _ r

theorem pay7_apply (a b : Vec Ideal S1024x1 .f32) (r : Fin 1024) : k0_pay7 a b (ix2 r 0) = a (ix2 r 0) + Ideal.log (b (ix2 r 0)) := by
  unfold Gen.k0_pay7
  rfl

end Cert.KernelIdeal.Cpo

end
-- ==== Proof.KPieces.lean ====
/-
  What each case of the body leaves in the output buffer and the two scratch columns.

  Every store of the body is of a whole column, so a column ends at the payload of its last store. At a first class
  block the maximum column is stored twice (-inf, then the new maximum) and the sum column twice (0, then the new
  sum); the loads between the two stores read back the reset values, so the new maximum is the update of -inf and
  the new sum the update of -inf and 0 by the point's block of scores. At every other class block each column is
  stored once, at the update of what it held. At a last class block the output buffer is stored once, at the new
  maximum plus the logarithm of the new sum, both read back from the columns just stored.
-/
import proofs.«426376_j48859547959894_3_alg».proof.Proof.FrameRun
import Idealize.ShloMosaic.Lib.Pipeline.Value

set_option maxRecDepth 16384

noncomputable section

namespace Cert.KernelIdeal.Cpo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The offsets of a whole-column rectangle are zero. -/
private theorem hz : (![0, 0] : Fin 2 → Nat) = fun _ => 0 := funext fun a => by fin_cases a <;> rfl

/-- A whole scratch column holding X reads X. -/
private theorem read_scrM (h : (scrM : Memref sig .tc .vmem S1024x1 .f32).IsWhole) (X : Vec F S1024x1 .f32) :
    View.read (Elt F) (View.whole cc0_scratch0) (h.unread X) = X := h.read_unread X
private theorem read_scrL (h : (scrL : Memref sig .tc .vmem S1024x1 .f32).IsWhole) (X : Vec F S1024x1 .f32) :
    View.read (Elt F) (View.whole cc0_scratch1) (h.unread X) = X := h.read_unread X

/-! ## One lemma per column and case -/

/-- First class block, maximum column: the later of its two stores is the update of the reset value -inf. -/
theorem firstM (c : Dev nD) (t : Fin cfg0.N) (h0 : isFirst (grid0.coords t)) (h1 : ¬isLast (grid0.coords t))
    (x0 : Vec F S1024x4096 .bf16) (x1 : Vec F S640x4096 .bf16) :
    colOf viewM (runFirst c (grid0.coords t) (stX t) (hstX t) (stW t) (hstW t) (stO t) (hstO t) scrM (Memref.isWhole_whole _) scrL (Memref.isWhole_whole _) h0 h1 x0 x1).2.1 = k0_pay5 x0 x1 (k0_pay1 (F := F)) := by
  unfold colOf
  rw [View.read_writes_eq_canon _ _ _ (coverFirstM c t h0 h1 x0 x1)]
  unfold runFirst
  dsimp only
  sl_unfold_words
  rw [View.canon_cons_unit_zero (S := S1024x1) hz]
  simp only [View.readAt_eq_ld, Memref.IsWhole.read_unread, read_scrM, read_scrL, View.readCov_unit_zero (S := S1024x1) _ hz, View.ld_unit_zero (S := S1024x4096) hz, View.ld_unit_zero (S := S640x4096) hz, View.ld_unit_zero (S := S1024x1) hz]

/-- First class block, sum column: the later of its two stores is the update of the reset values -inf and 0. -/
theorem firstL (c : Dev nD) (t : Fin cfg0.N) (h0 : isFirst (grid0.coords t)) (h1 : ¬isLast (grid0.coords t))
    (x0 : Vec F S1024x4096 .bf16) (x1 : Vec F S640x4096 .bf16) :
    colOf viewL (runFirst c (grid0.coords t) (stX t) (hstX t) (stW t) (hstW t) (stO t) (hstO t) scrM (Memref.isWhole_whole _) scrL (Memref.isWhole_whole _) h0 h1 x0 x1).2.2.1 = k0_pay6 x0 x1 (k0_pay1 (F := F)) (k0_pay2 (F := F)) := by
  unfold colOf
  rw [View.read_writes_eq_canon _ _ _ (coverFirstL c t h0 h1 x0 x1)]
  unfold runFirst
  dsimp only
  sl_unfold_words
  rw [View.canon_cons_unit_zero (S := S1024x1) hz]
  simp only [View.readAt_eq_ld, Memref.IsWhole.read_unread, read_scrM, read_scrL, View.readCov_unit_zero (S := S1024x1) _ hz, View.ld_unit_zero (S := S1024x4096) hz, View.ld_unit_zero (S := S640x4096) hz, View.ld_unit_zero (S := S1024x1) hz]

/-- Middle class block, maximum column: its one store is the update of what the column held. -/
theorem midM (c : Dev nD) (t : Fin cfg0.N) (h0 : ¬isFirst (grid0.coords t)) (h1 : ¬isLast (grid0.coords t))
    (x0 : Vec F S1024x4096 .bf16) (x1 : Vec F S640x4096 .bf16) (pm pl : Vec F S1024x1 .f32) :
    colOf viewM (runMid c (grid0.coords t) (stX t) (hstX t) (stW t) (hstW t) (stO t) (hstO t) scrM (Memref.isWhole_whole _) scrL (Memref.isWhole_whole _) h0 h1 x0 x1 pm pl).2.1 = k0_pay5 x0 x1 pm := by
  unfold colOf
  rw [View.read_writes_eq_canon _ _ _ (coverMidM c t h0 h1 x0 x1 pm pl)]
  unfold runMid
  dsimp only
  sl_unfold_words
  rw [View.canon_unit_zero (S := S1024x1) hz]
  simp only [View.readAt_eq_ld, Memref.IsWhole.read_unread, read_scrM, read_scrL, View.readCov_unit_zero (S := S1024x1) _ hz, View.ld_unit_zero (S := S1024x4096) hz, View.ld_unit_zero (S := S640x4096) hz, View.ld_unit_zero (S := S1024x1) hz]

/-- Middle class block, sum column: its one store is the update of what the two columns held. -/
theorem midL (c : Dev nD) (t : Fin cfg0.N) (h0 : ¬isFirst (grid0.coords t)) (h1 : ¬isLast (grid0.coords t))
    (x0 : Vec F S1024x4096 .bf16) (x1 : Vec F S640x4096 .bf16) (pm pl : Vec F S1024x1 .f32) :
    colOf viewL (runMid c (grid0.coords t) (stX t) (hstX t) (stW t) (hstW t) (stO t) (hstO t) scrM (Memref.isWhole_whole _) scrL (Memref.isWhole_whole _) h0 h1 x0 x1 pm pl).2.2.1 = k0_pay6 x0 x1 pm pl := by
  unfold colOf
  rw [View.read_writes_eq_canon _ _ _ (coverMidL c t h0 h1 x0 x1 pm pl)]
  unfold runMid
  dsimp only
  sl_unfold_words
  rw [View.canon_unit_zero (S := S1024x1) hz]
  simp only [View.readAt_eq_ld, Memref.IsWhole.read_unread, read_scrM, read_scrL, View.readCov_unit_zero (S := S1024x1) _ hz, View.ld_unit_zero (S := S1024x4096) hz, View.ld_unit_zero (S := S640x4096) hz, View.ld_unit_zero (S := S1024x1) hz]

/-- Last class block, output buffer: its one store is the new maximum plus the logarithm of the new sum, each read
    back from the column just stored. -/
theorem lastO (c : Dev nD) (t : Fin cfg0.N) (h0 : ¬isFirst (grid0.coords t)) (h1 : isLast (grid0.coords t))
    (x0 : Vec F S1024x4096 .bf16) (x1 : Vec F S640x4096 .bf16) (pm pl : Vec F S1024x1 .f32) :
    colOf outView (runLast c (grid0.coords t) (stX t) (hstX t) (stW t) (hstW t) (stO t) (hstO t) scrM (Memref.isWhole_whole _) scrL (Memref.isWhole_whole _) h0 h1 x0 x1 pm pl).1 = k0_pay7 (k0_pay5 x0 x1 pm) (k0_pay6 x0 x1 pm pl) := by
  unfold colOf
  rw [View.read_writes_eq_canon _ _ _ (coverLastO c t h0 h1 x0 x1 pm pl)]
  unfold runLast
  dsimp only
  sl_unfold_words
  rw [View.canon_unit_zero (S := S1024x1) hz]
  simp only [View.readAt_eq_ld, Memref.IsWhole.read_unread, read_scrM, read_scrL, View.readCov_unit_zero (S := S1024x1) _ hz, View.ld_unit_zero (S := S1024x4096) hz, View.ld_unit_zero (S := S640x4096) hz, View.ld_unit_zero (S := S1024x1) hz]

/-- Last class block, maximum column: its one store is the update of what the column held. -/
theorem lastM (c : Dev nD) (t : Fin cfg0.N) (h0 : ¬isFirst (grid0.coords t)) (h1 : isLast (grid0.coords t))
    (x0 : Vec F S1024x4096 .bf16) (x1 : Vec F S640x4096 .bf16) (pm pl : Vec F S1024x1 .f32) :
    colOf viewM (runLast c (grid0.coords t) (stX t) (hstX t) (stW t) (hstW t) (stO t) (hstO t) scrM (Memref.isWhole_whole _) scrL (Memref.isWhole_whole _) h0 h1 x0 x1 pm pl).2.1 = k0_pay5 x0 x1 pm := by
  unfold colOf
  rw [View.read_writes_eq_canon _ _ _ (coverLastM c t h0 h1 x0 x1 pm pl)]
  unfold runLast
  dsimp only
  sl_unfold_words
  rw [View.canon_unit_zero (S := S1024x1) hz]
  simp only [View.readAt_eq_ld, Memref.IsWhole.read_unread, read_scrM, read_scrL, View.readCov_unit_zero (S := S1024x1) _ hz, View.ld_unit_zero (S := S1024x4096) hz, View.ld_unit_zero (S := S640x4096) hz, View.ld_unit_zero (S := S1024x1) hz]

/-- Last class block, sum column: its one store is the update of what the two columns held. -/
theorem lastL (c : Dev nD) (t : Fin cfg0.N) (h0 : ¬isFirst (grid0.coords t)) (h1 : isLast (grid0.coords t))
    (x0 : Vec F S1024x4096 .bf16) (x1 : Vec F S640x4096 .bf16) (pm pl : Vec F S1024x1 .f32) :
    colOf viewL (runLast c (grid0.coords t) (stX t) (hstX t) (stW t) (hstW t) (stO t) (hstO t) scrM (Memref.isWhole_whole _) scrL (Memref.isWhole_whole _) h0 h1 x0 x1 pm pl).2.2.1 = k0_pay6 x0 x1 pm pl := by
  unfold colOf
  rw [View.read_writes_eq_canon _ _ _ (coverLastL c t h0 h1 x0 x1 pm pl)]
  unfold runLast
  dsimp only
  sl_unfold_words
  rw [View.canon_unit_zero (S := S1024x1) hz]
  simp only [View.readAt_eq_ld, Memref.IsWhole.read_unread, read_scrM, read_scrL, View.readCov_unit_zero (S := S1024x1) _ hz, View.ld_unit_zero (S := S1024x4096) hz, View.ld_unit_zero (S := S640x4096) hz, View.ld_unit_zero (S := S1024x1) hz]

/-! ## The three cases of a point -/

/-- At a first class block the body stores -inf then the new maximum into the maximum column and 0 then the new sum
    into the sum column; the loads between read back what was just stored, so the columns end at the update of the
    reset values by the point's block of scores. -/
theorem step_first (c : Dev nD) (t : Fin cfg0.N) (h0 : t.val % 50 = 0) (pm pl : Vec F S1024x1 .f32) :
    (stepAt m c t pm pl).2 = (k0_pay5 (iblk m c 0 t) (iblk m c 1 t) (k0_pay1 (F := F)), k0_pay6 (iblk m c 0 t) (iblk m c 1 t) (k0_pay1 (F := F)) (k0_pay2 (F := F))) := by
  unfold stepAt
  rw [dif_pos h0]
  dsimp only
  rw [firstM c t ((isFirst_iff t).mpr h0) (notLast_of_first t h0) (iblk m c 0 t) (iblk m c 1 t),
    firstL c t ((isFirst_iff t).mpr h0) (notLast_of_first t h0) (iblk m c 0 t) (iblk m c 1 t)]

/-- At a class block that is neither first nor last the columns end at the update of what they held. -/
theorem step_mid (c : Dev nD) (t : Fin cfg0.N) (h0 : ¬t.val % 50 = 0) (h1 : ¬t.val % 50 = 49) (pm pl : Vec F S1024x1 .f32) :
    (stepAt m c t pm pl).2 = (k0_pay5 (iblk m c 0 t) (iblk m c 1 t) pm, k0_pay6 (iblk m c 0 t) (iblk m c 1 t) pm pl) := by
  unfold stepAt
  rw [dif_neg h0, dif_neg h1]
  dsimp only
  rw [midM c t (notFirst_of t h0) (notLast_of t h1) (iblk m c 0 t) (iblk m c 1 t) pm pl,
    midL c t (notFirst_of t h0) (notLast_of t h1) (iblk m c 0 t) (iblk m c 1 t) pm pl]

/-- At a last class block the columns end at the same update, and the output buffer at the new maximum plus the
    logarithm of the new sum. -/
theorem step_last (c : Dev nD) (t : Fin cfg0.N) (h0 : ¬t.val % 50 = 0) (h1 : t.val % 50 = 49) (pm pl : Vec F S1024x1 .f32) :
    stepAt m c t pm pl = (k0_pay7 (k0_pay5 (iblk m c 0 t) (iblk m c 1 t) pm) (k0_pay6 (iblk m c 0 t) (iblk m c 1 t) pm pl),
                          k0_pay5 (iblk m c 0 t) (iblk m c 1 t) pm, k0_pay6 (iblk m c 0 t) (iblk m c 1 t) pm pl) := by
  unfold stepAt
  rw [dif_neg h0, dif_pos h1]
  rw [lastO c t (notFirst_of t h0) ((isLast_iff t).mpr h1) (iblk m c 0 t) (iblk m c 1 t) pm pl,
    lastM c t (notFirst_of t h0) ((isLast_iff t).mpr h1) (iblk m c 0 t) (iblk m c 1 t) pm pl,
    lastL c t (notFirst_of t h0) ((isLast_iff t).mpr h1) (iblk m c 0 t) (iblk m c 1 t) pm pl]

end Cert.KernelIdeal.Cpo

end
-- ==== Proof.KValue.lean ====
import proofs.«426376_j48859547959894_3_alg».proof.Proof.FrameRun
import proofs.«426376_j48859547959894_3_alg».proof.Proof.LseMath
import proofs.«426376_j48859547959894_3_alg».proof.Proof.KPayload
import proofs.«426376_j48859547959894_3_alg».proof.Proof.KPieces
import proofs.«426376_j48859547959894_3_alg».proof.Proof.KPre
import Idealize.ShloMosaic.Lib.Pipeline.Value
import Idealize.ShloMosaic.Lib.ValueIdx

/-!
  The launch's result column holds every token's log-sum-exp.

  The grid is four token blocks of 1024 rows by fifty class blocks of 640 classes. Within a token block the two
  scratch columns carry, row by row, the running maximum and the running sum of exponentials of the online softmax
  over the class blocks seen so far; the first class block starts them from -∞ and 0. After the fiftieth class
  block the state covers all 32000 classes, and the output column of the token block is maximum + log sum, the
  row's log-sum-exp. The four output blocks, each written back at its token block's last point, tile the column.
-/

set_option maxRecDepth 16384

noncomputable section

namespace Cert.KernelIdeal.Cpo

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)
open scoped BigOperators

variable (m : (ℓ : Loc nD τ sig) → Buf (Elt Ideal) ℓ)

/-! ## The windows' blocks as rows of their arrays -/

/-- The block indices of the three windows over the grid: point t has token block t / 50 and class block t % 50. -/
theorem idx_facts : ∀ t : Fin cfg0.N, win0_0.index t (0 : Fin 2) = t.val / 50 ∧ win0_0.index t (1 : Fin 2) = 0
    ∧ win0_1.index t (0 : Fin 2) = t.val % 50 ∧ win0_1.index t (1 : Fin 2) = 0
    ∧ win0_2.index t (0 : Fin 2) = t.val / 50 ∧ win0_2.index t (1 : Fin 2) = 0 :=
  (by decide +kernel : ∀ t : Fin grid0.N, _)

/-- The activation block and the class-weight block at a point, and the two arrays they are blocks of. -/
abbrev xblk (c : Dev nD) (p : Fin cfg0.N) : Vec Ideal S1024x4096 .bf16 := iblk m c 0 p
abbrev wblk (c : Dev nD) (p : Fin cfg0.N) : Vec Ideal S640x4096 .bf16 := iblk m c 1 p
abbrev xarr (c : Dev nD) : Vec Ideal S4096x4096 .bf16 := V m c main_v1
abbrev warr (c : Dev nD) : Vec Ideal S32000x4096 .bf16 := V m c main_v2
/-- The activations and the class weights as launched. -/
abbrev argX (c : Dev nD) : Cert.Cpo.SX.Idx → EReal := m ((c : Thread nD τ).loc main_arg0)
abbrev argW (c : Dev nD) : Cert.Cpo.SW.Idx → EReal := m ((c : Thread nD τ).loc main_arg2)

/-- The bf16 activations are the launched activations with the two token axes merged; the bf16 class weights are the
    launched class weights. -/
theorem xarr_apply (c : Dev nD) (b : Fin 8) (t : Fin 512) (h : Fin 4096) :
    xarr m c (ix2 ⟨512 * b.val + t.val, by omega⟩ h) = argX m c (ix3 b t h) := V_x m c b t h
theorem warr_apply (c : Dev nD) (v : Fin 32000) (h : Fin 4096) : warr m c (ix2 v h) = argW m c (ix2 v h) := V_w m c v h

/-- Row r of the activation block at point p is row 1024 (p / 50) + r of the activations. -/
theorem xblk_apply (c : Dev nD) (p : Fin cfg0.N) (r : Fin 1024) (h : Fin 4096) (i : Fin 4096)
    (hi : i.val = 1024 * (p.val / 50) + r.val) : xblk m c p (ix2 r h) = xarr m c (ix2 i h) := by
  obtain ⟨e0, e1, -⟩ := idx_facts p
  unfold xblk iblk
  rw [View.read_apply]
  show V m c main_v1 _ = V m c main_v1 _
  congr 1
  funext a
  apply Fin.ext
  match a with
  | ⟨0, _⟩ => show win0_0.index p 0 * 1024 + 1 * r.val = i.val; rw [e0, hi]; omega
  | ⟨1, _⟩ => show win0_0.index p 1 * 4096 + 1 * h.val = h.val; rw [e1]; omega

/-- Row k of the class-weight block at point p is row 640 (p % 50) + k of the class weights. -/
theorem wblk_apply (c : Dev nD) (p : Fin cfg0.N) (k : Fin 640) (h : Fin 4096) (v : Fin 32000)
    (hv : v.val = 640 * (p.val % 50) + k.val) : wblk m c p (ix2 k h) = warr m c (ix2 v h) := by
  obtain ⟨-, -, e0, e1, -⟩ := idx_facts p
  unfold wblk iblk
  rw [View.read_apply]
  show V m c main_v2 _ = V m c main_v2 _
  congr 1
  funext a
  apply Fin.ext
  match a with
  | ⟨0, _⟩ => show win0_1.index p 0 * 640 + 1 * k.val = v.val; rw [e0, hv]; omega
  | ⟨1, _⟩ => show win0_1.index p 1 * 4096 + 1 * h.val = h.val; rw [e1]; omega

/-- The class block of a point. -/
abbrev clsBlk (p : Fin cfg0.N) : Fin 50 := ⟨p.val % 50, Nat.mod_lt _ (by decide)⟩

/-- The scores of the point's block: row r of token block p / 50 against class block p % 50 are the logits of the
    row's token for that block's classes. -/
theorem score_eq (c : Dev nD) (p : Fin cfg0.N) (b : Fin 8) (t : Fin 512) (r : Fin 1024)
    (hbt : 512 * b.val + t.val = 1024 * (p.val / 50) + r.val) (k : Fin 640) :
    k0_pay3 (xblk m c p) (wblk m c p) (ix2 r k) = Cert.Cpo.blkScore (argX m c) (argW m c) b t (clsBlk p) k := by
  refine (pay3_apply (xblk m c p) (wblk m c p) r k).trans ?_
  unfold Cert.Cpo.blkScore Cert.Cpo.logit
  refine Finset.sum_congr rfl fun h _ => ?_
  rw [xblk_apply m c p r h ⟨512 * b.val + t.val, by omega⟩ hbt,
    wblk_apply m c p k h (Cert.Cpo.blkCls (clsBlk p) k) rfl, xarr_apply m c b t h, warr_apply m c _ h]

/-! ## The online-softmax state over the class blocks -/

/-- The launched activations and class weights are real numbers. -/
abbrev RealX (c : Dev nD) : Prop := ∀ i, ∃ r : ℝ, m ((c : Thread nD τ).loc main_arg0) i = (r : EReal)
abbrev RealW (c : Dev nD) : Prop := ∀ i, ∃ r : ℝ, m ((c : Thread nD τ).loc main_arg2) i = (r : EReal)

/-- With real inputs every score is a real number. -/
theorem score_real (c : Dev nD) (hX : RealX m c) (hW : RealW m c) (b : Fin 8) (t : Fin 512) (j : Fin 50) (k : Fin 640) :
    ∃ r : ℝ, Cert.Cpo.blkScore (argX m c) (argW m c) b t j k = (r : EReal) :=
  Cert.Cpo.logit_real hX hW b t (Cert.Cpo.blkCls j k)

/-- One point's update of a row's state (running maximum, running sum) absorbs the point's class block. -/
theorem inv_step (c : Dev nD) (hX : RealX m c) (hW : RealW m c) (p : Fin cfg0.N) (b : Fin 8) (t : Fin 512) (r : Fin 1024)
    (hbt : 512 * b.val + t.val = 1024 * (p.val / 50) + r.val) (B : Finset (Fin 50)) (hB : clsBlk p ∉ B)
    (pm pl : Vec Ideal S1024x1 .f32)
    (h : Cert.OnlineSoftmax.Inv (Cert.Cpo.blkScore (argX m c) (argW m c) b t) (fun _ _ => (0 : EReal)) B (pm (ix2 r 0)) (pl (ix2 r 0)) 0) :
    Cert.OnlineSoftmax.Inv (Cert.Cpo.blkScore (argX m c) (argW m c) b t) (fun _ _ => (0 : EReal)) (insert (clsBlk p) B)
      (k0_pay5 (xblk m c p) (wblk m c p) pm (ix2 r 0)) (k0_pay6 (xblk m c p) (wblk m c p) pm pl (ix2 r 0)) 0 := by
  have hs : (fun k : Fin 640 => k0_pay3 (xblk m c p) (wblk m c p) (ix2 r k))
      = Cert.Cpo.blkScore (argX m c) (argW m c) b t (clsBlk p) := funext fun k => score_eq m c p b t r hbt k
  refine h.step hB (score_real m c hX hW b t) (fun _ _ => ⟨0, EReal.coe_zero.symm⟩) ?_ ?_ ?_
  · rw [← hs]; exact pay5_apply (xblk m c p) (wblk m c p) pm r
  · refine (pay6_apply (xblk m c p) (wblk m c p) pm pl r).trans ?_
    exact congrArg₂ (· + ·) rfl (Finset.sum_congr rfl fun k _ => by rw [score_eq m c p b t r hbt k])
  · simp

/-- The class blocks up to the j-th, built one block at a time. -/
theorem upTo_zero (j : Fin 50) (a : ℕ) (ha : a = j.val) (hj : j.val = 0) :
    (Finset.univ.filter fun j' : Fin 50 => j'.val ≤ a) = insert j ∅ := by
  subst ha; ext x; simp [Fin.ext_iff]; omega
theorem upTo_succ (j : Fin 50) (a n : ℕ) (ha : a = j.val) (hj : j.val = n + 1) :
    (Finset.univ.filter fun j' : Fin 50 => j'.val ≤ a) = insert j (Finset.univ.filter fun j' : Fin 50 => j'.val ≤ n) := by
  subst ha; ext x; simp [Fin.ext_iff]; omega
theorem not_mem_upTo (j : Fin 50) (n : ℕ) (hj : j.val = n + 1) : j ∉ Finset.univ.filter fun j' : Fin 50 => j'.val ≤ n := by
  simp; omega
theorem upTo_all : (Finset.univ.filter fun j' : Fin 50 => j'.val ≤ 49) = Finset.univ := by
  ext x; simp; omega

/-- At a first class block the state starts from (-∞, 0) and absorbs block 0. -/
theorem inv_first (c : Dev nD) (hX : RealX m c) (hW : RealW m c) (p : Fin cfg0.N) (h0 : p.val % 50 = 0)
    (b : Fin 8) (t : Fin 512) (r : Fin 1024) (hbt : 512 * b.val + t.val = 1024 * (p.val / 50) + r.val) :
    Cert.OnlineSoftmax.Inv (Cert.Cpo.blkScore (argX m c) (argW m c) b t) (fun _ _ => (0 : EReal))
      (Finset.univ.filter fun j' : Fin 50 => j'.val ≤ p.val % 50)
      (k0_pay5 (xblk m c p) (wblk m c p) (k0_pay1 (F := Ideal)) (ix2 r 0))
      (k0_pay6 (xblk m c p) (wblk m c p) (k0_pay1 (F := Ideal)) (k0_pay2 (F := Ideal)) (ix2 r 0)) 0 := by
  rw [upTo_zero (clsBlk p) (p.val % 50) rfl h0]
  refine inv_step m c hX hW p b t r hbt ∅ (by simp) (k0_pay1 (F := Ideal)) (k0_pay2 (F := Ideal)) ?_
  rw [pay1_apply, pay2_apply]
  exact Cert.OnlineSoftmax.Inv.init _ _

/-- At a later class block the state absorbs the next block. -/
theorem inv_next (c : Dev nD) (hX : RealX m c) (hW : RealW m c) (p : Fin cfg0.N) (n : ℕ) (hn : p.val = n + 1)
    (h0 : ¬p.val % 50 = 0) (b : Fin 8) (t : Fin 512) (r : Fin 1024)
    (hbt : 512 * b.val + t.val = 1024 * (p.val / 50) + r.val) (pm pl : Vec Ideal S1024x1 .f32)
    (ih : Cert.OnlineSoftmax.Inv (Cert.Cpo.blkScore (argX m c) (argW m c) b t) (fun _ _ => (0 : EReal))
      (Finset.univ.filter fun j' : Fin 50 => j'.val ≤ n % 50) (pm (ix2 r 0)) (pl (ix2 r 0)) 0) :
    Cert.OnlineSoftmax.Inv (Cert.Cpo.blkScore (argX m c) (argW m c) b t) (fun _ _ => (0 : EReal))
      (Finset.univ.filter fun j' : Fin 50 => j'.val ≤ p.val % 50)
      (k0_pay5 (xblk m c p) (wblk m c p) pm (ix2 r 0)) (k0_pay6 (xblk m c p) (wblk m c p) pm pl (ix2 r 0)) 0 := by
  have hj : (clsBlk p).val = n % 50 + 1 := by show p.val % 50 = _; omega
  rw [upTo_succ (clsBlk p) (p.val % 50) (n % 50) rfl hj]
  exact inv_step m c hX hW p b t r hbt _ (not_mem_upTo (clsBlk p) (n % 50) hj) pm pl ih

/-- After a point that is not the launch's first the buffers hold the point's case over what the point before left. -/
theorem outsAt_succ (c : Dev nD) (n : ℕ) (hn : n + 1 < cfg0.N) :
    outsAt m c (n + 1) hn = stepAt m c ⟨n + 1, hn⟩ (outsAt m c n (Nat.lt_of_succ_lt hn)).2.1 (outsAt m c n (Nat.lt_of_succ_lt hn)).2.2 := rfl

/-- After point n the scratch columns hold, in the row of token (b, t), the online-softmax state over the class
    blocks 0 … n % 50 of the token's row of logits. -/
theorem inv_at (c : Dev nD) (hX : RealX m c) (hW : RealW m c) (b : Fin 8) (t : Fin 512) (r : Fin 1024) :
    ∀ (n : ℕ) (hn : n < cfg0.N), 512 * b.val + t.val = 1024 * (n / 50) + r.val →
      Cert.OnlineSoftmax.Inv (Cert.Cpo.blkScore (argX m c) (argW m c) b t) (fun _ _ => (0 : EReal))
        (Finset.univ.filter fun j' : Fin 50 => j'.val ≤ n % 50)
        ((outsAt m c n hn).2.1 (ix2 r 0)) ((outsAt m c n hn).2.2 (ix2 r 0)) 0
  | 0, hn, hbt => by
    rw [outsAt_zero, step_first m c ⟨0, hn⟩ rfl]
    exact inv_first m c hX hW ⟨0, hn⟩ rfl b t r hbt
  | n + 1, hn, hbt => by
    rw [outsAt_succ m c n hn]
    by_cases h0 : (n + 1) % 50 = 0
    · rw [step_first m c ⟨n + 1, hn⟩ h0]
      exact inv_first m c hX hW ⟨n + 1, hn⟩ h0 b t r hbt
    · have ih := inv_at c hX hW b t r n (Nat.lt_of_succ_lt hn) (by omega)
      by_cases h1 : (n + 1) % 50 = 49
      · rw [step_last m c ⟨n + 1, hn⟩ h0 h1]
        exact inv_next m c hX hW ⟨n + 1, hn⟩ n rfl h0 b t r hbt _ _ ih
      · rw [step_mid m c ⟨n + 1, hn⟩ h0 h1]
        exact inv_next m c hX hW ⟨n + 1, hn⟩ n rfl h0 b t r hbt _ _ ih

/-- At a last class block the output column holds, in the row of token (b, t), the token's log-sum-exp. -/
theorem out_at (c : Dev nD) (hX : RealX m c) (hW : RealW m c) (b : Fin 8) (t : Fin 512) (r : Fin 1024)
    (n : ℕ) (hn : n < cfg0.N) (hbt : 512 * b.val + t.val = 1024 * (n / 50) + r.val) (h49 : n % 50 = 49) :
    (outsAt m c n hn).1 (ix2 r 0)
      = Cert.Cpo.rowMax (argX m c) (argW m c) b t + Ideal.log (Cert.Cpo.rowSumExp (argX m c) (argW m c) b t) := by
  have hinv := inv_at m c hX hW b t r n hn hbt
  rw [h49, upTo_all] at hinv
  refine Eq.trans ?_ (Cert.Cpo.online_total_lse b t hinv)
  cases n with
  | zero => exact absurd h49 (by decide)
  | succ n' =>
    have h0 : ¬(n' + 1) % 50 = 0 := by omega
    rw [outsAt_succ m c n' hn, step_last m c ⟨n' + 1, hn⟩ h0 h49]
    exact pay7_apply _ _ r

/-! ## The result column -/

/-- The result column: row i holds the log-sum-exp of token (i / 512, i % 512). -/
def lseCol (c : Dev nD) : Buf (Elt Ideal) ((c : Thread nD τ).loc main_v16) := fun (i : S4096x1.Idx) =>
  Cert.Cpo.rowMax (argX m c) (argW m c) ⟨(i 0).val / 512, by have h := idx2_lt0 i; omega⟩ ⟨(i 0).val % 512, Nat.mod_lt _ (by decide)⟩
    + Ideal.log (Cert.Cpo.rowSumExp (argX m c) (argW m c) ⟨(i 0).val / 512, by have h := idx2_lt0 i; omega⟩ ⟨(i 0).val % 512, Nat.mod_lt _ (by decide)⟩)

theorem lseCol_apply (c : Dev nD) (i : S4096x1.Idx) (b : Fin 8) (t : Fin 512) (hi : (i 0).val = 512 * b.val + t.val) :
    lseCol m c i = Cert.Cpo.rowMax (argX m c) (argW m c) b t + Ideal.log (Cert.Cpo.rowSumExp (argX m c) (argW m c) b t) := by
  have hb : (⟨(i 0).val / 512, by have h := idx2_lt0 i; omega⟩ : Fin 8) = b := Fin.ext (by show (i 0).val / 512 = b.val; omega)
  have ht : (⟨(i 0).val % 512, Nat.mod_lt _ (by decide)⟩ : Fin 512) = t := Fin.ext (by show (i 0).val % 512 = t.val; omega)
  show Cert.Cpo.rowMax (argX m c) (argW m c) ⟨(i 0).val / 512, _⟩ ⟨(i 0).val % 512, _⟩
    + Ideal.log (Cert.Cpo.rowSumExp (argX m c) (argW m c) ⟨(i 0).val / 512, _⟩ ⟨(i 0).val % 512, _⟩) = _
  rw [hb, ht]

/-- Row r of the output block of a last class block is the result column's row 1024 (p / 50) + r. -/
theorem flushed_apply (c : Dev nD) (hX : RealX m c) (hW : RealW m c) (p : Fin cfg0.N) (h49 : p.val % 50 = 49) (r : Fin 1024)
    (i : S4096x1.Idx) (hi : (i 0).val = 1024 * (p.val / 50) + r.val) :
    (outsAt m c p.val p.isLt).1 (ix2 r 0) = lseCol m c i := by
  have hN : p.val < 200 := lt_of_lt_of_eq p.isLt (show cfg0.N = 200 from N_0)
  rw [lseCol_apply m c i ⟨(1024 * (p.val / 50) + r.val) / 512, by omega⟩
    ⟨(1024 * (p.val / 50) + r.val) % 512, Nat.mod_lt _ (by decide)⟩ (by dsimp only; omega)]
  exact out_at m c hX hW _ _ r p.val p.isLt (by dsimp only; omega) h49

/-- What a last class block writes back is its block of the result column. -/
theorem flushed_eq (c : Dev nD) (hX : RealX m c) (hW : RealW m c) (p : Fin cfg0.N) (hf : (cfg0.win 2).flush p = true) :
    (dats (F := Ideal) m 0 c).flushed 2 p = ((cfg0.win 2).blk p).view.read (Elt Ideal) (lseCol m c) := by
  have h49 : p.val % 50 = 49 := (flush0_2 p).mp hf
  obtain ⟨-, -, -, -, e0, e1⟩ := idx_facts p
  show (cfg0.win 2).cut (grid0.coords p) ((dats m 0 c).after 2 p) = _
  rw [after_2]
  refine funext fun (y : S1024x1.Idx) => ?_
  rw [View.read_apply]
  obtain ⟨r, u, rfl⟩ : ∃ (r : Fin 1024) (u : Fin 1), y = ix2 r u := ⟨y 0, y 1, eq_ix2 y⟩
  obtain rfl : u = 0 := Subsingleton.elim _ _
  show (outsAt m c p.val p.isLt).1 (ix2 r 0) = lseCol m c (((cfg0.win 2).blk p).view.emb (ix2 r 0))
  refine flushed_apply m c hX hW p h49 r _ ?_
  show win0_2.index p 0 * 1024 + 1 * r.val = _
  rw [e0]; omega

/-- Every row of the result column lies in the output block of its token block's last point. -/
theorem lse_cover (i : S4096x1.Idx) :
    ∃ p : Fin cfg0.N, (cfg0.win 2).flush p = true ∧ i ∈ ((cfg0.win 2).blk p).view.set := by
  have hi0 : (i 0).val < 4096 := idx2_lt0 i
  have hi1 : (i 1).val < 1 := idx2_lt1 i
  obtain ⟨p, hp⟩ : ∃ p : Fin cfg0.N, p.val = 50 * ((i 0).val / 1024) + 49 :=
    ⟨⟨50 * ((i 0).val / 1024) + 49, by have : cfg0.N = 200 := N_0; omega⟩, rfl⟩
  obtain ⟨-, -, -, -, e0, e1⟩ := idx_facts p
  refine ⟨p, (flush0_2 p).mpr (by omega), ?_⟩
  show i ∈ ((View.whole main_v16).slice (win0_2.rect p)).set
  rw [View.set_slice_whole, Rect.mem_set_unit]
  intro a
  match a with
  | ⟨0, _⟩ =>
    show win0_2.index p 0 * 1024 ≤ (i 0).val ∧ (i 0).val < win0_2.index p 0 * 1024 + 1024
    rw [e0]; omega
  | ⟨1, _⟩ =>
    show win0_2.index p 1 * 1 ≤ (i 1).val ∧ (i 1).val < win0_2.index p 1 * 1 + 1
    rw [e1]; omega

/-- The launch's result array is the result column. -/
theorem lse_final (c : Dev nD) (hX : RealX m c) (hW : RealW m c) : (dats (F := Ideal) m 0 c).arrAt 2 cfg0.N = lseCol m c :=
  (dats (F := Ideal) m 0 c).arrAt_eq_of_cover 2 (lseCol m c) (flushed_eq m c hX hW) fun i => lse_cover i

/-- The launch's result array holds, for every token, the log-sum-exp of the token's logits. -/
theorem lse_array (c : Dev nD) (hX : ∀ i, ∃ r : ℝ, m ((c : Thread nD τ).loc main_arg0) i = (r : EReal))
    (hW : ∀ i, ∃ r : ℝ, m ((c : Thread nD τ).loc main_arg2) i = (r : EReal)) (b : Fin 8) (t : Fin 512) :
    (dats (F := Ideal) m 0 c).arrAt 2 cfg0.N (ix2 ⟨512 * b.val + t.val, by omega⟩ 0)
      = Cert.Cpo.rowMax (m ((c : Thread nD τ).loc main_arg0)) (m ((c : Thread nD τ).loc main_arg2)) b t
        + Ideal.log (Cert.Cpo.rowSumExp (m ((c : Thread nD τ).loc main_arg0)) (m ((c : Thread nD τ).loc main_arg2)) b t) :=
  (congrFun (lse_final m c hX hW) _).trans (lseCol_apply m c _ b t rfl)

end Cert.KernelIdeal.Cpo

end
-- ==== Proof.RefValue.lean ====
/-
  The reference's per-token quantities read at one token, at the ideal values.

  The reference's mask at token (b, t) is 0 where the label word is the ignore label -100 and 1 elsewhere. Its
  per-token log-probability at (b, t), when the label's class word lies in [0, 31999], is the log-probability of
  that class in the reference's arrangement: (logit - M) - log (Σ exp (logit - M)), with the logit the inner product
  over the hidden axis and M the maximum of the token's logits.

  The program's value is read one operation at a time: the contraction as a sum over its one contracted axis, the
  maximum and the sum along the class axis as a fold and a sum over the classes, each broadcast and reshape at the
  coordinates it keeps, the label arithmetic as words, the in-range test as the conjunction of two signed
  comparisons, and the gather as the operand's row at the start index, read signed and clamped to the class range.
-/
import proofs.«426376_j48859547959894_3_alg».proof.Proof.RefDefs
import proofs.«426376_j48859547959894_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

noncomputable section

namespace Cert.ReferenceIdeal.Cpo

open Idealize.ShloMosaic Idealize.ShloMosaic.ValueIdx
open Cert.ReferenceIdeal Cert.ReferenceIdeal.Facts₀
open scoped BigOperators

variable [Cert.ReferenceIdeal.Facts]

/-! ## Broadcasts read at an index -/

/-- A scalar broadcast to any shape reads the scalar everywhere. -/
theorem bcast_scalar_apply {α : Type} {s : Shape} (h : S_.BroadcastsInDim s ![]) (v : S_.Idx → α) (j : s.Idx) :
    broadcastInDim s ![] h v j = v ix0 :=
  congrArg v (funext fun a => a.elim0)

/-- A [8, 512] array as a [8, 512, 1] column reads, at (b, t, 0), the array at (b, t). -/
theorem bcast_col_apply {α : Type} (y : S8x512.Idx → α) (b : Fin 8) (t : Fin 512) (u : Fin 1) :
    broadcastInDim S8x512x1 ![0, 1] bcast_S8x512_S8x512x1_0_1 y (ix3 b t u) = y (ix2 b t) := by
  refine congrArg y (funext fun a => Fin.ext ?_)
  match a with
  | ⟨0, _⟩ => rfl
  | ⟨1, _⟩ => rfl

/-- A [8, 512, 1] column laid along the class axis reads, at (b, t, v), the column at (b, t, 0). -/
theorem bcast_row_apply {α : Type} (z : S8x512x1.Idx → α) (b : Fin 8) (t : Fin 512) (v : Fin 32000) :
    broadcastInDim S8x512x32000 ![0, 1, 2] bcast_S8x512x1_S8x512x32000_0_1_2 z (ix3 b t v) = z (ix3 b t (0 : Fin 1)) := by
  refine congrArg z (funext fun a => Fin.ext ?_)
  match a with
  | ⟨0, _⟩ => rfl
  | ⟨1, _⟩ => rfl
  | ⟨2, _⟩ => rfl

/-! ## The mask -/

/-- The comparison with the ignore label, read as a float: 0 at the ignore label, 1 elsewhere. -/
theorem mask_apply (Y : IVec S8x512 32) (b : Fin 8) (t : Fin 512) :
    (uitofp (F := Ideal) .f32 (cmpi .ne Y (broadcastInDim S8x512 ![] bcast_S_S8x512 (constantI S_ 32 4294967196#32)))
        : FVec Ideal S8x512 .f32) (ix2 b t)
      = (if Y (ix2 b t) = 4294967196#32 then (0 : EReal) else 1) := by
  show (((IntOp.cmpi .ne (Y (ix2 b t)) 4294967196#32).toNat : ℝ) : EReal) = _
  by_cases h : Y (ix2 b t) = 4294967196#32
  · rw [if_pos h, h]; simp [IntOp.cmpi]
  · rw [if_neg h]
    have hne : (Y (ix2 b t) != 4294967196#32) = true := by simpa using h
    simp [IntOp.cmpi, hne]

/-- The reference's mask at token (b, t): 0 where the label is the ignore label -100, else 1. -/
theorem refMask_apply (Y : IVec S8x512 32) (b : Fin 8) (t : Fin 512) :
    refMask (F := Ideal) Y (ix2 b t) = (if Y (ix2 b t) = 4294967196#32 then (0 : EReal) else 1) :=
  mask_apply Y b t

/-! ## The logits: the contraction over the hidden axis read at (b, t, v) -/

theorem logits_lhsBatch : dot_S8x512x4096_S32000x4096_S8x512x32000_2_1_01_0_n_n.lhsBatch = [] := rfl
theorem logits_lhsNon : dot_S8x512x4096_S32000x4096_S8x512x32000_2_1_01_0_n_n.lhsNonContracting = [0, 1] := rfl
theorem logits_rhsBatch : dot_S8x512x4096_S32000x4096_S8x512x32000_2_1_01_0_n_n.rhsBatch = [] := rfl
theorem logits_rhsNon : dot_S8x512x4096_S32000x4096_S8x512x32000_2_1_01_0_n_n.rhsNonContracting = [0] := rfl

theorem lhs_logits_0 (i : S8x512x32000.Idx) (q : dot_S8x512x4096_S32000x4096_S8x512x32000_2_1_01_0_n_n.contr.Idx) :
    (dot_S8x512x4096_S32000x4096_S8x512x32000_2_1_01_0_n_n.lhsIdx i q 0).val = (i 0).val := by
  unfold DotDims.lhsIdx
  rw [dif_neg (show ¬(0 : Fin S8x512x4096.rank) ∈ dot_S8x512x4096_S32000x4096_S8x512x32000_2_1_01_0_n_n.lhsBatch by rw [logits_lhsBatch]; decide),
    dif_pos (show (0 : Fin S8x512x4096.rank) ∈ dot_S8x512x4096_S32000x4096_S8x512x32000_2_1_01_0_n_n.lhsNonContracting by rw [logits_lhsNon]; decide)]
  rfl

theorem lhs_logits_1 (i : S8x512x32000.Idx) (q : dot_S8x512x4096_S32000x4096_S8x512x32000_2_1_01_0_n_n.contr.Idx) :
    (dot_S8x512x4096_S32000x4096_S8x512x32000_2_1_01_0_n_n.lhsIdx i q 1).val = (i 1).val := by
  unfold DotDims.lhsIdx
  rw [dif_neg (show ¬(1 : Fin S8x512x4096.rank) ∈ dot_S8x512x4096_S32000x4096_S8x512x32000_2_1_01_0_n_n.lhsBatch by rw [logits_lhsBatch]; decide),
    dif_pos (show (1 : Fin S8x512x4096.rank) ∈ dot_S8x512x4096_S32000x4096_S8x512x32000_2_1_01_0_n_n.lhsNonContracting by rw [logits_lhsNon]; decide)]
  rfl

theorem lhs_logits_2 (i : S8x512x32000.Idx) (q : dot_S8x512x4096_S32000x4096_S8x512x32000_2_1_01_0_n_n.contr.Idx) :
    (dot_S8x512x4096_S32000x4096_S8x512x32000_2_1_01_0_n_n.lhsIdx i q 2).val = (q ⟨0, Nat.one_pos⟩).val :=
  dot_S8x512x4096_S32000x4096_S8x512x32000_2_1_01_0_n_n.lhsIdx_val_of_single rfl i q

theorem rhs_logits_0 (i : S8x512x32000.Idx) (q : dot_S8x512x4096_S32000x4096_S8x512x32000_2_1_01_0_n_n.contr.Idx) :
    (dot_S8x512x4096_S32000x4096_S8x512x32000_2_1_01_0_n_n.rhsIdx i q 0).val = (i 2).val := by
  unfold DotDims.rhsIdx
  rw [dif_neg (show ¬(0 : Fin S32000x4096.rank) ∈ dot_S8x512x4096_S32000x4096_S8x512x32000_2_1_01_0_n_n.rhsBatch by rw [logits_rhsBatch]; decide),
    dif_pos (show (0 : Fin S32000x4096.rank) ∈ dot_S8x512x4096_S32000x4096_S8x512x32000_2_1_01_0_n_n.rhsNonContracting by rw [logits_rhsNon]; decide)]
  rfl

theorem rhs_logits_1 (i : S8x512x32000.Idx) (q : dot_S8x512x4096_S32000x4096_S8x512x32000_2_1_01_0_n_n.contr.Idx) :
    (dot_S8x512x4096_S32000x4096_S8x512x32000_2_1_01_0_n_n.rhsIdx i q 1).val = (q ⟨0, Nat.one_pos⟩).val :=
  dot_S8x512x4096_S32000x4096_S8x512x32000_2_1_01_0_n_n.rhsIdx_val_of_single rfl i q

/-- The logit of token (b, t) for class v is the sum over the hidden coordinates of activation times weight. -/
theorem logits_apply (X : FVec Ideal S8x512x4096 .f32) (W : FVec Ideal S32000x4096 .f32) (b : Fin 8) (t : Fin 512) (v : Fin 32000) :
    (Host.dotGeneral (F := Ideal) dot_S8x512x4096_S32000x4096_S8x512x32000_2_1_01_0_n_n none X W : FVec Ideal S8x512x32000 .f32) (ix3 b t v)
      = ∑ h : Fin 4096, X (ix3 b t h) * W (ix2 v h) := by
  simp only [Host.dotGeneral]
  rw [Ideal.dotGeneral_apply, ← Equiv.sum_comp (contrEquiv1 dot_S8x512x4096_S32000x4096_S8x512x32000_2_1_01_0_n_n 4096 rfl rfl).symm]
  refine Finset.sum_congr rfl fun k _ => ?_
  have hk := contrEquiv1_symm_val dot_S8x512x4096_S32000x4096_S8x512x32000_2_1_01_0_n_n 4096 rfl rfl k
  have el : dot_S8x512x4096_S32000x4096_S8x512x32000_2_1_01_0_n_n.lhsIdx (ix3 b t v)
      ((contrEquiv1 dot_S8x512x4096_S32000x4096_S8x512x32000_2_1_01_0_n_n 4096 rfl rfl).symm k) = ix3 b t k :=
    funext fun a => Fin.ext (by
      match a with
      | ⟨0, _⟩ => exact lhs_logits_0 _ _
      | ⟨1, _⟩ => exact lhs_logits_1 _ _
      | ⟨2, _⟩ => exact (lhs_logits_2 _ _).trans hk)
  have er : dot_S8x512x4096_S32000x4096_S8x512x32000_2_1_01_0_n_n.rhsIdx (ix3 b t v)
      ((contrEquiv1 dot_S8x512x4096_S32000x4096_S8x512x32000_2_1_01_0_n_n 4096 rfl rfl).symm k) = ix2 v k :=
    funext fun a => Fin.ext (by
      match a with
      | ⟨0, _⟩ => exact rhs_logits_0 _ _
      | ⟨1, _⟩ => exact (rhs_logits_1 _ _).trans hk)
  rw [el, er]

/-! ## The class axis's reductions read at (b, t) -/

/-- The [8, 512, 32000] shape with its class axis dropped is [8, 512]. -/
theorem reduces_cls : S8x512x32000.Reduces [2] S8x512 := by decide

/-- Token (b, t) with class v inserted on the dropped axis is (b, t, v). -/
theorem lift_cls (b : Fin 8) (t : Fin 512) (v : Fin 32000) : reduces_cls.lift (ix2 b t) v = ix3 b t v := by
  funext c
  refine Fin.ext ?_
  match c with
  | ⟨0, _⟩ => rfl
  | ⟨1, _⟩ => rfl
  | ⟨2, _⟩ => rfl

/-- The word 0xFF800000 is minus infinity. -/
theorem ofBits_neg_inf : Ideal.ofBits .f32 0xFF800000#32 = ⊥ := by
  simp [Ideal.ofBits, Ideal.ieee]

/-- The maximum over the class axis from minus infinity is the fold of max over the classes. -/
theorem rowmax_apply (x : FVec Ideal S8x512x32000 .f32) (b : Fin 8) (t : Fin 512) :
    (Host.reduce (FloatOps.maximumf (F := Ideal) (φ := .f32)) x (constant (F := Ideal) S_ .f32 0xFF800000#32)
        reducesTo_S8x512x32000_S8x512_d2 h_S_ : FVec Ideal S8x512 .f32) (ix2 b t)
      = (Finset.univ : Finset (Fin 32000)).fold max ⊥ (fun v => x (ix3 b t v)) := by
  refine (Host.reduce_eq_fold_single _ x _ reducesTo_S8x512x32000_S8x512_d2 reduces_cls h_S_ (ix2 b t)).trans ?_
  show (Finset.univ : Finset (Fin 32000)).fold max (Ideal.ofBits .f32 0xFF800000#32) (x ∘ reduces_cls.lift (ix2 b t)) = _
  rw [ofBits_neg_inf]
  exact congrArg (fun f : Fin 32000 → EReal => (Finset.univ : Finset (Fin 32000)).fold max ⊥ f)
    (funext fun v => congrArg x (lift_cls b t v))

/-- The sum over the class axis from zero is the sum over the classes. -/
theorem rowsum_apply (x : FVec Ideal S8x512x32000 .f32) (b : Fin 8) (t : Fin 512) :
    (Host.reduceAdd (F := Ideal) x (constant (F := Ideal) S_ .f32 0x00000000#32)
        reducesTo_S8x512x32000_S8x512_d2 h_S_ : FVec Ideal S8x512 .f32) (ix2 b t)
      = ∑ v : Fin 32000, x (ix3 b t v) := by
  show Ideal.hostReduceAdd reducesTo_S8x512x32000_S8x512_d2 x (Ideal.ofBits .f32 0x00000000#32) (ix2 b t) = _
  rw [Ideal.hostReduceAdd_single reducesTo_S8x512x32000_S8x512_d2 reduces_cls x _ (ix2 b t), Ideal.ofBits_zero_f32, zero_add]
  exact Finset.sum_congr rfl fun v _ => congrArg x (lift_cls b t v)

/-! ## The label words -/

/-- A select on "s is negative" between s + 32000 and s, as words. -/
theorem wrap_word (s : BitVec 32) :
    Scalar.select (IntOp.cmpi .slt s 0#32) (IntOp.addi s 32000#32) s = if s.slt 0#32 then s + 32000#32 else s := by
  unfold Scalar.select IntOp.cmpi IntOp.addi
  cases s.slt 0#32 <;> simp

/-- A select on "a is not the ignore label" between a and 0, as words. -/
theorem safe_word (a : BitVec 32) :
    Scalar.select (IntOp.cmpi .ne a 4294967196#32) a 0#32 = if a = 4294967196#32 then 0#32 else a := by
  unfold Scalar.select IntOp.cmpi
  by_cases h : a = 4294967196#32
  · rw [if_pos h, h]; decide
  · rw [if_neg h]
    have hne : (a != 4294967196#32) = true := by simpa using h
    simp [hne]

/-- The labels with the ignore label replaced by class 0, as a [8, 512, 1] column. -/
def safeLabels (Y : IVec S8x512 32) : IVec S8x512x1 32 :=
  broadcastInDim S8x512x1 ![0, 1] bcast_S8x512_S8x512x1_0_1
    (select (cmpi .ne Y (broadcastInDim S8x512 ![] bcast_S_S8x512 (constantI S_ 32 4294967196#32))) Y
      (broadcastInDim S8x512 ![] bcast_S_S8x512 (id (constantI S_ 32 0#32))))

theorem safeLabels_apply (Y : IVec S8x512 32) (b : Fin 8) (t : Fin 512) :
    safeLabels Y (ix3 b t (0 : Fin 1)) = if Y (ix2 b t) = 4294967196#32 then 0#32 else Y (ix2 b t) := by
  unfold safeLabels
  rw [bcast_col_apply]
  exact safe_word (Y (ix2 b t))

/-- The label column with negative labels counted from the end, as a [8, 512, 1, 1] array of start indices. -/
def wrapLabels (l : IVec S8x512x1 32) : IVec S8x512x1x1 32 :=
  shapeCast S8x512x1x1
    (select (cmpi .slt l (broadcastInDim S8x512x1 ![] bcast_S_S8x512x1 (constantI S_ 32 0#32)))
      (addi l (broadcastInDim S8x512x1 ![] bcast_S_S8x512x1 (constantI S_ 32 32000#32))) l)
    shapeCasts_S8x512x1_S8x512x1x1

theorem wrapLabels_apply (l : IVec S8x512x1 32) (b : Fin 8) (t : Fin 512) :
    wrapLabels l (ix4 b t (0 : Fin 1) (0 : Fin 1))
      = if (l (ix3 b t (0 : Fin 1))).slt 0#32 then l (ix3 b t (0 : Fin 1)) + 32000#32 else l (ix3 b t (0 : Fin 1)) := by
  unfold wrapLabels
  rw [shapeCast_apply _ shapeCasts_S8x512x1_S8x512x1x1 (ix4 b t (0 : Fin 1) (0 : Fin 1)) (ix3 b t (0 : Fin 1)) (by
    rw [Shape.rowMajor_val_four, Shape.rowMajor_val_three]
    show (b.val * 512 + t.val) * 1 + 0 = ((b.val * 512 + t.val) * 1 + 0) * 1 + 0
    omega)]
  exact wrap_word (l (ix3 b t (0 : Fin 1)))

/-! ## The in-range test -/

/-- The [8, 512, 1, 1] shape with its last axis dropped is [8, 512, 1]. -/
theorem reduces_unit : S8x512x1x1.Reduces [3] S8x512x1 := by decide

theorem lift_unit (b : Fin 8) (t : Fin 512) (u : Fin 1) (k : Fin 1) : reduces_unit.lift (ix3 b t u) k = ix4 b t u k := by
  funext c
  refine Fin.ext ?_
  match c with
  | ⟨0, _⟩ => rfl
  | ⟨1, _⟩ => rfl
  | ⟨2, _⟩ => rfl
  | ⟨3, _⟩ => rfl

/-- A fold of "and" from 1 over an axis of extent one is the one element (and 1). -/
theorem fold_andi_fin1 (f : Fin 1 → BitVec 1) :
    (Finset.univ : Finset (Fin 1)).fold IntOp.andi 1#1 f = IntOp.andi (f 0) 1#1 := by
  rw [Finset.univ_unique, Finset.fold_singleton]
  rfl

/-- Whether each start index lies in [0, 31999]. -/
def inRange (i : IVec S8x512x1x1 32) : IVec S8x512x1 1 :=
  Host.reduce IntOp.andi
    (andi (cmpi .sge i (broadcastInDim S8x512x1x1 ![] bcast_S_S8x512x1x1 (constantI S_ 32 0#32)))
      (cmpi .sle i (broadcastInDim S8x512x1x1 ![0, 1, 2, 3] bcast_S1x1x1x1_S8x512x1x1_0_1_2_3
        (broadcastInDim S1x1x1x1 ![3] bcast_S1_S1x1x1x1_3 (constantI S1 32 31999#32)))))
    (constantI S_ 1 1#1) reducesTo_S8x512x1x1_S8x512x1_d3 h_S_

theorem inRange_apply (i : IVec S8x512x1x1 32) (b : Fin 8) (t : Fin 512) :
    inRange i (ix3 b t (0 : Fin 1))
      = IntOp.andi (IntOp.andi (IntOp.cmpi .sge (i (ix4 b t (0 : Fin 1) (0 : Fin 1))) 0#32)
          (IntOp.cmpi .sle (i (ix4 b t (0 : Fin 1) (0 : Fin 1))) 31999#32)) 1#1 := by
  unfold inRange
  refine (Host.reduce_eq_fold_single _ _ _ reducesTo_S8x512x1x1_S8x512x1_d3 reduces_unit h_S_ (ix3 b t (0 : Fin 1))).trans ?_
  refine (fold_andi_fin1 _).trans ?_
  show IntOp.andi (IntOp.andi (IntOp.cmpi .sge (i (reduces_unit.lift (ix3 b t (0 : Fin 1)) (0 : Fin 1))) 0#32)
      (IntOp.cmpi .sle (i (reduces_unit.lift (ix3 b t (0 : Fin 1)) (0 : Fin 1))) 31999#32)) 1#1 = _
  rw [lift_unit]

/-- A start index in [0, 31999] passes the test. -/
theorem inRange_of_bounds (i : IVec S8x512x1x1 32) (b : Fin 8) (t : Fin 512)
    (h0 : (0#32).sle (i (ix4 b t (0 : Fin 1) (0 : Fin 1))) = true)
    (h1 : (i (ix4 b t (0 : Fin 1) (0 : Fin 1))).sle 31999#32 = true) :
    inRange i (ix3 b t (0 : Fin 1)) = 1#1 := by
  rw [inRange_apply]
  unfold IntOp.cmpi
  simp only [h0, h1]
  decide

/-! ## The gather along the class axis read at (b, t, 0) -/

theorem gather_obd : gather_S8x512x32000_S8x512x1x1_S8x512x1_n_2_01_01_2_3_111.operandBatchingDims = [0, 1] := rfl
theorem gather_csd : gather_S8x512x32000_S8x512x1x1_S8x512x1_n_2_01_01_2_3_111.collapsedSliceDims = [2] := rfl
theorem gather_sim : gather_S8x512x32000_S8x512x1x1_S8x512x1_n_2_01_01_2_3_111.startIndexMap = [2] := rfl

/-- On the first batching axis the operand index is the result's first coordinate. -/
theorem gather_cls_0 (idx : IVec S8x512x1x1 32) (b : Fin 8) (t : Fin 512) :
    (gather_S8x512x32000_S8x512x1x1_S8x512x1_n_2_01_01_2_3_111.operandIdx (ix3 b t (0 : Fin 1)) idx 0).val = b.val := by
  show gather_S8x512x32000_S8x512x1x1_S8x512x1_n_2_01_01_2_3_111.start (ix3 b t (0 : Fin 1)) idx 0 + gather_S8x512x32000_S8x512x1x1_S8x512x1_n_2_01_01_2_3_111.batchCoord (ix3 b t (0 : Fin 1)) 0
      + gather_S8x512x32000_S8x512x1x1_S8x512x1_n_2_01_01_2_3_111.offCoord (ix3 b t (0 : Fin 1)) 0 = _
  have hb : (0 : Fin S8x512x32000.rank) ∈ gather_S8x512x32000_S8x512x1x1_S8x512x1_n_2_01_01_2_3_111.operandBatchingDims := by rw [gather_obd]; decide
  rw [GatherDims.start_batching _ _ _ _ hb,
    GatherDims.offCoord_eq_zero _ _ _ (fun h => ((GatherDims.mem_sKept _ _).mp h).2 hb), Nat.zero_add, Nat.add_zero]
  unfold GatherDims.batchCoord
  rw [dif_pos hb]
  rfl

/-- On the second batching axis the operand index is the result's second coordinate. -/
theorem gather_cls_1 (idx : IVec S8x512x1x1 32) (b : Fin 8) (t : Fin 512) :
    (gather_S8x512x32000_S8x512x1x1_S8x512x1_n_2_01_01_2_3_111.operandIdx (ix3 b t (0 : Fin 1)) idx 1).val = t.val := by
  show gather_S8x512x32000_S8x512x1x1_S8x512x1_n_2_01_01_2_3_111.start (ix3 b t (0 : Fin 1)) idx 1 + gather_S8x512x32000_S8x512x1x1_S8x512x1_n_2_01_01_2_3_111.batchCoord (ix3 b t (0 : Fin 1)) 1
      + gather_S8x512x32000_S8x512x1x1_S8x512x1_n_2_01_01_2_3_111.offCoord (ix3 b t (0 : Fin 1)) 1 = _
  have hb : (1 : Fin S8x512x32000.rank) ∈ gather_S8x512x32000_S8x512x1x1_S8x512x1_n_2_01_01_2_3_111.operandBatchingDims := by rw [gather_obd]; decide
  rw [GatherDims.start_batching _ _ _ _ hb,
    GatherDims.offCoord_eq_zero _ _ _ (fun h => ((GatherDims.mem_sKept _ _).mp h).2 hb), Nat.zero_add, Nat.add_zero]
  unfold GatherDims.batchCoord
  rw [dif_pos hb]
  rfl

/-- On the class axis the operand index is the start index at (b, t, 0, 0), read signed and clamped into [0, 31999]. -/
theorem gather_cls_2 (idx : IVec S8x512x1x1 32) (b : Fin 8) (t : Fin 512) :
    (gather_S8x512x32000_S8x512x1x1_S8x512x1_n_2_01_01_2_3_111.operandIdx (ix3 b t (0 : Fin 1)) idx 2).val
      = min (idx (ix4 b t (0 : Fin 1) (0 : Fin 1))).toInt.toNat 31999 := by
  show gather_S8x512x32000_S8x512x1x1_S8x512x1_n_2_01_01_2_3_111.start (ix3 b t (0 : Fin 1)) idx 2 + gather_S8x512x32000_S8x512x1x1_S8x512x1_n_2_01_01_2_3_111.batchCoord (ix3 b t (0 : Fin 1)) 2
      + gather_S8x512x32000_S8x512x1x1_S8x512x1_n_2_01_01_2_3_111.offCoord (ix3 b t (0 : Fin 1)) 2 = _
  have hnb : (2 : Fin S8x512x32000.rank) ∉ gather_S8x512x32000_S8x512x1x1_S8x512x1_n_2_01_01_2_3_111.operandBatchingDims := by rw [gather_obd]; decide
  have hc : (2 : Fin S8x512x32000.rank) ∈ gather_S8x512x32000_S8x512x1x1_S8x512x1_n_2_01_01_2_3_111.collapsedSliceDims := by rw [gather_csd]; decide
  have hs : (2 : Fin S8x512x32000.rank) ∈ gather_S8x512x32000_S8x512x1x1_S8x512x1_n_2_01_01_2_3_111.startIndexMap := by rw [gather_sim]; decide
  rw [GatherDims.batchCoord_eq_zero _ _ _ hnb,
    GatherDims.offCoord_eq_zero _ _ _ (fun h => ((GatherDims.mem_sKept _ _).mp h).1 hc), Nat.add_zero]
  unfold GatherDims.start
  rw [dif_pos hs]
  have hsi : gather_S8x512x32000_S8x512x1x1_S8x512x1_n_2_01_01_2_3_111.siIdx (ix3 b t (0 : Fin 1))
      ⟨List.idxOf (2 : Fin S8x512x32000.rank) gather_S8x512x32000_S8x512x1x1_S8x512x1_n_2_01_01_2_3_111.startIndexMap, List.idxOf_lt_length_iff.2 hs⟩
        = ix4 b t (0 : Fin 1) (0 : Fin 1) := by
    funext c; refine Fin.ext ?_
    match c with
    | ⟨0, _⟩ => rfl
    | ⟨1, _⟩ => rfl
    | ⟨2, _⟩ => rfl
    | ⟨3, _⟩ => rfl
  rw [hsi]
  rfl

/-- Result element (b, t, 0) is the operand's row (b, t) at the start index (b, t, 0, 0), read signed and clamped
    into [0, 31999]. -/
theorem gather_cls_apply {α : Type} (x : S8x512x32000.Idx → α) (idx : IVec S8x512x1x1 32) (b : Fin 8) (t : Fin 512) :
    Host.gather gather_S8x512x32000_S8x512x1x1_S8x512x1_n_2_01_01_2_3_111 x idx (ix3 b t (0 : Fin 1))
      = x (ix3 b t ⟨min (idx (ix4 b t (0 : Fin 1) (0 : Fin 1))).toInt.toNat 31999, by omega⟩) := by
  unfold Host.gather
  refine congrArg x (funext fun a => Fin.ext ?_)
  match a with
  | ⟨0, _⟩ => exact gather_cls_0 idx b t
  | ⟨1, _⟩ => exact gather_cls_1 idx b t
  | ⟨2, _⟩ => exact gather_cls_2 idx b t

/-! ## The log-softmax along the class axis read at (b, t, v) -/

/-- The row maximum as the program takes it: the maximum of minus infinity with the reduction from minus infinity. -/
def rowMaxV (x : FVec Ideal S8x512x32000 .f32) : FVec Ideal S8x512 .f32 :=
  maximumf (broadcastInDim S8x512 ![] bcast_S_S8x512 (constant (F := Ideal) S_ .f32 0xFF800000#32))
    (Host.reduce (FloatOps.maximumf (F := Ideal) (φ := .f32)) x (constant (F := Ideal) S_ .f32 0xFF800000#32)
      reducesTo_S8x512x32000_S8x512_d2 h_S_)

theorem rowMaxV_apply (x : FVec Ideal S8x512x32000 .f32) (b : Fin 8) (t : Fin 512) :
    rowMaxV x (ix2 b t) = (Finset.univ : Finset (Fin 32000)).fold max ⊥ (fun v => x (ix3 b t v)) := by
  unfold rowMaxV
  rw [maximumf_apply, rowmax_apply, bcast_scalar_apply]
  show max (Ideal.ofBits .f32 0xFF800000#32) _ = _
  rw [ofBits_neg_inf]
  exact max_eq_right bot_le

/-- The logits less their row maximum. -/
def centered (x : FVec Ideal S8x512x32000 .f32) : FVec Ideal S8x512x32000 .f32 :=
  subf x (broadcastInDim S8x512x32000 ![0, 1, 2] bcast_S8x512x1_S8x512x32000_0_1_2
    (broadcastInDim S8x512x1 ![0, 1] bcast_S8x512_S8x512x1_0_1 (rowMaxV x)))

theorem centered_apply (x : FVec Ideal S8x512x32000 .f32) (b : Fin 8) (t : Fin 512) (v : Fin 32000) :
    centered x (ix3 b t v) = x (ix3 b t v) - (Finset.univ : Finset (Fin 32000)).fold max ⊥ (fun v => x (ix3 b t v)) := by
  unfold centered
  rw [subf_apply, bcast_row_apply, bcast_col_apply, rowMaxV_apply]

/-- The host's logarithm at an index is the logarithm of the element. -/
theorem hostLog_apply {s : Shape} (z : FVec Ideal s .f32) (i : s.Idx) : Host.log z i = Ideal.log (z i) := rfl

/-- The host's exponential at an index is the exponential of the element. -/
theorem hostExp_apply {s : Shape} (z : FVec Ideal s .f32) (i : s.Idx) : Host.exp z i = Ideal.exp (z i) := rfl

/-- The logarithm of the row's sum of exponentials, as a [8, 512, 1] column. -/
def logSumExp (x : FVec Ideal S8x512x32000 .f32) : FVec Ideal S8x512x1 .f32 :=
  Host.log (broadcastInDim S8x512x1 ![0, 1] bcast_S8x512_S8x512x1_0_1
    (Host.reduceAdd (F := Ideal) (Host.exp (centered x)) (constant (F := Ideal) S_ .f32 0x00000000#32)
      reducesTo_S8x512x32000_S8x512_d2 h_S_))

theorem logSumExp_apply (x : FVec Ideal S8x512x32000 .f32) (b : Fin 8) (t : Fin 512) :
    logSumExp x (ix3 b t (0 : Fin 1)) = Ideal.log (∑ v : Fin 32000, Ideal.exp (centered x (ix3 b t v))) := by
  unfold logSumExp
  rw [hostLog_apply, bcast_col_apply, rowsum_apply]
  rfl

/-- The log-softmax: the centered logits less the logarithm of the row's sum of exponentials. -/
def logSoftmax (x : FVec Ideal S8x512x32000 .f32) : FVec Ideal S8x512x32000 .f32 :=
  subf (centered x) (broadcastInDim S8x512x32000 ![0, 1, 2] bcast_S8x512x1_S8x512x32000_0_1_2 (logSumExp x))

theorem logSoftmax_apply (x : FVec Ideal S8x512x32000 .f32) (b : Fin 8) (t : Fin 512) (v : Fin 32000) :
    logSoftmax x (ix3 b t v)
      = centered x (ix3 b t v) - Ideal.log (∑ v : Fin 32000, Ideal.exp (centered x (ix3 b t v))) := by
  unfold logSoftmax
  rw [subf_apply, bcast_row_apply, logSumExp_apply]

/-! ## The per-token log-probability -/

/-- The entry of each row the label column selects, the NaN fill where the start index is out of range. -/
def takeAlong (lp : FVec Ideal S8x512x32000 .f32) (l : IVec S8x512x1 32) : FVec Ideal S8x512x1 .f32 :=
  select (inRange (wrapLabels l)) (Host.gather gather_S8x512x32000_S8x512x1x1_S8x512x1_n_2_01_01_2_3_111 lp (wrapLabels l))
    (broadcastInDim S8x512x1 ![] bcast_S_S8x512x1 (constant (F := Ideal) S_ .f32 0x7FC00000#32))

/-- The reference's per-token log-probability is the composition of those stages. -/
theorem refTokLp_eq (X : FVec Ideal S8x512x4096 .f32) (Y : IVec S8x512 32) (W : FVec Ideal S32000x4096 .f32) :
    refTokLp (F := Ideal) X Y W
      = shapeCast S8x512 (takeAlong (logSoftmax
          (Host.dotGeneral (F := Ideal) dot_S8x512x4096_S32000x4096_S8x512x32000_2_1_01_0_n_n none X W)) (safeLabels Y)) shapeCasts_S8x512x1_S8x512 := rfl

/-- The start index of token (b, t) is the class word of its label. -/
theorem startIdx_apply (Y : IVec S8x512 32) (b : Fin 8) (t : Fin 512) :
    wrapLabels (safeLabels Y) (ix4 b t (0 : Fin 1) (0 : Fin 1)) = Cert.Cpo.clsWord (Y (ix2 b t)) := by
  rw [wrapLabels_apply, safeLabels_apply]
  rfl

/-- A word below 32000 read signed and clamped into [0, 31999] is its value. -/
theorem clamp_small (n : BitVec 32) (h : n.toNat < 32000) : min n.toInt.toNat 31999 = n.toNat := by
  rw [StableHlo.Predicate.toInt_eq_toNat_of_lt (by omega), Int.toNat_natCast]
  omega

/-- The reference's per-token log-probability at token (b, t), when the label's class word lies in [0, 31999]: the
    log-probability of that class, in the reference's arrangement. -/
theorem refTokLp_apply (X : FVec Ideal S8x512x4096 .f32) (Y : IVec S8x512 32) (W : FVec Ideal S32000x4096 .f32)
    (b : Fin 8) (t : Fin 512)
    (hcls : (Cert.Cpo.clsWord (Y (ix2 b t))).toNat < 32000 ∧ (0#32).sle (Cert.Cpo.clsWord (Y (ix2 b t))) = true
      ∧ (Cert.Cpo.clsWord (Y (ix2 b t))).sle 31999#32 = true) :
    refTokLp (F := Ideal) X Y W (ix2 b t)
      = Cert.Cpo.lpRef X W b t ⟨(Cert.Cpo.clsWord (Y (ix2 b t))).toNat, hcls.1⟩ := by
  have hw := startIdx_apply Y b t
  have hin : inRange (wrapLabels (safeLabels Y)) (ix3 b t (0 : Fin 1)) = 1#1 :=
    inRange_of_bounds _ b t (by rw [hw]; exact hcls.2.1) (by rw [hw]; exact hcls.2.2)
  have hk : (⟨min (wrapLabels (safeLabels Y) (ix4 b t (0 : Fin 1) (0 : Fin 1))).toInt.toNat 31999, by omega⟩ : Fin 32000)
      = ⟨(Cert.Cpo.clsWord (Y (ix2 b t))).toNat, hcls.1⟩ :=
    Fin.ext (by show min _ 31999 = _; rw [hw]; exact clamp_small _ hcls.1)
  have hL : ∀ v : Fin 32000, (Host.dotGeneral (F := Ideal) dot_S8x512x4096_S32000x4096_S8x512x32000_2_1_01_0_n_n none X W : FVec Ideal S8x512x32000 .f32) (ix3 b t v)
      = Cert.Cpo.logit X W b t v := fun v => logits_apply X W b t v
  rw [refTokLp_eq, shapeCast_apply _ shapeCasts_S8x512x1_S8x512 (ix2 b t) (ix3 b t (0 : Fin 1)) (by
    rw [Shape.rowMajor_val_three, Shape.rowMajor_val_two]
    show (b.val * 512 + t.val) * 1 + 0 = b.val * 512 + t.val
    omega)]
  unfold takeAlong
  rw [select_apply, hin, select_one, gather_cls_apply, hk, logSoftmax_apply]
  simp only [centered_apply, hL]
  rfl

end Cert.ReferenceIdeal.Cpo

end
-- ==== Proof.Reshapes.lean ====
/-
  Reshapes between the token axis of length 4096 and the [8, 512] token grid, and between a column [4096, 1] and a
  vector [4096], read at an index: row-major order identifies token 512 b + t with the pair (b, t).
-/
import Idealize.ShloMosaic.Lib.Pipeline.Value
import Idealize.ShloMosaic.Lib.ValueIdx

noncomputable section

namespace Cert.Cpo

open Idealize.ShloMosaic Idealize.ShloMosaic.ValueIdx

/-- Token 512 b + t. -/
def tok (b : Fin 8) (t : Fin 512) : Fin 4096 := ⟨512 * b.val + t.val, by omega⟩

theorem cast_grid {α : Type} (f : (⟨1, ![4096]⟩ : Shape).Idx → α) (h : (⟨1, ![4096]⟩ : Shape).ShapeCasts ⟨2, ![8, 512]⟩)
    (b : Fin 8) (t : Fin 512) : shapeCast ⟨2, ![8, 512]⟩ f h (ix2 b t) = f (ix1 (tok b t)) :=
  shapeCast_apply f h (ix2 b t) (ix1 (tok b t)) (by
    rw [Shape.rowMajor_val_one, Shape.rowMajor_val_two]; show 512 * b.val + t.val = b.val * 512 + t.val; omega)

theorem cast_col {α : Type} (g : (⟨2, ![4096, 1]⟩ : Shape).Idx → α) (h : (⟨2, ![4096, 1]⟩ : Shape).ShapeCasts ⟨1, ![4096]⟩)
    (i : Fin 4096) : shapeCast ⟨1, ![4096]⟩ g h (ix1 i) = g (ix2 i 0) :=
  shapeCast_apply g h (ix1 i) (ix2 i 0) (by
    rw [Shape.rowMajor_val_two, Shape.rowMajor_val_one]; show i.val * 1 + 0 = i.val; omega)

end Cert.Cpo

end
-- ==== Proof.Bridge.lean ====
/-
  The two idealized programs end with equal results.

  Both end in the same chain of host operations applied to the per-token log-probabilities and the mask, so it is
  enough that those two arrays agree. The mask is the same comparison of the label word with -100 on both sides.
  For a token (b, t) with class c (the label's class word, in range by the precondition) the kernel's program holds
  logit(c) - (M + log S) and the reference's (logit(c) - M) - log S, with M the largest logit of the token and S the
  sum over the classes of exp (logit - M); the logits are real because the inputs are finite, M is then real and S a
  positive real, and the two arrangements agree on real numbers.
-/
import proofs.«426376_j48859547959894_3_alg».proof.Defs
import proofs.«426376_j48859547959894_3_alg».proof.Proof.FrameRun
import proofs.«426376_j48859547959894_3_alg».proof.Proof.KTail
import proofs.«426376_j48859547959894_3_alg».proof.Proof.KPre
import proofs.«426376_j48859547959894_3_alg».proof.Proof.KValue
import proofs.«426376_j48859547959894_3_alg».proof.Proof.RefRun
import proofs.«426376_j48859547959894_3_alg».proof.Proof.RefValue
import proofs.«426376_j48859547959894_3_alg».proof.Proof.LseMath
import proofs.«426376_j48859547959894_3_alg».proof.Proof.PreDecode
import proofs.«426376_j48859547959894_3_alg».proof.Proof.Reshapes
import proofs.«426376_j48859547959894_3_alg».proof.Proof.Gen.ReferenceIdeal
import proofs.«426376_j48859547959894_3_alg».proof.Proof.Gen.Pre_finite_inputs

noncomputable section

namespace Cert.Bridge

open Idealize.ShloMosaic Idealize.ShloMosaic.TcCoe Idealize.ShloMosaic.ValueIdx Idealize.SL.Sem
open Cert.KernelIdeal Cert.KernelIdeal.Gen Cert.KernelIdeal.Cpo

variable (m : (ℓ : Loc nD τ sig) → Buf (Elt Ideal) ℓ) (ρ : Dev nD → PrngReg)

/-- The shared chain of host operations, as the two programs print it, is one function. -/
theorem tails_eq (lp mk : FVec Ideal S8x512 .f32) :
    Cert.ReferenceIdeal.Cpo.refTail (F := Ideal) lp mk = kTail (F := Ideal) lp mk := rfl

/-- A difference of two vectors at an index. -/
theorem subf_at {s : Shape} (u v : FVec Ideal s .f32) (i : s.Idx) : subf u v i = u i - v i := rfl

/-- The class word of a label in [-32000, 32000) names a class. -/
theorem cls_ok (a : BitVec 32) (h : (-32000 : Int) ≤ a.toInt ∧ a.toInt < 32000) :
    (Cert.Cpo.clsWord a).toNat < 32000 ∧ (0#32).sle (Cert.Cpo.clsWord a) = true ∧ (Cert.Cpo.clsWord a).sle 31999#32 = true :=
  Cert.Cpo.PreDecode.norm_inrange a h

/-- Under the precondition the kernel program's result is the reference's result term of the same arguments. -/
theorem kernel_value (c : Dev nD)
    (hX : ∀ i, ∃ r : ℝ, m ((c : Thread nD τ).loc main_arg0) i = (r : EReal))
    (hW : ∀ i, ∃ r : ℝ, m ((c : Thread nD τ).loc main_arg2) i = (r : EReal))
    (hY : ∀ i, (-32000 : Int) ≤ (m ((c : Thread nD τ).loc main_arg1) i).toInt ∧ (m ((c : Thread nD τ).loc main_arg1) i).toInt < 32000) :
    Pipeline.afterTail₀ cfgs (dats (F := Ideal) m) 0 (V0 m) tailOps c main_v51
      = Cert.ReferenceIdeal.Cpo.refResult (F := Ideal) (m ((c : Thread nD τ).loc main_arg0)) (m ((c : Thread nD τ).loc main_arg1)) (m ((c : Thread nD τ).loc main_arg2)) := by
  rw [tail_value (F := Ideal) m (dats m) c]
  unfold Cert.ReferenceIdeal.Cpo.refResult
  rw [tails_eq]
  congr 1
  · funext j
    obtain ⟨b, t, rfl⟩ : ∃ (b : Fin 8) (t : Fin 512), j = ix2 b t := ⟨j 0, j 1, eq_ix2 j⟩
    have hc := cls_ok _ (hY (ix2 b t))
    rw [Cert.ReferenceIdeal.Cpo.refTokLp_apply _ _ _ b t hc, ← Cert.Cpo.lpKer_eq_lpRef hX hW]
    refine (Cert.Cpo.cast_grid _ _ b t).trans ?_
    refine (subf_at _ _ _).trans ?_
    exact congrArg₂ (fun u v : EReal => u - v) (V_logit m c b t hc)
      ((Cert.Cpo.cast_col _ _ _).trans (lse_array m c hX hW b t))
  · funext j
    obtain ⟨b, t, rfl⟩ : ∃ (b : Fin 8) (t : Fin 512), j = ix2 b t := ⟨j 0, j 1, eq_ix2 j⟩
    rw [Cert.ReferenceIdeal.Cpo.refMask_apply]
    refine (Cert.Cpo.cast_grid _ _ b t).trans ?_
    exact V_mask m c b t

/-- The algebraic conjunct. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hd := fun c => Cert.Cpo.PreDecode.decode _ _ _ (hpre c)
  refine ⟨fun c => Cert.ReferenceIdeal.Cpo.refResult (F := Ideal) (m ((c : Thread nD τ).loc main_arg0)) (m ((c : Thread nD τ).loc main_arg1)) (m ((c : Thread nD τ).loc main_arg2)), ?_, ?_⟩
  · refine (θ_run Cert.KernelIdeal.defs _ _).mono (fun r h c => ⟨?_, ?_, ?_, ?_⟩) (run_main (F := Ideal) m ρ)
    · exact ((h c).2 main_v51 (Pipeline.mem_restRefs_of main_v51 (by decide) (by decide))).trans
        (kernel_value m c (hd c).1 (hd c).2.1 (hd c).2.2)
    · exact ((h c).2 main_arg0 (Pipeline.mem_restRefs_of main_arg0 (by decide) (by decide))).trans (W_arg m (dats m) c main_arg0 (.inl rfl))
    · exact ((h c).2 main_arg1 (Pipeline.mem_restRefs_of main_arg1 (by decide) (by decide))).trans (W_arg m (dats m) c main_arg1 (.inr (.inl rfl)))
    · exact ((h c).2 main_arg2 (Pipeline.mem_restRefs_of main_arg2 (by decide) (by decide))).trans (W_arg m (dats m) c main_arg2 (.inr (.inr rfl)))
  · refine (θ_run Cert.ReferenceIdeal.defs _ _).mono (fun r h c => ⟨?_, (h c).2⟩) (Cert.ReferenceIdeal.Hand.run (F := Ideal) m' ρ')
    rw [(h c).1, (hagree c).1, (hagree c).2.1, (hagree c).2.2]

end Cert.Bridge

end
-- ==== Proof.lean ====
/-
  The certificate's claim, assembled.

  The kernel's program computes, per token, the inner product of the activation row with the weight row of the
  label's class, minus the token's log-sum-exp, which a launch over a 4 x 50 grid accumulates block by block of 640
  classes with a running maximum and a running sum; the reference takes the log-softmax of all the logits and reads
  the label's entry. Both then form the same masked means and the same preference loss.

  The three frames: the kernel's program, at the word level and at the extended reals, by one frame proof generic in
  the float instance (the launch theorem for a body that carries scratch between grid points, continued by the host
  operations after the launch); the reference by its run as a list of host operations. Nothing was rewritten by the
  idealization, so its soundness conjunct is trivial. The two idealized programs agree under the precondition (finite
  activations and weights; labels in [-32000, 32000), where the reference indexes its class axis in range).
-/
import proofs.«426376_j48859547959894_3_alg».proof.Defs
import proofs.«426376_j48859547959894_3_alg».proof.Proof.FrameRun
import proofs.«426376_j48859547959894_3_alg».proof.Proof.BitsFrameRun
import proofs.«426376_j48859547959894_3_alg».proof.Proof.RefRun
import proofs.«426376_j48859547959894_3_alg».proof.Proof.Bridge
import proofs.«426376_j48859547959894_3_alg».proof.Proof.Gen.Kernel
import proofs.«426376_j48859547959894_3_alg».proof.Proof.Gen.KernelIdeal
import proofs.«426376_j48859547959894_3_alg».proof.Proof.Gen.ReferenceIdeal
import proofs.«426376_j48859547959894_3_alg».proof.Proof.Gen.Pre_finite_inputs

noncomputable section

namespace Cert.Proof

open Idealize.ShloMosaic Idealize.SL.Sem

/-- The word-level kernel program runs to its end and leaves its arguments unchanged. -/
theorem frame_k : Cert.frame_Kernel (hKernel := Cert.Kernel.Gen.facts) (hPre_finite_inputs := Cert.Pre_finite_inputs.Gen.facts) :=
  fun m ρ _ => Cert.Kernel.Cpo.frame (F := Bits) m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Cpo.frame (F := Ideal) m ρ

/-- And the idealized reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Bridge.algebraic⟩

end Cert.Proof

end
